-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x322 : Shape := ⟨2, ![131072, 322]⟩
abbrev S131072x96 : Shape := ⟨2, ![131072, 96]⟩
abbrev S41216 : Shape := ⟨1, ![41216]⟩
abbrev S12288 : Shape := ⟨1, ![12288]⟩
abbrev S384 : Shape := ⟨1, ![384]⟩
abbrev S41216x2 : Shape := ⟨2, ![41216, 2]⟩
abbrev S12288x2 : Shape := ⟨2, ![12288, 2]⟩
abbrev S_ : Shape := ⟨0, ![]⟩

class Facts : Prop where
  bcast_S_S131072x322 : S_.BroadcastsInDim S131072x322 (![] : Fin 0 → Fin S131072x322.rank)
  reducesTo_S131072x322_S_d0_1 : S131072x322.ReducesTo [0, 1] S_
  h_S_ : 0 < S_.numel
  bcast_S_S131072x96 : S_.BroadcastsInDim S131072x96 (![] : Fin 0 → Fin S131072x96.rank)
  reducesTo_S131072x96_S_d0_1 : S131072x96.ReducesTo [0, 1] S_
  bcast_S_S41216 : S_.BroadcastsInDim S41216 (![] : Fin 0 → Fin S41216.rank)
  reducesTo_S41216_S_d0 : S41216.ReducesTo [0] S_
  bcast_S_S12288 : S_.BroadcastsInDim S12288 (![] : Fin 0 → Fin S12288.rank)
  reducesTo_S12288_S_d0 : S12288.ReducesTo [0] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S12288 .f32) (main_arg5 : FVec F S384 .f32) (main_v13 : IVec S_ 1) (main_v16 : IVec S41216 1) : IVec S_ 1 :=
  let main_c_5 : IVec S_ 1 := constantI S_ 1 1#1
  let main_v17 : IVec S_ 1 := (fun x v => Host.reduce IntOp.andi x v reducesTo_S41216_S_d0 h_S_) main_v16 main_c_5
  let main_v18 : IVec S_ 1 := andi main_v13 main_v17
  let main_v19 : FVec F S12288 .f32 := Host.absf main_arg4
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  main_v28

def fn {F : FTy → Type} [FloatOps F] (main_arg0 : FVec F S131072x322 .f32) (main_arg1 : FVec F S131072x96 .f32) (main_arg2 : FVec F S131072x96 .f32) (main_arg3 : FVec F S41216 .f32) (main_arg4 : FVec F S12288 .f32) (main_arg5 : FVec F S384 .f32) (main_arg6 : IVec S41216x2 32) (main_arg7 : IVec S12288x2 32) : IVec S_ 1 :=
  let main_v0 : FVec F S131072x322 .f32 := Host.absf main_arg0
  let main_cst : FVec F S_ .f32 := constant S_ .f32 0x7F800000#32
  let main_v1 : FVec F S131072x322 .f32 := broadcastInDim S131072x322 ![] bcast_S_S131072x322 main_cst
  let main_v2 : IVec S131072x322 1 := cmpf .olt main_v0 main_v1
  let main_c : IVec S_ 1 := constantI S_ 1 1#1
  let main_v3 : IVec S_ 1 := (fun x v => Host.reduce IntOp.andi x v reducesTo_S131072x322_S_d0_1 h_S_) main_v2 main_c
  let main_v4 : FVec F S131072x96 .f32 := Host.absf main_arg1
  let main_cst_0 : FVec F S_ .f32 := constant S_ .f32 0x7F800000#32
  let main_v5 : FVec F S131072x96 .f32 := broadcastInDim S131072x96 ![] bcast_S_S131072x96 main_cst_0
  let main_v6 : IVec S131072x96 1 := cmpf .olt main_v4 main_v5
  let main_c_1 : IVec S_ 1 := constantI S_ 1 1#1
  let main_v7 : IVec S_ 1 := (fun x v => Host.reduce IntOp.andi x v reducesTo_S131072x96_S_d0_1 h_S_) main_v6 main_c_1
  let main_v8 : IVec S_ 1 := andi main_v3 main_v7
  let main_v9 : FVec F S131072x96 .f32 := Host.absf main_arg2
  let main_cst_2 : FVec F S_ .f32 := constant S_ .f32 0x7F800000#32
  let main_v10 : FVec F S131072x96 .f32 := broadcastInDim S131072x96 ![] bcast_S_S131072x96 main_cst_2
  let main_v11 : IVec S131072x96 1 := cmpf .olt main_v9 main_v10
  let main_c_3 : IVec S_ 1 := constantI S_ 1 1#1
  let main_v12 : IVec S_ 1 := (fun x v => Host.reduce IntOp.andi x v reducesTo_S131072x96_S_d0_1 h_S_) main_v11 main_c_3
  let main_v13 : IVec S_ 1 := andi main_v8 main_v12
  let main_v14 : FVec F S41216 .f32 := Host.absf main_arg3
  let main_cst_4 : FVec F S_ .f32 := constant S_ .f32 0x7F800000#32
  let main_v15 : FVec F S41216 .f32 := broadcastInDim S41216 ![] bcast_S_S41216 main_cst_4
  let main_v16 : IVec S41216 1 := cmpf .olt main_v14 main_v15
  fn_part1 (F := F) main_arg4 main_arg5 main_v13 main_v16
-- ==== Kernel.lean ====
abbrev S131072x322 : Shape := ⟨2, ![131072, 322]⟩
abbrev S131072x96 : Shape := ⟨2, ![131072, 96]⟩
abbrev S41216 : Shape := ⟨1, ![41216]⟩
abbrev S12288 : Shape := ⟨1, ![12288]⟩
abbrev S384 : Shape := ⟨1, ![384]⟩
abbrev S41216x2 : Shape := ⟨2, ![41216, 2]⟩
abbrev S12288x2 : Shape := ⟨2, ![12288, 2]⟩
abbrev S41216x1 : Shape := ⟨2, ![41216, 1]⟩
abbrev S_ : Shape := ⟨0, ![]⟩
abbrev S12288x1 : Shape := ⟨2, ![12288, 1]⟩
abbrev S322x512 : Shape := ⟨2, ![322, 512]⟩
abbrev S96x512 : Shape := ⟨2, ![96, 512]⟩
abbrev S512 : Shape := ⟨1, ![512]⟩
abbrev S384x1 : Shape := ⟨2, ![384, 1]⟩
abbrev S1x512 : Shape := ⟨2, ![1, 512]⟩
abbrev S4096x322 : Shape := ⟨2, ![4096, 322]⟩
abbrev S4096x96 : Shape := ⟨2, ![4096, 96]⟩
abbrev S2048x322 : Shape := ⟨2, ![2048, 322]⟩
abbrev S2048x512 : Shape := ⟨2, ![2048, 512]⟩
abbrev S2048x96 : Shape := ⟨2, ![2048, 96]⟩
abbrev S2048x128 : Shape := ⟨2, ![2048, 128]⟩

abbrev nBuf : Space → Nat
  | .hbm => 205
  | .vmem => 13
  | .smem => 0
  | _ => 0

abbrev hbmTy0_0 (i : Nat) : BufTy := match i % 128 with
  | 0 => ⟨S131072x322, .f32⟩
  | 1 => ⟨S131072x96, .f32⟩
  | 2 => ⟨S131072x96, .f32⟩
  | 3 => ⟨S41216, .f32⟩
  | 4 => ⟨S12288, .f32⟩
  | 5 => ⟨S384, .f32⟩
  | 6 => ⟨S41216x2, .i32⟩
  | 7 => ⟨S12288x2, .i32⟩
  | 8 => ⟨S41216x1, .i32⟩
  | 9 => ⟨S41216, .i32⟩
  | 10 => ⟨S_, .i32⟩
  | 11 => ⟨S_, .i32⟩
  | 12 => ⟨S41216, .i32⟩
  | 13 => ⟨S41216, .i32⟩
  | 14 => ⟨S41216, .i32⟩
  | 15 => ⟨S_, .i32⟩
  | 16 => ⟨S41216, .i32⟩
  | 17 => ⟨S41216, .i1⟩
  | 18 => ⟨S41216, .i32⟩
  | 19 => ⟨S41216, .i32⟩
  | 20 => ⟨S_, .i32⟩
  | 21 => ⟨S41216, .i32⟩
  | 22 => ⟨S41216, .i1⟩
  | 23 => ⟨S41216, .i1⟩
  | 24 => ⟨S_, .i32⟩
  | 25 => ⟨S41216, .i32⟩
  | 26 => ⟨S41216, .i32⟩
  | 27 => ⟨S41216, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S41216, .i32⟩
  | 35 => ⟨S41216, .i32⟩
  | 36 => ⟨S_, .i32⟩
  | 37 => ⟨S41216, .i32⟩
  | 38 => ⟨S41216, .i1⟩
  | 39 => ⟨S_, .i32⟩
  | 40 => ⟨S41216, .i32⟩
  | 41 => ⟨S41216, .i1⟩
  | 42 => ⟨S_, .i32⟩
  | 43 => ⟨S_, .i1⟩
  | 44 => ⟨S41216, .i1⟩
  | 45 => ⟨S41216, .i1⟩
  | 46 => ⟨S41216, .i1⟩
  | 47 => ⟨S41216, .i32⟩
  | 48 => ⟨S41216, .i32⟩
  | 49 => ⟨S41216, .i32⟩
  | 50 => ⟨S_, .i32⟩
  | 51 => ⟨S41216, .i32⟩
  | 52 => ⟨S41216, .i32⟩
  | 53 => ⟨S41216, .i32⟩
  | 54 => ⟨S12288x1, .i32⟩
  | 55 => ⟨S12288, .i32⟩
  | 56 => ⟨S_, .i32⟩
  | 57 => ⟨S_, .i32⟩
  | 58 => ⟨S12288, .i32⟩
  | 59 => ⟨S12288, .i32⟩
  | 60 => ⟨S12288, .i32⟩
  | 61 => ⟨S_, .i32⟩
  | 62 => ⟨S12288, .i32⟩
  | 63 => ⟨S12288, .i1⟩
  | 64 => ⟨S12288, .i32⟩
  | 65 => ⟨S12288, .i32⟩
  | 66 => ⟨S_, .i32⟩
  | 67 => ⟨S12288, .i32⟩
  | 68 => ⟨S12288, .i1⟩
  | 69 => ⟨S12288, .i1⟩
  | 70 => ⟨S_, .i32⟩
  | 71 => ⟨S12288, .i32⟩
  | 72 => ⟨S12288, .i32⟩
  | 73 => ⟨S12288, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S12288, .i32⟩
  | 81 => ⟨S12288, .i32⟩
  | 82 => ⟨S_, .i32⟩
  | 83 => ⟨S12288, .i32⟩
  | 84 => ⟨S12288, .i1⟩
  | 85 => ⟨S_, .i32⟩
  | 86 => ⟨S12288, .i32⟩
  | 87 => ⟨S12288, .i1⟩
  | 88 => ⟨S_, .i32⟩
  | 89 => ⟨S_, .i1⟩
  | 90 => ⟨S12288, .i1⟩
  | 91 => ⟨S12288, .i1⟩
  | 92 => ⟨S12288, .i1⟩
  | 93 => ⟨S12288, .i32⟩
  | 94 => ⟨S12288, .i32⟩
  | 95 => ⟨S12288, .i32⟩
  | 96 => ⟨S_, .i32⟩
  | 97 => ⟨S12288, .i32⟩
  | 98 => ⟨S12288, .i32⟩
  | 99 => ⟨S12288, .i32⟩
  | 100 => ⟨S_, .f32⟩
  | 101 => ⟨S322x512, .f32⟩
  | 102 => ⟨S41216x1, .i32⟩
  | 103 => ⟨S41216, .i32⟩
  | 104 => ⟨S_, .i32⟩
  | 105 => ⟨S41216, .i32⟩
  | 106 => ⟨S41216, .i1⟩
  | 107 => ⟨S_, .i32⟩
  | 108 => ⟨S41216, .i32⟩
  | 109 => ⟨S41216, .i32⟩
  | 110 => ⟨S41216, .i32⟩
  | 111 => ⟨S_, .i32⟩
  | 112 => ⟨S41216, .i32⟩
  | 113 => ⟨S41216, .i1⟩
  | 114 => ⟨S_, .i32⟩
  | 115 => ⟨S41216, .i32⟩
  | 116 => ⟨S41216, .i32⟩
  | 117 => ⟨S41216, .i32⟩
  | 118 => ⟨S41216x1, .i32⟩
  | 119 => ⟨S41216x1, .i32⟩
  | 120 => ⟨S41216x2, .i32⟩
  | 121 => ⟨S322x512, .f32⟩
  | 122 => ⟨S_, .f32⟩
  | 123 => ⟨S96x512, .f32⟩
  | 124 => ⟨S12288x1, .i32⟩
  | 125 => ⟨S12288, .i32⟩
  | 126 => ⟨S_, .i32⟩
  | 127 => ⟨S12288, .i32⟩
  | _ => ⟨S131072x322, .f32⟩

abbrev hbmTy0_1 (i : Nat) : BufTy := match i % 128 with
  | 0 => ⟨S12288, .i1⟩
  | 1 => ⟨S_, .i32⟩
  | 2 => ⟨S12288, .i32⟩
  | 3 => ⟨S12288, .i32⟩
  | 4 => ⟨S12288, .i32⟩
  | 5 => ⟨S_, .i32⟩
  | 6 => ⟨S12288, .i32⟩
  | 7 => ⟨S12288, .i1⟩
  | 8 => ⟨S_, .i32⟩
  | 9 => ⟨S12288, .i32⟩
  | 10 => ⟨S12288, .i32⟩
  | 11 => ⟨S12288, .i32⟩
  | 12 => ⟨S12288x1, .i32⟩
  | 13 => ⟨S12288x1, .i32⟩
  | 14 => ⟨S12288x2, .i32⟩
  | 15 => ⟨S96x512, .f32⟩
  | 16 => ⟨S384, .i32⟩
  | 17 => ⟨S_, .i32⟩
  | 18 => ⟨S_, .i32⟩
  | 19 => ⟨S384, .i32⟩
  | 20 => ⟨S384, .i32⟩
  | 21 => ⟨S384, .i32⟩
  | 22 => ⟨S_, .i32⟩
  | 23 => ⟨S384, .i32⟩
  | 24 => ⟨S384, .i1⟩
  | 25 => ⟨S384, .i32⟩
  | 26 => ⟨S384, .i32⟩
  | 27 => ⟨S_, .i32⟩
  | 28 => ⟨S384, .i32⟩
  | 29 => ⟨S384, .i1⟩
  | 30 => ⟨S384, .i1⟩
  | 31 => ⟨S_, .i32⟩
  | 32 => ⟨S384, .i32⟩
  | 33 => ⟨S384, .i32⟩
  | 34 => ⟨S384, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S384, .i32⟩
  | 42 => ⟨S384, .i32⟩
  | 43 => ⟨S_, .i32⟩
  | 44 => ⟨S384, .i32⟩
  | 45 => ⟨S384, .i1⟩
  | 46 => ⟨S_, .i32⟩
  | 47 => ⟨S384, .i32⟩
  | 48 => ⟨S384, .i1⟩
  | 49 => ⟨S_, .i32⟩
  | 50 => ⟨S_, .i1⟩
  | 51 => ⟨S384, .i1⟩
  | 52 => ⟨S384, .i1⟩
  | 53 => ⟨S384, .i1⟩
  | 54 => ⟨S384, .i32⟩
  | 55 => ⟨S384, .i32⟩
  | 56 => ⟨S384, .i32⟩
  | 57 => ⟨S_, .i32⟩
  | 58 => ⟨S384, .i32⟩
  | 59 => ⟨S384, .i32⟩
  | 60 => ⟨S384, .i32⟩
  | 61 => ⟨S_, .f32⟩
  | 62 => ⟨S512, .f32⟩
  | 63 => ⟨S_, .i32⟩
  | 64 => ⟨S384, .i32⟩
  | 65 => ⟨S384, .i1⟩
  | 66 => ⟨S_, .i32⟩
  | 67 => ⟨S384, .i32⟩
  | 68 => ⟨S384, .i32⟩
  | 69 => ⟨S384, .i32⟩
  | 70 => ⟨S384x1, .i32⟩
  | 71 => ⟨S512, .f32⟩
  | 72 => ⟨S1x512, .f32⟩
  | 73 => ⟨S322x512, .bf16⟩
  | 74 => ⟨S96x512, .bf16⟩
  | 75 => ⟨S131072x96, .f32⟩
  | 76 => ⟨S131072x96, .f32⟩
  | _ => ⟨S131072x322, .f32⟩

abbrev hbmTy (i : Nat) : BufTy := match i / 128 with
  | 0 => hbmTy0_0 i
  | 1 => hbmTy0_1 i
  | _ => ⟨S131072x322, .f32⟩

abbrev bufTy : (tb : Table) → Fin (tcTables nBuf tb) → BufTy
  | .hbm, ⟨i, _⟩ => hbmTy i
  | .local _ .vmem, ⟨0, _⟩ => ⟨S4096x322, .f32⟩
  | .local _ .vmem, ⟨1, _⟩ => ⟨S4096x322, .f32⟩
  | .local _ .vmem, ⟨2, _⟩ => ⟨S4096x96, .f32⟩
  | .local _ .vmem, ⟨3, _⟩ => ⟨S4096x96, .f32⟩
  | .local _ .vmem, ⟨4, _⟩ => ⟨S4096x96, .f32⟩
  | .local _ .vmem, ⟨5, _⟩ => ⟨S4096x96, .f32⟩
  | .local _ .vmem, ⟨6, _⟩ => ⟨S322x512, .bf16⟩
  | .local _ .vmem, ⟨7, _⟩ => ⟨S96x512, .bf16⟩
  | .local _ .vmem, ⟨8, _⟩ => ⟨S1x512, .f32⟩
  | .local _ .vmem, ⟨9, _⟩ => ⟨S4096x96, .f32⟩
  | .local _ .vmem, ⟨10, _⟩ => ⟨S4096x96, .f32⟩
  | .local _ .vmem, ⟨11, _⟩ => ⟨S4096x96, .f32⟩
  | .local _ .vmem, ⟨12, _⟩ => ⟨S4096x96, .f32⟩
  | _, _ => ⟨S131072x322, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v3 : Ref sig .tc := ⟨.hbm, 49, rfl⟩
abbrev main_c_1 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_c_2 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v9 : Ref sig .tc := ⟨.hbm, 73, rfl⟩
abbrev main_c_3 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v10 : Ref sig .tc := ⟨.hbm, 95, rfl⟩
abbrev main_c_4 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_cst : Ref sig .tc := ⟨.hbm, 100, rfl⟩
abbrev main_v14 : Ref sig .tc := ⟨.hbm, 101, rfl⟩
abbrev main_v15 : Ref sig .tc := ⟨.hbm, 102, rfl⟩
abbrev main_v16 : Ref sig .tc := ⟨.hbm, 103, rfl⟩
abbrev main_c_5 : Ref sig .tc := ⟨.hbm, 104, rfl⟩
abbrev main_v17 : Ref sig .tc := ⟨.hbm, 105, rfl⟩
abbrev main_v18 : Ref sig .tc := ⟨.hbm, 106, rfl⟩
abbrev main_c_6 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_c_7 : Ref sig .tc := ⟨.hbm, 111, rfl⟩
abbrev main_v22 : Ref sig .tc := ⟨.hbm, 112, rfl⟩
abbrev main_v23 : Ref sig .tc := ⟨.hbm, 113, rfl⟩
abbrev main_c_8 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_cst_9 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_c_10 : Ref sig .tc := ⟨.hbm, 126, rfl⟩
abbrev main_v34 : Ref sig .tc := ⟨.hbm, 127, rfl⟩
abbrev main_v35 : Ref sig .tc := ⟨.hbm, 128, rfl⟩
abbrev main_c_11 : Ref sig .tc := ⟨.hbm, 129, rfl⟩
abbrev main_v36 : Ref sig .tc := ⟨.hbm, 130, rfl⟩
abbrev main_v37 : Ref sig .tc := ⟨.hbm, 131, rfl⟩
abbrev main_v38 : Ref sig .tc := ⟨.hbm, 132, rfl⟩
abbrev main_c_12 : Ref sig .tc := ⟨.hbm, 133, rfl⟩
abbrev main_v39 : Ref sig .tc := ⟨.hbm, 134, rfl⟩
abbrev main_v40 : Ref sig .tc := ⟨.hbm, 135, rfl⟩
abbrev main_c_13 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_c_14 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_v6 : Ref sig .tc := ⟨.hbm, 152, rfl⟩
abbrev main_call4_v7 : Ref sig .tc := ⟨.hbm, 153, rfl⟩
abbrev main_call4_v8 : Ref sig .tc := ⟨.hbm, 154, rfl⟩
abbrev main_call4_c : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_c_0 : Ref sig .tc := ⟨.hbm, 159, rfl⟩
abbrev main_call4_v12 : Ref sig .tc := ⟨.hbm, 160, rfl⟩
abbrev main_call4_v13 : Ref sig .tc := ⟨.hbm, 161, rfl⟩
abbrev main_v49 : Ref sig .tc := ⟨.hbm, 162, rfl⟩
abbrev main_c_15 : Ref sig .tc := ⟨.hbm, 163, rfl⟩
abbrev main_call5_v0 : Ref sig .tc := ⟨.hbm, 164, rfl⟩
abbrev main_call5_c : Ref sig .tc := ⟨.hbm, 165, rfl⟩
abbrev main_call5_v1 : Ref sig .tc := ⟨.hbm, 166, rfl⟩
abbrev main_call5_c_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_c_1 : Ref sig .tc := ⟨.hbm, 171, rfl⟩
abbrev main_call5_v5 : Ref sig .tc := ⟨.hbm, 172, rfl⟩
abbrev main_call5_v6 : Ref sig .tc := ⟨.hbm, 173, rfl⟩
abbrev main_call5_c_2 : Ref sig .tc := ⟨.hbm, 174, rfl⟩
abbrev main_call5_v7 : Ref sig .tc := ⟨.hbm, 175, rfl⟩
abbrev main_call5_v8 : Ref sig .tc := ⟨.hbm, 176, rfl⟩
abbrev main_call5_c_3 : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_v12 : Ref sig .tc := ⟨.hbm, 181, rfl⟩
abbrev main_call5_v13 : Ref sig .tc := ⟨.hbm, 182, rfl⟩
abbrev main_call5_v14 : Ref sig .tc := ⟨.hbm, 183, rfl⟩
abbrev main_v50 : Ref sig .tc := ⟨.hbm, 184, rfl⟩
abbrev main_c_16 : Ref sig .tc := ⟨.hbm, 185, rfl⟩
abbrev main_v51 : Ref sig .tc := ⟨.hbm, 186, rfl⟩
abbrev main_v52 : Ref sig .tc := ⟨.hbm, 187, rfl⟩
abbrev main_v53 : Ref sig .tc := ⟨.hbm, 188, rfl⟩
abbrev main_cst_17 : Ref sig .tc := ⟨.hbm, 189, rfl⟩
abbrev main_v54 : Ref sig .tc := ⟨.hbm, 190, rfl⟩
abbrev main_c_18 : Ref sig .tc := ⟨.hbm, 191, rfl⟩
abbrev main_v55 : Ref sig .tc := ⟨.hbm, 192, rfl⟩
abbrev main_v56 : Ref sig .tc := ⟨.hbm, 193, rfl⟩
abbrev main_c_19 : Ref sig .tc := ⟨.hbm, 194, rfl⟩
abbrev main_v57 : Ref sig .tc := ⟨.hbm, 195, rfl⟩
abbrev main_v58 : Ref sig .tc := ⟨.hbm, 196, rfl⟩
abbrev main_v59 : Ref sig .tc := ⟨.hbm, 197, rfl⟩
abbrev main_v60 : Ref sig .tc := ⟨.hbm, 198, rfl⟩
abbrev main_v61 : Ref sig .tc := ⟨.hbm, 199, rfl⟩
abbrev main_v62 : Ref sig .tc := ⟨.hbm, 200, rfl⟩
abbrev main_v63 : Ref sig .tc := ⟨.hbm, 201, rfl⟩
abbrev main_v64 : Ref sig .tc := ⟨.hbm, 202, rfl⟩
abbrev main_v65_0 : Ref sig .tc := ⟨.hbm, 203, rfl⟩
abbrev main_v65_1 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2048_i32 : BitVec 32 := 2048#32
  let v6 : BitVec 32 := Scalar.muli c0_i32 c2048_i32
  v6
def k0_off1 (c0_i32 : BitVec 32) : Fin 2 → Nat :=
  let c2048_i32 : BitVec 32 := 2048#32
  let v6 : BitVec 32 := Scalar.muli c0_i32 c2048_i32
  let v7 : BitVec 32 := v6
  let v8 : Index := Scalar.indexCast v7
  let c0_5 : Index := 0#32
  ![v8.toNat, 0]
def k0_off2 (c0_i32 : BitVec 32) : Fin 2 → Nat :=
  let c2048_i32 : BitVec 32 := 2048#32
  let v6 : BitVec 32 := Scalar.muli c0_i32 c2048_i32
  let v7 : BitVec 32 := v6
  let v12 : Index := Scalar.indexCast v7
  let c0_6 : Index := 0#32
  ![v12.toNat, 0]
def k0_mult2 : BitVec 32 :=
  let c1_i32 : BitVec 32 := 1#32
  let c2048_i32_11 : BitVec 32 := 2048#32
  let v42 : BitVec 32 := Scalar.muli c1_i32 c2048_i32_11
  v42
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x322 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S322x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S41216x2_S41216x1_0_1 : S41216x2.Slices ![0, 1] S41216x1
  shapeCasts_S41216x1_S41216 : S41216x1.ShapeCasts S41216
  bcast_S_S41216 : S_.BroadcastsInDim S41216 (![] : Fin 0 → Fin S41216.rank)
  slices_S12288x2_S12288x1_0_1 : S12288x2.Slices ![0, 1] S12288x1
  shapeCasts_S12288x1_S12288 : S12288x1.ShapeCasts S12288
  bcast_S_S12288 : S_.BroadcastsInDim S12288 (![] : Fin 0 → Fin S12288.rank)
  bcast_S_S322x512 : S_.BroadcastsInDim S322x512 (![] : Fin 0 → Fin S322x512.rank)
  slices_S41216x2_S41216x1_0_0 : S41216x2.Slices ![0, 0] S41216x1
  bcast_S41216_S41216x1_0 : S41216.BroadcastsInDim S41216x1 (![0] : Fin 1 → Fin S41216x1.rank)
  concatenates_S41216x1_S41216x1_S41216x2_d1 : Shape.Concatenates [S41216x1, S41216x1] S41216x2 1
  bcast_S_S96x512 : S_.BroadcastsInDim S96x512 (![] : Fin 0 → Fin S96x512.rank)
  slices_S12288x2_S12288x1_0_0 : S12288x2.Slices ![0, 0] S12288x1
  bcast_S12288_S12288x1_0 : S12288.BroadcastsInDim S12288x1 (![0] : Fin 1 → Fin S12288x1.rank)
  concatenates_S12288x1_S12288x1_S12288x2_d1 : Shape.Concatenates [S12288x1, S12288x1] S12288x2 1
  bcast_S_S384 : S_.BroadcastsInDim S384 (![] : Fin 0 → Fin S384.rank)
  bcast_S_S512 : S_.BroadcastsInDim S512 (![] : Fin 0 → Fin S512.rank)
  bcast_S384_S384x1_0 : S384.BroadcastsInDim S384x1 (![0] : Fin 1 → Fin S384x1.rank)
  shapeCasts_S512_S1x512 : S512.ShapeCasts S1x512
  bitsLt_bf16_f32 : FTy.bits .bf16 < FTy.bits .f32
  inb_S322x512_S322x512_0_0 : ∀ a, (![0, 0] : Fin 2 → Nat) a + S322x512.size a ≤ S322x512.size a
  h_S322x512 : 0 < S322x512.numel
  shapeCasts_S322x512_S322x512 : S322x512.ShapeCasts S322x512
  inb_S96x512_S96x512_0_0 : ∀ a, (![0, 0] : Fin 2 → Nat) a + S96x512.size a ≤ S96x512.size a
  h_S96x512 : 0 < S96x512.numel
  shapeCasts_S96x512_S96x512 : S96x512.ShapeCasts S96x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  h_S2048x322 : 0 < S2048x322.numel
  h_S2048x96 : 0 < S2048x96.numel
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  slices_S2048x128_o0_0_S2048x96 : S2048x128.Slices ![0, 0] S2048x96
  scatter_S322x512_S41216x2_S41216_n_01_01_1_wf : ScatterDims.WF S322x512 S41216x2 S41216 [] [0, 1] [0, 1] 1
  scatter_S96x512_S12288x2_S12288_n_01_01_1_wf : ScatterDims.WF S96x512 S12288x2 S12288 [] [0, 1] [0, 1] 1
  scatter_S512_S384x1_S384_n_0_0_1_wf : ScatterDims.WF S512 S384x1 S384 [] [0] [0] 1
  dot_S2048x322_S322x512_S2048x512_1_0_0_1_n_n_wf : DotDims.WF S2048x322 S322x512 S2048x512 [1] [0] [0] [1] [] []
  dot_S2048x96_S96x512_S2048x512_1_0_0_1_n_n_wf : DotDims.WF S2048x96 S96x512 S2048x512 [1] [0] [0] [1] [] []
  hrank0 : 0 < grid0.rank
  k0_mult1_dvd : 2048 ∣ k0_mult1.toNat
  k0_off1_inb : ∀ (r : Fin 2), ∀ a, (k0_off1 (BitVec.ofNat 32 r.val)) a + S2048x322.size a ≤ S4096x322.size a
  k0_off2_inb : ∀ (r : Fin 2), ∀ a, (k0_off2 (BitVec.ofNat 32 r.val)) a + S2048x96.size a ≤ S4096x96.size a
  k0_mult2_dvd : 2048 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x322.size a ≤ S131072x322.size a
  hwx0_0 : ∀ i : grid0.Coords, EltTy.bits .f32 = 32 ∨ (Rect.block (s := S131072x322) S4096x322.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x96.size a ≤ S131072x96.size a
  hwx0_1 : ∀ i : grid0.Coords, EltTy.bits .f32 = 32 ∨ (Rect.block (s := S131072x96) S4096x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x96.size a ≤ S131072x96.size a
  hwx0_2 : ∀ i : grid0.Coords, EltTy.bits .f32 = 32 ∨ (Rect.block (s := S131072x96) S4096x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S322x512.size a ≤ S322x512.size a
  hwx0_3 : ∀ i : grid0.Coords, EltTy.bits .bf16 = 32 ∨ (Rect.block (s := S322x512) S322x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x512.size a ≤ S96x512.size a
  hwx0_4 : ∀ i : grid0.Coords, EltTy.bits .bf16 = 32 ∨ (Rect.block (s := S96x512) S96x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x96.size a ≤ S131072x96.size a
  hwx0_6 : ∀ i : grid0.Coords, EltTy.bits .f32 = 32 ∨ (Rect.block (s := S131072x96) S4096x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x96.size a ≤ S131072x96.size a
  hwx0_7 : ∀ i : grid0.Coords, EltTy.bits .f32 = 32 ∨ (Rect.block (s := S131072x96) S4096x96.size (cc0_transform_7 i) (hinb0_7 i)).WholeWords (EltTy.packing .f32)

variable [Facts₀]

def scatter_S322x512_S41216x2_S41216_n_01_01_1 : ScatterDims S322x512 S41216x2 S41216 where
  updateWindowDims := []
  insertedWindowDims := [0, 1]
  scatterDimsToOperandDims := [0, 1]
  indexVectorDim := 1
  wf := scatter_S322x512_S41216x2_S41216_n_01_01_1_wf
def scatter_S96x512_S12288x2_S12288_n_01_01_1 : ScatterDims S96x512 S12288x2 S12288 where
  updateWindowDims := []
  insertedWindowDims := [0, 1]
  scatterDimsToOperandDims := [0, 1]
  indexVectorDim := 1
  wf := scatter_S96x512_S12288x2_S12288_n_01_01_1_wf
def scatter_S512_S384x1_S384_n_0_0_1 : ScatterDims S512 S384x1 S384 where
  updateWindowDims := []
  insertedWindowDims := [0]
  scatterDimsToOperandDims := [0]
  indexVectorDim := 1
  wf := scatter_S512_S384x1_S384_n_0_0_1_wf
def dot_S2048x322_S322x512_S2048x512_1_0_0_1_n_n : DotDims S2048x322 S322x512 S2048x512 where
  lhsContracting := [1]
  rhsContracting := [0]
  lhsNonContracting := [0]
  rhsNonContracting := [1]
  lhsBatch := []
  rhsBatch := []
  wf := dot_S2048x322_S322x512_S2048x512_1_0_0_1_n_n_wf
def dot_S2048x96_S96x512_S2048x512_1_0_0_1_n_n : DotDims S2048x96 S96x512 S2048x512 where
  lhsContracting := [1]
  rhsContracting := [0]
  lhsNonContracting := [0]
  rhsNonContracting := [1]
  lhsBatch := []
  rhsBatch := []
  wf := dot_S2048x96_S96x512_S2048x512_1_0_0_1_n_n_wf

abbrev win0_0 : Pipeline.Window sig grid0 :=
  Pipeline.Window.ofSpec (Memref.whole main_arg0) S4096x322.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v63) S322x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v64) S96x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v62) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65_0) S4096x96.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v65_1) S4096x96.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x322 : Shape := ⟨2, ![131072, 322]⟩
abbrev S131072x96 : Shape := ⟨2, ![131072, 96]⟩
abbrev S41216 : Shape := ⟨1, ![41216]⟩
abbrev S12288 : Shape := ⟨1, ![12288]⟩
abbrev S384 : Shape := ⟨1, ![384]⟩
abbrev S41216x2 : Shape := ⟨2, ![41216, 2]⟩
abbrev S12288x2 : Shape := ⟨2, ![12288, 2]⟩
abbrev S_ : Shape := ⟨0, ![]⟩
abbrev S322x384 : Shape := ⟨2, ![322, 384]⟩
abbrev S41216x1 : Shape := ⟨2, ![41216, 1]⟩
abbrev S96x384 : Shape := ⟨2, ![96, 384]⟩
abbrev S12288x1 : Shape := ⟨2, ![12288, 1]⟩
abbrev S131072x384 : Shape := ⟨2, ![131072, 384]⟩
abbrev S1x384 : Shape := ⟨2, ![1, 384]⟩

abbrev nBuf : Space → Nat
  | .hbm => 96
  | .vmem => 0
  | .smem => 0
  | _ => 0

abbrev bufTy : (tb : Table) → Fin (tcTables nBuf tb) → BufTy
  | .hbm, ⟨0, _⟩ => ⟨S131072x322, .f32⟩
  | .hbm, ⟨1, _⟩ => ⟨S131072x96, .f32⟩
  | .hbm, ⟨2, _⟩ => ⟨S131072x96, .f32⟩
  | .hbm, ⟨3, _⟩ => ⟨S41216, .f32⟩
  | .hbm, ⟨4, _⟩ => ⟨S12288, .f32⟩
  | .hbm, ⟨5, _⟩ => ⟨S384, .f32⟩
  | .hbm, ⟨6, _⟩ => ⟨S41216x2, .i32⟩
  | .hbm, ⟨7, _⟩ => ⟨S12288x2, .i32⟩
  | .hbm, ⟨8, _⟩ => ⟨S_, .f32⟩
  | .hbm, ⟨9, _⟩ => ⟨S322x384, .f32⟩
  | .hbm, ⟨10, _⟩ => ⟨S41216x1, .i32⟩
  | .hbm, ⟨11, _⟩ => ⟨S41216, .i32⟩
  | .hbm, ⟨12, _⟩ => ⟨S41216x1, .i32⟩
  | .hbm, ⟨13, _⟩ => ⟨S41216, .i32⟩
  | .hbm, ⟨14, _⟩ => ⟨S_, .i32⟩
  | .hbm, ⟨15, _⟩ => ⟨S41216, .i32⟩
  | .hbm, ⟨16, _⟩ => ⟨S41216, .i1⟩
  | .hbm, ⟨17, _⟩ => ⟨S_, .i32⟩
  | .hbm, ⟨18, _⟩ => ⟨S41216, .i32⟩
  | .hbm, ⟨19, _⟩ => ⟨S41216, .i32⟩
  | .hbm, ⟨20, _⟩ => ⟨S41216, .i32⟩
  | .hbm, ⟨21, _⟩ => ⟨S_, .i32⟩
  | .hbm, ⟨22, _⟩ => ⟨S41216, .i32⟩
  | .hbm, ⟨23, _⟩ => ⟨S41216, .i1⟩
  | .hbm, ⟨24, _⟩ => ⟨S_, .i32⟩
  | .hbm, ⟨25, _⟩ => ⟨S41216, .i32⟩
  | .hbm, ⟨26, _⟩ => ⟨S41216, .i32⟩
  | .hbm, ⟨27, _⟩ => ⟨S41216, .i32⟩
  | .hbm, ⟨28, _⟩ => ⟨S41216x1, .i32⟩
  | .hbm, ⟨29, _⟩ => ⟨S41216x1, .i32⟩
  | .hbm, ⟨30, _⟩ => ⟨S41216x2, .i32⟩
  | .hbm, ⟨31, _⟩ => ⟨S322x384, .f32⟩
  | .hbm, ⟨32, _⟩ => ⟨S_, .f32⟩
  | .hbm, ⟨33, _⟩ => ⟨S96x384, .f32⟩
  | .hbm, ⟨34, _⟩ => ⟨S12288x1, .i32⟩
  | .hbm, ⟨35, _⟩ => ⟨S12288, .i32⟩
  | .hbm, ⟨36, _⟩ => ⟨S12288x1, .i32⟩
  | .hbm, ⟨37, _⟩ => ⟨S12288, .i32⟩
  | .hbm, ⟨38, _⟩ => ⟨S_, .i32⟩
  | .hbm, ⟨39, _⟩ => ⟨S12288, .i32⟩
  | .hbm, ⟨40, _⟩ => ⟨S12288, .i1⟩
  | .hbm, ⟨41, _⟩ => ⟨S_, .i32⟩
  | .hbm, ⟨42, _⟩ => ⟨S12288, .i32⟩
  | .hbm, ⟨43, _⟩ => ⟨S12288, .i32⟩
  | .hbm, ⟨44, _⟩ => ⟨S12288, .i32⟩
  | .hbm, ⟨45, _⟩ => ⟨S_, .i32⟩
  | .hbm, ⟨46, _⟩ => ⟨S12288, .i32⟩
  | .hbm, ⟨47, _⟩ => ⟨S12288, .i1⟩
  | .hbm, ⟨48, _⟩ => ⟨S_, .i32⟩
  | .hbm, ⟨49, _⟩ => ⟨S12288, .i32⟩
  | .hbm, ⟨50, _⟩ => ⟨S12288, .i32⟩
  | .hbm, ⟨51, _⟩ => ⟨S12288, .i32⟩
  | .hbm, ⟨52, _⟩ => ⟨S12288x1, .i32⟩
  | .hbm, ⟨53, _⟩ => ⟨S12288x1, .i32⟩
  | .hbm, ⟨54, _⟩ => ⟨S12288x2, .i32⟩
  | .hbm, ⟨55, _⟩ => ⟨S96x384, .f32⟩
  | .hbm, ⟨56, _⟩ => ⟨S131072x384, .f32⟩
  | .hbm, ⟨57, _⟩ => ⟨S131072x384, .f32⟩
  | .hbm, ⟨58, _⟩ => ⟨S131072x384, .f32⟩
  | .hbm, ⟨59, _⟩ => ⟨S1x384, .f32⟩
  | .hbm, ⟨60, _⟩ => ⟨S131072x384, .f32⟩
  | .hbm, ⟨61, _⟩ => ⟨S131072x384, .f32⟩
  | .hbm, ⟨62, _⟩ => ⟨S131072x96, .f32⟩
  | .hbm, ⟨63, _⟩ => ⟨S131072x96, .f32⟩
  | .hbm, ⟨64, _⟩ => ⟨S131072x96, .f32⟩
  | .hbm, ⟨65, _⟩ => ⟨S131072x96, .f32⟩
  | .hbm, ⟨66, _⟩ => ⟨S131072x96, .f32⟩
  | .hbm, ⟨67, _⟩ => ⟨S131072x96, .f32⟩
  | .hbm, ⟨68, _⟩ => ⟨S_, .f32⟩
  | .hbm, ⟨69, _⟩ => ⟨S131072x96, .f32⟩
  | .hbm, ⟨70, _⟩ => ⟨S131072x96, .f32⟩
  | .hbm, ⟨71, _⟩ => ⟨S_, .f32⟩
  | .hbm, ⟨72, _⟩ => ⟨S131072x96, .f32⟩
  | .hbm, ⟨73, _⟩ => ⟨S131072x96, .f32⟩
  | .hbm, ⟨74, _⟩ => ⟨S131072x96, .f32⟩
  | .hbm, ⟨75, _⟩ => ⟨S131072x96, .f32⟩
  | .hbm, ⟨76, _⟩ => ⟨S_, .f32⟩
  | .hbm, ⟨77, _⟩ => ⟨S131072x96, .f32⟩
  | .hbm, ⟨78, _⟩ => ⟨S131072x96, .f32⟩
  | .hbm, ⟨79, _⟩ => ⟨S_, .f32⟩
  | .hbm, ⟨80, _⟩ => ⟨S131072x96, .f32⟩
  | .hbm, ⟨81, _⟩ => ⟨S131072x96, .f32⟩
  | .hbm, ⟨82, _⟩ => ⟨S131072x96, .f32⟩
  | .hbm, ⟨83, _⟩ => ⟨S131072x96, .f32⟩
  | .hbm, ⟨84, _⟩ => ⟨S131072x96, .f32⟩
  | .hbm, ⟨85, _⟩ => ⟨S_, .f32⟩
  | .hbm, ⟨86, _⟩ => ⟨S131072x96, .f32⟩
  | .hbm, ⟨87, _⟩ => ⟨S131072x96, .f32⟩
  | .hbm, ⟨88, _⟩ => ⟨S_, .f32⟩
  | .hbm, ⟨89, _⟩ => ⟨S131072x96, .f32⟩
  | .hbm, ⟨90, _⟩ => ⟨S131072x96, .f32⟩
  | .hbm, ⟨91, _⟩ => ⟨S131072x96, .f32⟩
  | .hbm, ⟨92, _⟩ => ⟨S131072x96, .f32⟩
  | .hbm, ⟨93, _⟩ => ⟨S131072x96, .f32⟩
  | .hbm, ⟨94, _⟩ => ⟨S131072x96, .f32⟩
  | .hbm, ⟨95, _⟩ => ⟨S131072x96, .f32⟩
  | _, _ => ⟨S131072x322, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  bcast_S_S322x384 : S_.BroadcastsInDim S322x384 (![] : Fin 0 → Fin S322x384.rank)
  slices_S41216x2_S41216x1_0_0 : S41216x2.Slices ![0, 0] S41216x1
  shapeCasts_S41216x1_S41216 : S41216x1.ShapeCasts S41216
  slices_S41216x2_S41216x1_0_1 : S41216x2.Slices ![0, 1] S41216x1
  bcast_S_S41216 : S_.BroadcastsInDim S41216 (![] : Fin 0 → Fin S41216.rank)
  bcast_S41216_S41216x1_0 : S41216.BroadcastsInDim S41216x1 (![0] : Fin 1 → Fin S41216x1.rank)
  concatenates_S41216x1_S41216x1_S41216x2_d1 : Shape.Concatenates [S41216x1, S41216x1] S41216x2 1
  bcast_S_S96x384 : S_.BroadcastsInDim S96x384 (![] : Fin 0 → Fin S96x384.rank)
  slices_S12288x2_S12288x1_0_0 : S12288x2.Slices ![0, 0] S12288x1
  shapeCasts_S12288x1_S12288 : S12288x1.ShapeCasts S12288
  slices_S12288x2_S12288x1_0_1 : S12288x2.Slices ![0, 1] S12288x1
  bcast_S_S12288 : S_.BroadcastsInDim S12288 (![] : Fin 0 → Fin S12288.rank)
  bcast_S12288_S12288x1_0 : S12288.BroadcastsInDim S12288x1 (![0] : Fin 1 → Fin S12288x1.rank)
  concatenates_S12288x1_S12288x1_S12288x2_d1 : Shape.Concatenates [S12288x1, S12288x1] S12288x2 1
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  slices_S131072x384_S131072x96_0_0 : S131072x384.Slices ![0, 0] S131072x96
  slices_S131072x384_S131072x96_0_96 : S131072x384.Slices ![0, 96] S131072x96
  slices_S131072x384_S131072x96_0_192 : S131072x384.Slices ![0, 192] S131072x96
  slices_S131072x384_S131072x96_0_288 : S131072x384.Slices ![0, 288] S131072x96
  bcast_S_S131072x96 : S_.BroadcastsInDim S131072x96 (![] : Fin 0 → Fin S131072x96.rank)
  scatter_S322x384_S41216x2_S41216_n_01_01_1_wf : ScatterDims.WF S322x384 S41216x2 S41216 [] [0, 1] [0, 1] 1
  scatter_S96x384_S12288x2_S12288_n_01_01_1_wf : ScatterDims.WF S96x384 S12288x2 S12288 [] [0, 1] [0, 1] 1
  dot_S131072x322_S322x384_S131072x384_1_0_0_1_n_n_wf : DotDims.WF S131072x322 S322x384 S131072x384 [1] [0] [0] [1] [] []
  dot_S131072x96_S96x384_S131072x384_1_0_0_1_n_n_wf : DotDims.WF S131072x96 S96x384 S131072x384 [1] [0] [0] [1] [] []

variable [Facts₀]

def scatter_S322x384_S41216x2_S41216_n_01_01_1 : ScatterDims S322x384 S41216x2 S41216 where
  updateWindowDims := []
  insertedWindowDims := [0, 1]
  scatterDimsToOperandDims := [0, 1]
  indexVectorDim := 1
  wf := scatter_S322x384_S41216x2_S41216_n_01_01_1_wf
def scatter_S96x384_S12288x2_S12288_n_01_01_1 : ScatterDims S96x384 S12288x2 S12288 where
  updateWindowDims := []
  insertedWindowDims := [0, 1]
  scatterDimsToOperandDims := [0, 1]
  indexVectorDim := 1
  wf := scatter_S96x384_S12288x2_S12288_n_01_01_1_wf
def dot_S131072x322_S322x384_S131072x384_1_0_0_1_n_n : DotDims S131072x322 S322x384 S131072x384 where
  lhsContracting := [1]
  rhsContracting := [0]
  lhsNonContracting := [0]
  rhsNonContracting := [1]
  lhsBatch := []
  rhsBatch := []
  wf := dot_S131072x322_S322x384_S131072x384_1_0_0_1_n_n_wf
def dot_S131072x96_S96x384_S131072x384_1_0_0_1_n_n : DotDims S131072x96 S96x384 S131072x384 where
  lhsContracting := [1]
  rhsContracting := [0]
  lhsNonContracting := [0]
  rhsNonContracting := [1]
  lhsBatch := []
  rhsBatch := []
  wf := dot_S131072x96_S96x384_S131072x384_1_0_0_1_n_n_wf

class Facts : Prop extends Facts₀ where

variable [Facts]
-- ==== Proof.Spec.lean ====
/-
  The LSTM cell with block-sparse gate weights, one element at a time, over the extended reals.

  For a row `r` of the batch and a unit `o` the four gate pre-activations are
      z_g = (Σ_k x(r, k) · Wk_g(k, o) + Σ_k h(r, k) · Wr_g(k, o)) + b_g(o),     g = i, f, g, o,
  the new cell state is  σ(z_f) · c(r, o) + σ(z_i) · tanh(z_g)  and the new hidden state  σ(z_o) · tanh(cell),
  with σ the logistic function. Sums, products, σ and tanh are the extended reals' (no rounding, no format).
  Both programs are read as these functions of their own weight columns; the kernel keeps gate `g`'s unit `o` in
  column `g · 128 + o` of 512-wide dense weights, the reference in column `g · 96 + o` of 384-wide ones.
-/
import Idealize.ShloMosaic.PureOps.Ideal
import Idealize.ShloMosaic.Lib.ValueIdx

noncomputable section

open scoped BigOperators

namespace Cert.Lstm

open Idealize.ShloMosaic

/-- One gate's pre-activation for one row and one unit: the input row against the unit's input-weight column, plus the
    hidden row against its recurrent-weight column, plus its bias. -/
def pre (xr : Fin 322 → EReal) (hr : Fin 96 → EReal) (wk : Fin 322 → EReal) (wr : Fin 96 → EReal) (b : EReal) : EReal :=
  (∑ k : Fin 322, xr k * wk k + ∑ k : Fin 96, hr k * wr k) + b

/-- The new cell state from the input, forget and candidate pre-activations and the old cell state. -/
def cellAt (zi zf zg c0 : EReal) : EReal :=
  Ideal.logistic zf * c0 + Ideal.logistic zi * Ideal.tanh zg

/-- The new hidden state from the four pre-activations and the old cell state. -/
def hidAt (zi zf zg zo c0 : EReal) : EReal :=
  Ideal.logistic zo * Ideal.tanh (cellAt zi zf zg c0)

/-- Gate `g`'s unit `o` in the kernel's 512-wide layout: one 128-lane tile per gate. -/
def gcol (g : Fin 4) (o : Fin 96) : Fin 512 := ⟨g.val * 128 + o.val, by omega⟩

/-- Gate `g`'s unit `o` in the reference's packed 384-wide layout. -/
def rcol (g : Fin 4) (o : Fin 96) : Fin 384 := ⟨g.val * 96 + o.val, by omega⟩

end Cert.Lstm

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.KBody.lean ====
/-
  The kernel body's two stored values, read at one element of a 2048-row chunk.

  A chunk's rows are multiplied by the resident 512-wide weights (322 × 512 for the inputs, 96 × 512 for the hidden
  state), the two products and the bias row are added, and gate `g`'s 128-lane tile is cut out and its first 96 lanes
  kept: at row `p`, unit `q`, that is the pre-activation of column `g · 128 + q`. The stored cell state and hidden state
  are the LSTM cell's functions of the four pre-activations and the old cell state. The format changes (to bf16 and
  back) are the identity over the extended reals, and the matrix unit's product into a zero accumulator is the plain sum.
  The first chunk's values go through identity shape casts of the three resident operands and are otherwise the same
  terms as the second chunk's.
-/
import proofs.«408214_j57698590655171_3_alg».proof.Proof.Gen.KernelIdeal.Skeleton
import proofs.«408214_j57698590655171_3_alg».proof.Proof.Spec
import proofs.«408214_j57698590655171_3_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

namespace Cert.Lstm.KBody

open Cert.KernelIdeal Cert.KernelIdeal.Gen Idealize.ShloMosaic Idealize.ShloMosaic.ValueIdx Cert.Lstm

/-- Gate `g`'s pre-activation at row `p`, unit `q` of a chunk: the chunk's rows against column `g · 128 + q` of the
    resident weights and bias. -/
def zrow (w : FVec Ideal S322x512 .bf16) (u : FVec Ideal S96x512 .bf16) (b : FVec Ideal S1x512 .f32)
    (x : Vec Ideal S2048x322 .f32) (h : Vec Ideal S2048x96 .f32) (p : Fin 2048) (q : Fin 96) (g : Fin 4) : EReal :=
  Lstm.pre (fun k => x (ix2 p k)) (fun k => h (ix2 p k)) (fun k => w (ix2 k (gcol g q))) (fun k => u (ix2 k (gcol g q)))
    (b (ix2 (0 : Fin 1) (gcol g q)))

/-! ## The two matrix products at an index -/

/-- The input product's left operand at an output index and a contraction index: the output's row. -/
theorem lhs_x_0 (i : S2048x512.Idx) (q : dot_S2048x322_S322x512_S2048x512_1_0_0_1_n_n.contr.Idx) :
    (dot_S2048x322_S322x512_S2048x512_1_0_0_1_n_n.lhsIdx i q 0).val = (i 0).val := by
  unfold DotDims.lhsIdx
  rw [dif_neg (show ¬(0 : Fin S2048x322.rank) ∈ dot_S2048x322_S322x512_S2048x512_1_0_0_1_n_n.lhsBatch by decide), dif_pos (show (0 : Fin S2048x322.rank) ∈ dot_S2048x322_S322x512_S2048x512_1_0_0_1_n_n.lhsNonContracting by decide)]
  rfl

/-- … and the contraction position on its column axis. -/
theorem lhs_x_1 (i : S2048x512.Idx) (q : dot_S2048x322_S322x512_S2048x512_1_0_0_1_n_n.contr.Idx) :
    (dot_S2048x322_S322x512_S2048x512_1_0_0_1_n_n.lhsIdx i q 1).val = (q ⟨0, by decide⟩).val :=
  dot_S2048x322_S322x512_S2048x512_1_0_0_1_n_n.lhsIdx_val_of_single rfl i q

/-- The input product's right operand: the contraction position on its row axis. -/
theorem rhs_x_0 (i : S2048x512.Idx) (q : dot_S2048x322_S322x512_S2048x512_1_0_0_1_n_n.contr.Idx) :
    (dot_S2048x322_S322x512_S2048x512_1_0_0_1_n_n.rhsIdx i q 0).val = (q ⟨0, by decide⟩).val :=
  dot_S2048x322_S322x512_S2048x512_1_0_0_1_n_n.rhsIdx_val_of_single rfl i q

/-- … and the output's column. -/
theorem rhs_x_1 (i : S2048x512.Idx) (q : dot_S2048x322_S322x512_S2048x512_1_0_0_1_n_n.contr.Idx) :
    (dot_S2048x322_S322x512_S2048x512_1_0_0_1_n_n.rhsIdx i q 1).val = (i 1).val := by
  unfold DotDims.rhsIdx
  rw [dif_neg (show ¬(1 : Fin S322x512.rank) ∈ dot_S2048x322_S322x512_S2048x512_1_0_0_1_n_n.rhsBatch by decide), dif_pos (show (1 : Fin S322x512.rank) ∈ dot_S2048x322_S322x512_S2048x512_1_0_0_1_n_n.rhsNonContracting by decide)]
  rfl

/-- The hidden-state product's left operand: the output's row. -/
theorem lhs_h_0 (i : S2048x512.Idx) (q : dot_S2048x96_S96x512_S2048x512_1_0_0_1_n_n.contr.Idx) :
    (dot_S2048x96_S96x512_S2048x512_1_0_0_1_n_n.lhsIdx i q 0).val = (i 0).val := by
  unfold DotDims.lhsIdx
  rw [dif_neg (show ¬(0 : Fin S2048x96.rank) ∈ dot_S2048x96_S96x512_S2048x512_1_0_0_1_n_n.lhsBatch by decide), dif_pos (show (0 : Fin S2048x96.rank) ∈ dot_S2048x96_S96x512_S2048x512_1_0_0_1_n_n.lhsNonContracting by decide)]
  rfl

/-- … and the contraction position on its column axis. -/
theorem lhs_h_1 (i : S2048x512.Idx) (q : dot_S2048x96_S96x512_S2048x512_1_0_0_1_n_n.contr.Idx) :
    (dot_S2048x96_S96x512_S2048x512_1_0_0_1_n_n.lhsIdx i q 1).val = (q ⟨0, by decide⟩).val :=
  dot_S2048x96_S96x512_S2048x512_1_0_0_1_n_n.lhsIdx_val_of_single rfl i q

/-- The hidden-state product's right operand: the contraction position on its row axis. -/
theorem rhs_h_0 (i : S2048x512.Idx) (q : dot_S2048x96_S96x512_S2048x512_1_0_0_1_n_n.contr.Idx) :
    (dot_S2048x96_S96x512_S2048x512_1_0_0_1_n_n.rhsIdx i q 0).val = (q ⟨0, by decide⟩).val :=
  dot_S2048x96_S96x512_S2048x512_1_0_0_1_n_n.rhsIdx_val_of_single rfl i q

/-- … and the output's column. -/
theorem rhs_h_1 (i : S2048x512.Idx) (q : dot_S2048x96_S96x512_S2048x512_1_0_0_1_n_n.contr.Idx) :
    (dot_S2048x96_S96x512_S2048x512_1_0_0_1_n_n.rhsIdx i q 1).val = (i 1).val := by
  unfold DotDims.rhsIdx
  rw [dif_neg (show ¬(1 : Fin S96x512.rank) ∈ dot_S2048x96_S96x512_S2048x512_1_0_0_1_n_n.rhsBatch by decide), dif_pos (show (1 : Fin S96x512.rank) ∈ dot_S2048x96_S96x512_S2048x512_1_0_0_1_n_n.rhsNonContracting by decide)]
  rfl

/-- The input product into the zero accumulator at `(p, c)`: the row of `l` against column `c` of `r`. -/
theorem matmul_x_at (l : FVec Ideal S2048x322 .bf16) (r : FVec Ideal S322x512 .bf16) (p : Fin 2048) (c : Fin 512) :
    matmul dot_S2048x322_S322x512_S2048x512_1_0_0_1_n_n none l r (constant (F := Ideal) S2048x512 .f32 0x00000000#32) (ix2 p c)
      = ∑ k : Fin 322, l (ix2 p k) * r (ix2 k c) :=
  MatmulAt.matmul_at dot_S2048x322_S322x512_S2048x512_1_0_0_1_n_n rfl rfl lhs_x_0 lhs_x_1 rhs_x_0 rhs_x_1 none l r p c

/-- The hidden-state product into the zero accumulator at `(p, c)`. -/
theorem matmul_h_at (l : FVec Ideal S2048x96 .bf16) (r : FVec Ideal S96x512 .bf16) (p : Fin 2048) (c : Fin 512) :
    matmul dot_S2048x96_S96x512_S2048x512_1_0_0_1_n_n none l r (constant (F := Ideal) S2048x512 .f32 0x00000000#32) (ix2 p c)
      = ∑ k : Fin 96, l (ix2 p k) * r (ix2 k c) :=
  MatmulAt.matmul_at dot_S2048x96_S96x512_S2048x512_1_0_0_1_n_n rfl rfl lhs_h_0 lhs_h_1 rhs_h_0 rhs_h_1 none l r p c

/-! ## The 512-wide pre-activations at an index, and a gate's tile -/

/-- The 512-wide sum of the two products and the bias row at `(p, c)`. -/
theorem pay1_apply (w : FVec Ideal S322x512 .bf16) (u : FVec Ideal S96x512 .bf16) (b : FVec Ideal S1x512 .f32)
    (x : Vec Ideal S2048x322 .f32) (h : Vec Ideal S2048x96 .f32) (p : Fin 2048) (c : Fin 512) :
    k0_pay1 (F := Ideal) w u b x h (ix2 p c)
      = (∑ k : Fin 322, x (ix2 p k) * w (ix2 k c) + ∑ k : Fin 96, h (ix2 p k) * u (ix2 k c)) + b (ix2 (0 : Fin 1) c) := by
  unfold k0_pay1
  rw [addf_apply, addf_apply, matmul_x_at, matmul_h_at, broadcastTo_1b_ab_apply]
  rfl

/-- Gate `g`'s 128-lane tile, cut to its first 96 lanes, at `(p, q)`: the gate's pre-activation. -/
theorem tile_apply (w : FVec Ideal S322x512 .bf16) (u : FVec Ideal S96x512 .bf16) (b : FVec Ideal S1x512 .f32)
    (x : Vec Ideal S2048x322 .f32) (h : Vec Ideal S2048x96 .f32) (p : Fin 2048) (q : Fin 96) (g : Fin 4)
    (off : Nat) (hoff : off = g.val * 128) (hs : S2048x512.Slices ![0, off] S2048x128) :
    extractStridedSlice S2048x96 ![0, 0] (extractStridedSlice S2048x128 ![0, off] (k0_pay1 (F := Ideal) w u b x h) hs)
        slices_S2048x128_o0_0_S2048x96 (ix2 p q) = zrow w u b x h p q g := by
  rw [slice2_axis1_eq, slice2_axis1_eq, pay1_apply]
  unfold zrow Lstm.pre
  have e : ∀ hlt, (⟨off + (0 + q.val), hlt⟩ : Fin 512) = gcol g q := fun hlt => Fin.ext (by
    show off + (0 + q.val) = g.val * 128 + q.val
    omega)
  rw [e]

/-- The stored cell state of the second chunk at `(p, q)`. -/
theorem pay_cell_apply (w : FVec Ideal S322x512 .bf16) (u : FVec Ideal S96x512 .bf16) (b : FVec Ideal S1x512 .f32)
    (x : Vec Ideal S2048x322 .f32) (h : Vec Ideal S2048x96 .f32) (c0 : Vec Ideal S2048x96 .f32) (p : Fin 2048) (q : Fin 96) :
    k0_pay2 (F := Ideal) w u b x h c0 (ix2 p q)
      = cellAt (zrow w u b x h p q 0) (zrow w u b x h p q 1) (zrow w u b x h p q 2) (c0 (ix2 p q)) := by
  unfold k0_pay2
  rw [addf_apply, mulf_apply, mulf_apply]
  show Ideal.logistic _ * _ + Ideal.logistic _ * Ideal.tanh _ = _
  rw [tile_apply w u b x h p q 0 0 rfl, tile_apply w u b x h p q 1 128 rfl, tile_apply w u b x h p q 2 256 rfl]
  rfl

/-- The stored hidden state of the second chunk at `(p, q)`. -/
theorem pay_hid_apply (w : FVec Ideal S322x512 .bf16) (u : FVec Ideal S96x512 .bf16) (b : FVec Ideal S1x512 .f32)
    (x : Vec Ideal S2048x322 .f32) (h : Vec Ideal S2048x96 .f32) (c0 : Vec Ideal S2048x96 .f32) (p : Fin 2048) (q : Fin 96) :
    k0_pay3 (F := Ideal) w u b x h c0 (ix2 p q)
      = hidAt (zrow w u b x h p q 0) (zrow w u b x h p q 1) (zrow w u b x h p q 2) (zrow w u b x h p q 3) (c0 (ix2 p q)) := by
  unfold k0_pay3
  rw [mulf_apply]
  show Ideal.logistic _ * Ideal.tanh _ = _
  rw [tile_apply w u b x h p q 3 384 rfl, pay_cell_apply]
  rfl

/-- The first chunk's stored cell state is the second chunk's term (the resident operands' shape casts are the identity). -/
theorem pay8_eq (w : Vec Ideal S322x512 .bf16) (u : Vec Ideal S96x512 .bf16) (b : Vec Ideal S1x512 .f32)
    (x : Vec Ideal S2048x322 .f32) (h : Vec Ideal S2048x96 .f32) (c0 : Vec Ideal S2048x96 .f32) :
    k0_pay8 (F := Ideal) w u b x h c0 = k0_pay2 (F := Ideal) w u b x h c0 := by
  unfold k0_pay8 k0_pay7 k0_pay4 k0_pay5 k0_pay6 k0_pay2 k0_pay1
  rw [shapeCast_self, shapeCast_self, shapeCast_self]

/-- The first chunk's stored hidden state is the second chunk's term. -/
theorem pay9_eq (w : Vec Ideal S322x512 .bf16) (u : Vec Ideal S96x512 .bf16) (b : Vec Ideal S1x512 .f32)
    (x : Vec Ideal S2048x322 .f32) (h : Vec Ideal S2048x96 .f32) (c0 : Vec Ideal S2048x96 .f32) :
    k0_pay9 (F := Ideal) w u b x h c0 = k0_pay3 (F := Ideal) w u b x h c0 := by
  unfold k0_pay9 k0_pay3
  rw [pay8_eq]
  unfold k0_pay7 k0_pay4 k0_pay5 k0_pay6 k0_pay1
  rw [shapeCast_self, shapeCast_self, shapeCast_self]

end Cert.Lstm.KBody

end
-- ==== Proof.KBlocks.lean ====
/-
  From the kernel's blocks to its two result arrays.

  The grid has 32 points; point `t` stages rows [4096 t, 4096 t + 4096) of the inputs, the hidden state and the cell
  state, and the whole of the resident weights and bias row; its body fills the two 4096 × 96 output blocks in two
  2048-row chunks, chunk `j` from rows [2048 j, 2048 j + 2048) of the staged blocks. So element `(r, o)` of either
  result array is the LSTM cell's function of row `r` of the three row-blocked arrays and of column `g · 128 + o` of the
  resident weights and bias, for the four gates `g`: the blocks tile the arrays, and every element is written once.
-/
import proofs.«408214_j57698590655171_3_alg».proof.Proof.Gen.KernelIdeal.Value
import proofs.«408214_j57698590655171_3_alg».proof.Proof.KBody
import Idealize.ShloMosaic.Lib.ValueIdx
import Idealize.ShloMosaic.Lib.Pipeline.Value

set_option maxRecDepth 16384

noncomputable section

namespace Cert.Lstm.KBlocks

open Cert.KernelIdeal Cert.KernelIdeal.Gen Cert.KernelIdeal.Value Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-- The arrays as the region finds them, at their literal types. -/
abbrev aX (c : Dev nD) : S131072x322.Idx → EReal := V m c main_arg0
abbrev aH (c : Dev nD) : S131072x96.Idx → EReal := V m c main_arg1
abbrev aC (c : Dev nD) : S131072x96.Idx → EReal := V m c main_arg2
abbrev aWk (c : Dev nD) : S322x512.Idx → EReal := V m c main_v63
abbrev aWr (c : Dev nD) : S96x512.Idx → EReal := V m c main_v64
abbrev aB (c : Dev nD) : S1x512.Idx → EReal := V m c main_v62

/-- Gate `g`'s pre-activation at row `r`, unit `o`, from the arrays the region finds. -/
def zK (c : Dev nD) (r : Fin 131072) (o : Fin 96) (g : Fin 4) : EReal :=
  Lstm.pre (fun k => aX m c (ix2 r k)) (fun k => aH m c (ix2 r k))
    (fun k => aWk m c (ix2 k (gcol g o))) (fun k => aWr m c (ix2 k (gcol g o))) (aB m c (ix2 (0 : Fin 1) (gcol g o)))

/-! ## One grid point: the two output blocks as functions of the six staged blocks -/

/-- The two zero offsets of a whole-buffer access, as the constant function. -/
theorem off_zero : (![0, 0] : Fin 2 → Nat) = fun _ => 0 := funext fun a => by fin_cases a <;> rfl

/-- Gate `g`'s pre-activation at row `r`, unit `o` of a grid point's staged blocks. -/
def zB (x0 : Vec Ideal S4096x322 .f32) (x1 : Vec Ideal S4096x96 .f32) (x3 : Vec Ideal S322x512 .bf16)
    (x4 : Vec Ideal S96x512 .bf16) (x5 : Vec Ideal S1x512 .f32) (r : Fin 4096) (o : Fin 96) (g : Fin 4) : EReal :=
  Lstm.pre (fun k => x0 (ix2 r k)) (fun k => x1 (ix2 r k)) (fun k => x3 (ix2 k (gcol g o))) (fun k => x4 (ix2 k (gcol g o)))
    (x5 (ix2 (0 : Fin 1) (gcol g o)))

/-- The new hidden state at row `r`, unit `o` of a grid point's staged blocks. -/
def hidRow (x0 : Vec Ideal S4096x322 .f32) (x1 x2 : Vec Ideal S4096x96 .f32) (x3 : Vec Ideal S322x512 .bf16)
    (x4 : Vec Ideal S96x512 .bf16) (x5 : Vec Ideal S1x512 .f32) (r : Fin 4096) (o : Fin 96) : EReal :=
  hidAt (zB x0 x1 x3 x4 x5 r o 0) (zB x0 x1 x3 x4 x5 r o 1) (zB x0 x1 x3 x4 x5 r o 2) (zB x0 x1 x3 x4 x5 r o 3) (x2 (ix2 r o))

/-- The new cell state at row `r`, unit `o` of a grid point's staged blocks. -/
def cellRow (x0 : Vec Ideal S4096x322 .f32) (x1 x2 : Vec Ideal S4096x96 .f32) (x3 : Vec Ideal S322x512 .bf16)
    (x4 : Vec Ideal S96x512 .bf16) (x5 : Vec Ideal S1x512 .f32) (r : Fin 4096) (o : Fin 96) : EReal :=
  cellAt (zB x0 x1 x3 x4 x5 r o 0) (zB x0 x1 x3 x4 x5 r o 1) (zB x0 x1 x3 x4 x5 r o 2) (x2 (ix2 r o))

/-- The hidden-state block a grid point leaves, as one function of the block's index. -/
def hidB (x0 : Vec Ideal S4096x322 .f32) (x1 x2 : Vec Ideal S4096x96 .f32) (x3 : Vec Ideal S322x512 .bf16)
    (x4 : Vec Ideal S96x512 .bf16) (x5 : Vec Ideal S1x512 .f32) : S4096x96.Idx → EReal :=
  fun y => hidRow x0 x1 x2 x3 x4 x5 ⟨(y 0).val, idx2_lt0 y⟩ ⟨(y 1).val, idx2_lt1 y⟩

/-- The cell-state block a grid point leaves, as one function of the block's index. -/
def cellB (x0 : Vec Ideal S4096x322 .f32) (x1 x2 : Vec Ideal S4096x96 .f32) (x3 : Vec Ideal S322x512 .bf16)
    (x4 : Vec Ideal S96x512 .bf16) (x5 : Vec Ideal S1x512 .f32) : S4096x96.Idx → EReal :=
  fun y => cellRow x0 x1 x2 x3 x4 x5 ⟨(y 0).val, idx2_lt0 y⟩ ⟨(y 1).val, idx2_lt1 y⟩

/-- Row `p` of the chunk of input rows starting at row `a` is row `a + p` of the staged block. -/
theorem chunk_idx_x (a : Nat) (inb : ∀ d, (![a, 0] : Fin 2 → Nat) d + S2048x322.size d ≤ S4096x322.size d)
    (p : Fin 2048) (k : Fin 322) (hr : a + p.val < 4096) :
    (Rect.unit (s := S4096x322) ![a, 0] S2048x322.size inb).idx (ix2 p k) = ix2 (⟨a + p.val, hr⟩ : Fin 4096) k := by
  funext d
  apply Fin.ext
  match d with
  | ⟨0, _⟩ => show a + 1 * p.val = a + p.val; omega
  | ⟨1, _⟩ => show 0 + 1 * k.val = k.val; omega

/-- The same for a chunk of hidden-state or cell-state rows. -/
theorem chunk_idx_h (a : Nat) (inb : ∀ d, (![a, 0] : Fin 2 → Nat) d + S2048x96.size d ≤ S4096x96.size d)
    (p : Fin 2048) (k : Fin 96) (hr : a + p.val < 4096) :
    (Rect.unit (s := S4096x96) ![a, 0] S2048x96.size inb).idx (ix2 p k) = ix2 (⟨a + p.val, hr⟩ : Fin 4096) k := by
  funext d
  apply Fin.ext
  match d with
  | ⟨0, _⟩ => show a + 1 * p.val = a + p.val; omega
  | ⟨1, _⟩ => show 0 + 1 * k.val = k.val; omega

/-- A chunk's pre-activation at its row `p` is the block's at row `a + p`. -/
theorem zrow_chunk (x0 : Vec Ideal S4096x322 .f32) (x1 : Vec Ideal S4096x96 .f32) (x3 : Vec Ideal S322x512 .bf16)
    (x4 : Vec Ideal S96x512 .bf16) (x5 : Vec Ideal S1x512 .f32) (a : Nat)
    (inbx : ∀ d, (![a, 0] : Fin 2 → Nat) d + S2048x322.size d ≤ S4096x322.size d)
    (inbh : ∀ d, (![a, 0] : Fin 2 → Nat) d + S2048x96.size d ≤ S4096x96.size d)
    (p : Fin 2048) (q : Fin 96) (g : Fin 4) (hr : a + p.val < 4096) :
    KBody.zrow x3 x4 x5 (View.ld x0 (Rect.unit (s := S4096x322) ![a, 0] S2048x322.size inbx))
        (View.ld x1 (Rect.unit (s := S4096x96) ![a, 0] S2048x96.size inbh)) p q g
      = zB x0 x1 x3 x4 x5 ⟨a + p.val, hr⟩ q g := by
  have e0 : (fun k : Fin 322 => View.ld x0 (Rect.unit (s := S4096x322) ![a, 0] S2048x322.size inbx) (ix2 p k))
      = fun k => x0 (ix2 (⟨a + p.val, hr⟩ : Fin 4096) k) :=
    funext fun k => congrArg x0 (chunk_idx_x a inbx p k hr)
  have e1 : (fun k : Fin 96 => View.ld x1 (Rect.unit (s := S4096x96) ![a, 0] S2048x96.size inbh) (ix2 p k))
      = fun k => x1 (ix2 (⟨a + p.val, hr⟩ : Fin 4096) k) :=
    funext fun k => congrArg x1 (chunk_idx_h a inbh p k hr)
  unfold KBody.zrow zB
  rw [e0, e1]

/-- The block's values depend on the row and the unit through their positions only. -/
theorem hidRow_congr (x0 : Vec Ideal S4096x322 .f32) (x1 x2 : Vec Ideal S4096x96 .f32) (x3 : Vec Ideal S322x512 .bf16)
    (x4 : Vec Ideal S96x512 .bf16) (x5 : Vec Ideal S1x512 .f32) {r r' : Fin 4096} {o o' : Fin 96}
    (hr : r.val = r'.val) (ho : o.val = o'.val) : hidRow x0 x1 x2 x3 x4 x5 r o = hidRow x0 x1 x2 x3 x4 x5 r' o' := by
  obtain rfl := Fin.ext hr
  obtain rfl := Fin.ext ho
  rfl

theorem cellRow_congr (x0 : Vec Ideal S4096x322 .f32) (x1 x2 : Vec Ideal S4096x96 .f32) (x3 : Vec Ideal S322x512 .bf16)
    (x4 : Vec Ideal S96x512 .bf16) (x5 : Vec Ideal S1x512 .f32) {r r' : Fin 4096} {o o' : Fin 96}
    (hr : r.val = r'.val) (ho : o.val = o'.val) : cellRow x0 x1 x2 x3 x4 x5 r o = cellRow x0 x1 x2 x3 x4 x5 r' o' := by
  obtain rfl := Fin.ext hr
  obtain rfl := Fin.ext ho
  rfl

/-- A stored hidden-state chunk (rows `a` to `a + 2048` of the block), at an index of the chunk, is the block's function
    at that index's place in the block. The resident operands reach the store as the staged weights and bias. -/
theorem piece_hid (x0 : Vec Ideal S4096x322 .f32) (x1 x2 : Vec Ideal S4096x96 .f32) (x3 : Vec Ideal S322x512 .bf16)
    (x4 : Vec Ideal S96x512 .bf16) (x5 : Vec Ideal S1x512 .f32)
    (w : FVec Ideal S322x512 .bf16) (u : FVec Ideal S96x512 .bf16) (b : FVec Ideal S1x512 .f32)
    (hw : w = x3) (hu : u = x4) (hb : b = x5) (a : Nat)
    (inbx : ∀ d, (![a, 0] : Fin 2 → Nat) d + S2048x322.size d ≤ S4096x322.size d)
    (inbh : ∀ d, (![a, 0] : Fin 2 → Nat) d + S2048x96.size d ≤ S4096x96.size d) (x : S2048x96.Idx) :
    k0_pay3 (F := Ideal) w u b (View.ld x0 (Rect.unit (s := S4096x322) ![a, 0] S2048x322.size inbx))
        (View.ld x1 (Rect.unit (s := S4096x96) ![a, 0] S2048x96.size inbh))
        (View.ld x2 (Rect.unit (s := S4096x96) ![a, 0] S2048x96.size inbh)) x
      = hidB x0 x1 x2 x3 x4 x5 ((Rect.unit (s := S4096x96) ![a, 0] S2048x96.size inbh).emb x) := by
  subst hw hu hb
  obtain ⟨p, q, rfl⟩ : ∃ (p : Fin 2048) (q : Fin 96), x = ix2 p q := ⟨x 0, x 1, eq_ix2 x⟩
  have hr : a + p.val < 4096 := by
    have h0 : a + 2048 ≤ 4096 := inbh 0
    omega
  refine (KBody.pay_hid_apply w u b _ _ _ p q).trans ?_
  rw [zrow_chunk x0 x1 w u b a inbx inbh p q 0 hr, zrow_chunk x0 x1 w u b a inbx inbh p q 1 hr,
    zrow_chunk x0 x1 w u b a inbx inbh p q 2 hr, zrow_chunk x0 x1 w u b a inbx inbh p q 3 hr]
  refine Eq.trans ?_ (hidRow_congr x0 x1 x2 w u b (r := ⟨a + p.val, hr⟩) (o := q) ?_ ?_)
  · unfold hidRow
    exact congrArg (hidAt _ _ _ _) (congrArg x2 (chunk_idx_h a inbh p q hr))
  · show a + p.val = a + 1 * p.val
    omega
  · show q.val = 0 + 1 * q.val
    omega

/-- The same for a stored cell-state chunk. -/
theorem piece_cell (x0 : Vec Ideal S4096x322 .f32) (x1 x2 : Vec Ideal S4096x96 .f32) (x3 : Vec Ideal S322x512 .bf16)
    (x4 : Vec Ideal S96x512 .bf16) (x5 : Vec Ideal S1x512 .f32)
    (w : FVec Ideal S322x512 .bf16) (u : FVec Ideal S96x512 .bf16) (b : FVec Ideal S1x512 .f32)
    (hw : w = x3) (hu : u = x4) (hb : b = x5) (a : Nat)
    (inbx : ∀ d, (![a, 0] : Fin 2 → Nat) d + S2048x322.size d ≤ S4096x322.size d)
    (inbh : ∀ d, (![a, 0] : Fin 2 → Nat) d + S2048x96.size d ≤ S4096x96.size d) (x : S2048x96.Idx) :
    k0_pay2 (F := Ideal) w u b (View.ld x0 (Rect.unit (s := S4096x322) ![a, 0] S2048x322.size inbx))
        (View.ld x1 (Rect.unit (s := S4096x96) ![a, 0] S2048x96.size inbh))
        (View.ld x2 (Rect.unit (s := S4096x96) ![a, 0] S2048x96.size inbh)) x
      = cellB x0 x1 x2 x3 x4 x5 ((Rect.unit (s := S4096x96) ![a, 0] S2048x96.size inbh).emb x) := by
  subst hw hu hb
  obtain ⟨p, q, rfl⟩ : ∃ (p : Fin 2048) (q : Fin 96), x = ix2 p q := ⟨x 0, x 1, eq_ix2 x⟩
  have hr : a + p.val < 4096 := by
    have h0 : a + 2048 ≤ 4096 := inbh 0
    omega
  refine (KBody.pay_cell_apply w u b _ _ _ p q).trans ?_
  rw [zrow_chunk x0 x1 w u b a inbx inbh p q 0 hr, zrow_chunk x0 x1 w u b a inbx inbh p q 1 hr,
    zrow_chunk x0 x1 w u b a inbx inbh p q 2 hr]
  refine Eq.trans ?_ (cellRow_congr x0 x1 x2 w u b (r := ⟨a + p.val, hr⟩) (o := q) ?_ ?_)
  · unfold cellRow
    exact congrArg (cellAt _ _ _) (congrArg x2 (chunk_idx_h a inbh p q hr))
  · show a + p.val = a + 1 * p.val
    omega
  · show q.val = 0 + 1 * q.val
    omega

/-- The resident input weights reach the second chunk through a whole-buffer load and an identity shape cast. -/
theorem resident_w (x3 : Vec Ideal S322x512 .bf16) (inb : ∀ d, (![0, 0] : Fin 2 → Nat) d + S322x512.size d ≤ S322x512.size d) :
    k0_pay4 (F := Ideal) (View.ld x3 (Rect.unit (s := S322x512) ![0, 0] S322x512.size inb)) = x3 := by
  unfold k0_pay4
  rw [shapeCast_self]
  exact View.ld_unit_zero off_zero inb x3

/-- The resident recurrent weights, likewise. -/
theorem resident_u (x4 : Vec Ideal S96x512 .bf16) (inb : ∀ d, (![0, 0] : Fin 2 → Nat) d + S96x512.size d ≤ S96x512.size d) :
    k0_pay5 (F := Ideal) (View.ld x4 (Rect.unit (s := S96x512) ![0, 0] S96x512.size inb)) = x4 := by
  unfold k0_pay5
  rw [shapeCast_self]
  exact View.ld_unit_zero off_zero inb x4

/-- The resident bias row, likewise. -/
theorem resident_b (x5 : Vec Ideal S1x512 .f32) (inb : ∀ d, (![0, 0] : Fin 2 → Nat) d + S1x512.size d ≤ S1x512.size d) :
    k0_pay6 (F := Ideal) (View.ld x5 (Rect.unit (s := S1x512) ![0, 0] S1x512.size inb)) = x5 := by
  unfold k0_pay6
  rw [shapeCast_self]
  exact View.ld_unit_zero off_zero inb x5

/-- The hidden-state block a grid point leaves in its staging buffer, at a block index: both stored chunks are
    restrictions of the one function `hidB` of the staged blocks, and they cover the block. -/
theorem out6_apply (c : Dev nD) (i : grid0.Coords) (arg1 : Memref sig .tc .vmem S4096x322 .f32) (harg1 : arg1.IsWhole) (arg2 : Memref sig .tc .vmem S4096x96 .f32) (harg2 : arg2.IsWhole) (arg3 : Memref sig .tc .vmem S4096x96 .f32) (harg3 : arg3.IsWhole) (arg4 : Memref sig .tc .vmem S322x512 .bf16) (harg4 : arg4.IsWhole) (arg5 : Memref sig .tc .vmem S96x512 .bf16) (harg5 : arg5.IsWhole) (arg6 : Memref sig .tc .vmem S1x512 .f32) (harg6 : arg6.IsWhole) (arg7 : Memref sig .tc .vmem S4096x96 .f32) (harg7 : arg7.IsWhole) (arg8 : Memref sig .tc .vmem S4096x96 .f32) (harg8 : arg8.IsWhole)
    (x0 : Vec Ideal S4096x322 .f32) (x1 : Vec Ideal S4096x96 .f32) (x2 : Vec Ideal S4096x96 .f32) (x3 : Vec Ideal S322x512 .bf16) (x4 : Vec Ideal S96x512 .bf16) (x5 : Vec Ideal S1x512 .f32) (y : S4096x96.Idx) :
    out0_A_6 (F := Ideal) c i arg1 harg1 arg2 harg2 arg3 harg3 arg4 harg4 arg5 harg5 arg6 harg6 arg7 harg7 arg8 harg8 x0 x1 x2 x3 x4 x5 y = hidB x0 x1 x2 x3 x4 x5 y := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  refine View.canon_apply_of_pieces (hidB x0 x1 x2 x3 x4 x5) _ ?_ y (cover0_A_6 c i arg1 harg1 arg2 harg2 arg3 harg3 arg4 harg4 arg5 harg5 arg6 harg6 arg7 harg7 arg8 harg8 x0 x1 x2 x3 x4 x5 y)
  unfold kernelRun0_A
  dsimp only
  sl_unfold_run_names
  simp only [View.readAt_eq_ld, harg1.read_unread, harg2.read_unread, harg3.read_unread, harg4.read_unread, harg5.read_unread, harg6.read_unread]
  intro pc hpc
  rcases List.mem_cons.mp hpc with rfl | hpc
  · intro x
    exact piece_hid x0 x1 x2 x3 x4 x5 _ _ _ (resident_w x3 _) (resident_u x4 _) (resident_b x5 _) 2048 _ _ x
  rcases List.mem_cons.mp hpc with rfl | hpc
  · intro x
    refine (congrFun (KBody.pay9_eq _ _ _ _ _ _) x).trans ?_
    exact piece_hid x0 x1 x2 x3 x4 x5 _ _ _ (View.ld_unit_zero off_zero _ x3) (View.ld_unit_zero off_zero _ x4)
      (View.ld_unit_zero off_zero _ x5) 0 _ _ x
  exact absurd hpc List.not_mem_nil

/-- The cell-state block a grid point leaves in its staging buffer, at a block index. -/
theorem out7_apply (c : Dev nD) (i : grid0.Coords) (arg1 : Memref sig .tc .vmem S4096x322 .f32) (harg1 : arg1.IsWhole) (arg2 : Memref sig .tc .vmem S4096x96 .f32) (harg2 : arg2.IsWhole) (arg3 : Memref sig .tc .vmem S4096x96 .f32) (harg3 : arg3.IsWhole) (arg4 : Memref sig .tc .vmem S322x512 .bf16) (harg4 : arg4.IsWhole) (arg5 : Memref sig .tc .vmem S96x512 .bf16) (harg5 : arg5.IsWhole) (arg6 : Memref sig .tc .vmem S1x512 .f32) (harg6 : arg6.IsWhole) (arg7 : Memref sig .tc .vmem S4096x96 .f32) (harg7 : arg7.IsWhole) (arg8 : Memref sig .tc .vmem S4096x96 .f32) (harg8 : arg8.IsWhole)
    (x0 : Vec Ideal S4096x322 .f32) (x1 : Vec Ideal S4096x96 .f32) (x2 : Vec Ideal S4096x96 .f32) (x3 : Vec Ideal S322x512 .bf16) (x4 : Vec Ideal S96x512 .bf16) (x5 : Vec Ideal S1x512 .f32) (y : S4096x96.Idx) :
    out0_A_7 (F := Ideal) c i arg1 harg1 arg2 harg2 arg3 harg3 arg4 harg4 arg5 harg5 arg6 harg6 arg7 harg7 arg8 harg8 x0 x1 x2 x3 x4 x5 y = cellB x0 x1 x2 x3 x4 x5 y := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  refine View.canon_apply_of_pieces (cellB x0 x1 x2 x3 x4 x5) _ ?_ y (cover0_A_7 c i arg1 harg1 arg2 harg2 arg3 harg3 arg4 harg4 arg5 harg5 arg6 harg6 arg7 harg7 arg8 harg8 x0 x1 x2 x3 x4 x5 y)
  unfold kernelRun0_A
  dsimp only
  sl_unfold_run_names
  simp only [View.readAt_eq_ld, harg1.read_unread, harg2.read_unread, harg3.read_unread, harg4.read_unread, harg5.read_unread, harg6.read_unread]
  intro pc hpc
  rcases List.mem_cons.mp hpc with rfl | hpc
  · intro x
    exact piece_cell x0 x1 x2 x3 x4 x5 _ _ _ (resident_w x3 _) (resident_u x4 _) (resident_b x5 _) 2048 _ _ x
  rcases List.mem_cons.mp hpc with rfl | hpc
  · intro x
    refine (congrFun (KBody.pay8_eq _ _ _ _ _ _) x).trans ?_
    exact piece_cell x0 x1 x2 x3 x4 x5 _ _ _ (View.ld_unit_zero off_zero _ x3) (View.ld_unit_zero off_zero _ x4)
      (View.ld_unit_zero off_zero _ x5) 0 _ _ x
  exact absurd hpc List.not_mem_nil

/-! ## From the staged blocks to the arrays -/

/-- A block's row `r` whose staged entries are row `R` of the row-blocked arrays, the resident blocks being the
    whole weights and bias: the block's pre-activation is the arrays'. -/
theorem zB_eq (x0 : Vec Ideal S4096x322 .f32) (x1 x2 : Vec Ideal S4096x96 .f32) (x3 : Vec Ideal S322x512 .bf16)
    (x4 : Vec Ideal S96x512 .bf16) (x5 : Vec Ideal S1x512 .f32) (X : S131072x322.Idx → EReal) (H C : S131072x96.Idx → EReal) (Wk : S322x512.Idx → EReal)
    (Wr : S96x512.Idx → EReal) (B : S1x512.Idx → EReal)
    (r : Fin 4096) (o : Fin 96) (R : Fin 131072) (g : Fin 4)
    (h0 : ∀ k, x0 (ix2 r k) = X (ix2 R k)) (h1 : ∀ k, x1 (ix2 r k) = H (ix2 R k))
    (h3 : ∀ k n, x3 (ix2 k n) = Wk (ix2 k n)) (h4 : ∀ k n, x4 (ix2 k n) = Wr (ix2 k n))
    (h5 : ∀ n, x5 (ix2 (0 : Fin 1) n) = B (ix2 (0 : Fin 1) n)) :
    zB x0 x1 x3 x4 x5 r o g = (Lstm.pre (fun k => X (ix2 R k)) (fun k => H (ix2 R k)) (fun k => Wk (ix2 k (gcol g o))) (fun k => Wr (ix2 k (gcol g o))) (B (ix2 (0 : Fin 1) (gcol g o)))) := by
  unfold zB
  simp only [h0, h1, h3, h4, h5]

/-- … so its new hidden state is the arrays' at row `R`, -/
theorem hidRow_eq (x0 : Vec Ideal S4096x322 .f32) (x1 x2 : Vec Ideal S4096x96 .f32) (x3 : Vec Ideal S322x512 .bf16)
    (x4 : Vec Ideal S96x512 .bf16) (x5 : Vec Ideal S1x512 .f32) (X : S131072x322.Idx → EReal) (H C : S131072x96.Idx → EReal) (Wk : S322x512.Idx → EReal)
    (Wr : S96x512.Idx → EReal) (B : S1x512.Idx → EReal)
    (r : Fin 4096) (o : Fin 96) (R : Fin 131072)
    (h0 : ∀ k, x0 (ix2 r k) = X (ix2 R k)) (h1 : ∀ k, x1 (ix2 r k) = H (ix2 R k)) (h2 : x2 (ix2 r o) = C (ix2 R o))
    (h3 : ∀ k n, x3 (ix2 k n) = Wk (ix2 k n)) (h4 : ∀ k n, x4 (ix2 k n) = Wr (ix2 k n))
    (h5 : ∀ n, x5 (ix2 (0 : Fin 1) n) = B (ix2 (0 : Fin 1) n)) :
    hidRow x0 x1 x2 x3 x4 x5 r o
      = hidAt (Lstm.pre (fun k => X (ix2 R k)) (fun k => H (ix2 R k)) (fun k => Wk (ix2 k (gcol 0 o))) (fun k => Wr (ix2 k (gcol 0 o))) (B (ix2 (0 : Fin 1) (gcol 0 o))))
          (Lstm.pre (fun k => X (ix2 R k)) (fun k => H (ix2 R k)) (fun k => Wk (ix2 k (gcol 1 o))) (fun k => Wr (ix2 k (gcol 1 o))) (B (ix2 (0 : Fin 1) (gcol 1 o))))
          (Lstm.pre (fun k => X (ix2 R k)) (fun k => H (ix2 R k)) (fun k => Wk (ix2 k (gcol 2 o))) (fun k => Wr (ix2 k (gcol 2 o))) (B (ix2 (0 : Fin 1) (gcol 2 o))))
          (Lstm.pre (fun k => X (ix2 R k)) (fun k => H (ix2 R k)) (fun k => Wk (ix2 k (gcol 3 o))) (fun k => Wr (ix2 k (gcol 3 o))) (B (ix2 (0 : Fin 1) (gcol 3 o)))) (C (ix2 R o)) := by
  unfold hidRow
  rw [zB_eq x0 x1 x2 x3 x4 x5 X H C Wk Wr B r o R 0 h0 h1 h3 h4 h5, zB_eq x0 x1 x2 x3 x4 x5 X H C Wk Wr B r o R 1 h0 h1 h3 h4 h5,
    zB_eq x0 x1 x2 x3 x4 x5 X H C Wk Wr B r o R 2 h0 h1 h3 h4 h5, zB_eq x0 x1 x2 x3 x4 x5 X H C Wk Wr B r o R 3 h0 h1 h3 h4 h5, h2]

/-- … and so is its new cell state. -/
theorem cellRow_eq (x0 : Vec Ideal S4096x322 .f32) (x1 x2 : Vec Ideal S4096x96 .f32) (x3 : Vec Ideal S322x512 .bf16)
    (x4 : Vec Ideal S96x512 .bf16) (x5 : Vec Ideal S1x512 .f32) (X : S131072x322.Idx → EReal) (H C : S131072x96.Idx → EReal) (Wk : S322x512.Idx → EReal)
    (Wr : S96x512.Idx → EReal) (B : S1x512.Idx → EReal)
    (r : Fin 4096) (o : Fin 96) (R : Fin 131072)
    (h0 : ∀ k, x0 (ix2 r k) = X (ix2 R k)) (h1 : ∀ k, x1 (ix2 r k) = H (ix2 R k)) (h2 : x2 (ix2 r o) = C (ix2 R o))
    (h3 : ∀ k n, x3 (ix2 k n) = Wk (ix2 k n)) (h4 : ∀ k n, x4 (ix2 k n) = Wr (ix2 k n))
    (h5 : ∀ n, x5 (ix2 (0 : Fin 1) n) = B (ix2 (0 : Fin 1) n)) :
    cellRow x0 x1 x2 x3 x4 x5 r o
      = cellAt (Lstm.pre (fun k => X (ix2 R k)) (fun k => H (ix2 R k)) (fun k => Wk (ix2 k (gcol 0 o))) (fun k => Wr (ix2 k (gcol 0 o))) (B (ix2 (0 : Fin 1) (gcol 0 o))))
          (Lstm.pre (fun k => X (ix2 R k)) (fun k => H (ix2 R k)) (fun k => Wk (ix2 k (gcol 1 o))) (fun k => Wr (ix2 k (gcol 1 o))) (B (ix2 (0 : Fin 1) (gcol 1 o))))
          (Lstm.pre (fun k => X (ix2 R k)) (fun k => H (ix2 R k)) (fun k => Wk (ix2 k (gcol 2 o))) (fun k => Wr (ix2 k (gcol 2 o))) (B (ix2 (0 : Fin 1) (gcol 2 o)))) (C (ix2 R o)) := by
  unfold cellRow
  rw [zB_eq x0 x1 x2 x3 x4 x5 X H C Wk Wr B r o R 0 h0 h1 h3 h4 h5, zB_eq x0 x1 x2 x3 x4 x5 X H C Wk Wr B r o R 1 h0 h1 h3 h4 h5,
    zB_eq x0 x1 x2 x3 x4 x5 X H C Wk Wr B r o R 2 h0 h1 h3 h4 h5, h2]

/-- The hidden-state array the run leaves, as one function of the array's index. -/
def hidK (c : Dev nD) : S131072x96.Idx → EReal := fun i =>
  hidAt (zK m c ⟨(i 0).val, idx2_lt0 i⟩ ⟨(i 1).val, idx2_lt1 i⟩ 0) (zK m c ⟨(i 0).val, idx2_lt0 i⟩ ⟨(i 1).val, idx2_lt1 i⟩ 1)
    (zK m c ⟨(i 0).val, idx2_lt0 i⟩ ⟨(i 1).val, idx2_lt1 i⟩ 2) (zK m c ⟨(i 0).val, idx2_lt0 i⟩ ⟨(i 1).val, idx2_lt1 i⟩ 3) (aC m c i)

/-- The cell-state array the run leaves, as one function of the array's index. -/
def cellK (c : Dev nD) : S131072x96.Idx → EReal := fun i =>
  cellAt (zK m c ⟨(i 0).val, idx2_lt0 i⟩ ⟨(i 1).val, idx2_lt1 i⟩ 0) (zK m c ⟨(i 0).val, idx2_lt0 i⟩ ⟨(i 1).val, idx2_lt1 i⟩ 1)
    (zK m c ⟨(i 0).val, idx2_lt0 i⟩ ⟨(i 1).val, idx2_lt1 i⟩ 2) (aC m c i)

/-- The index maps over the 32 grid points: point `t` stages block `t` of the three row-blocked inputs and of the two
    outputs, and block 0 — the whole array — of the weights and the bias row. -/
theorem idx_facts : ∀ t : Fin cfg0.N,
    win0_6.index t (0 : Fin 2) = t.val ∧ win0_6.index t (1 : Fin 2) = 0
    ∧ win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of point `t`'s staged input block is row `4096 t + r` of the input array. -/
theorem blk_x (c : Dev nD) (t : Fin cfg0.N) (r : Fin 4096) (k : Fin 322) (hR : t.val * 4096 + r.val < 131072) :
    (iblk m c 0 t : Vec Ideal S4096x322 .f32) (ix2 r k) = aX m c (ix2 ⟨t.val * 4096 + r.val, hR⟩ k) := by
  obtain ⟨-, -, -, -, e0, e1, -⟩ := idx_facts t
  show V m c main_arg0 (((cfg0.win 0).blk t).view.emb (ix2 r k)) = V m c main_arg0 (ix2 ⟨t.val * 4096 + r.val, hR⟩ k)
  refine congrArg _ (funext fun a => Fin.ext ?_)
  match a with
  | ⟨0, _⟩ => show win0_0.index t (0 : Fin 2) * 4096 + 1 * r.val = t.val * 4096 + r.val; omega
  | ⟨1, _⟩ => show win0_0.index t (1 : Fin 2) * 322 + 1 * k.val = k.val; omega

/-- Row `r` of point `t`'s staged hidden-state block is row `4096 t + r` of the hidden-state array. -/
theorem blk_h (c : Dev nD) (t : Fin cfg0.N) (r : Fin 4096) (k : Fin 96) (hR : t.val * 4096 + r.val < 131072) :
    (iblk m c 1 t : Vec Ideal S4096x96 .f32) (ix2 r k) = aH m c (ix2 ⟨t.val * 4096 + r.val, hR⟩ k) := by
  obtain ⟨-, -, -, -, -, -, e0, e1, -⟩ := idx_facts t
  show V m c main_arg1 (((cfg0.win 1).blk t).view.emb (ix2 r k)) = V m c main_arg1 (ix2 ⟨t.val * 4096 + r.val, hR⟩ k)
  refine congrArg _ (funext fun a => Fin.ext ?_)
  match a with
  | ⟨0, _⟩ => show win0_1.index t (0 : Fin 2) * 4096 + 1 * r.val = t.val * 4096 + r.val; omega
  | ⟨1, _⟩ => show win0_1.index t (1 : Fin 2) * 96 + 1 * k.val = k.val; omega

/-- Row `r` of point `t`'s staged cell-state block is row `4096 t + r` of the cell-state array. -/
theorem blk_c (c : Dev nD) (t : Fin cfg0.N) (r : Fin 4096) (k : Fin 96) (hR : t.val * 4096 + r.val < 131072) :
    (iblk m c 2 t : Vec Ideal S4096x96 .f32) (ix2 r k) = aC m c (ix2 ⟨t.val * 4096 + r.val, hR⟩ k) := by
  obtain ⟨-, -, -, -, -, -, -, -, e0, e1, -⟩ := idx_facts t
  show V m c main_arg2 (((cfg0.win 2).blk t).view.emb (ix2 r k)) = V m c main_arg2 (ix2 ⟨t.val * 4096 + r.val, hR⟩ k)
  refine congrArg _ (funext fun a => Fin.ext ?_)
  match a with
  | ⟨0, _⟩ => show win0_2.index t (0 : Fin 2) * 4096 + 1 * r.val = t.val * 4096 + r.val; omega
  | ⟨1, _⟩ => show win0_2.index t (1 : Fin 2) * 96 + 1 * k.val = k.val; omega

/-- Every point stages the whole input-weight array. -/
theorem blk_wk (c : Dev nD) (t : Fin cfg0.N) (k : Fin 322) (n : Fin 512) :
    (iblk m c 3 t : Vec Ideal S322x512 .bf16) (ix2 k n) = aWk m c (ix2 k n) := by
  obtain ⟨-, -, -, -, -, -, -, -, -, -, e0, e1, -⟩ := idx_facts t
  show V m c main_v63 (((cfg0.win 3).blk t).view.emb (ix2 k n)) = V m c main_v63 (ix2 k n)
  refine congrArg _ (funext fun a => Fin.ext ?_)
  match a with
  | ⟨0, _⟩ => show win0_3.index t (0 : Fin 2) * 322 + 1 * k.val = k.val; omega
  | ⟨1, _⟩ => show win0_3.index t (1 : Fin 2) * 512 + 1 * n.val = n.val; omega

/-- Every point stages the whole recurrent-weight array. -/
theorem blk_wr (c : Dev nD) (t : Fin cfg0.N) (k : Fin 96) (n : Fin 512) :
    (iblk m c 4 t : Vec Ideal S96x512 .bf16) (ix2 k n) = aWr m c (ix2 k n) := by
  obtain ⟨-, -, -, -, -, -, -, -, -, -, -, -, e0, e1, -⟩ := idx_facts t
  show V m c main_v64 (((cfg0.win 4).blk t).view.emb (ix2 k n)) = V m c main_v64 (ix2 k n)
  refine congrArg _ (funext fun a => Fin.ext ?_)
  match a with
  | ⟨0, _⟩ => show win0_4.index t (0 : Fin 2) * 96 + 1 * k.val = k.val; omega
  | ⟨1, _⟩ => show win0_4.index t (1 : Fin 2) * 512 + 1 * n.val = n.val; omega

/-- Every point stages the whole bias row. -/
theorem blk_b (c : Dev nD) (t : Fin cfg0.N) (n : Fin 512) :
    (iblk m c 5 t : Vec Ideal S1x512 .f32) (ix2 (0 : Fin 1) n) = aB m c (ix2 (0 : Fin 1) n) := by
  obtain ⟨-, -, -, -, -, -, -, -, -, -, -, -, -, -, e0, e1⟩ := idx_facts t
  show V m c main_v62 (((cfg0.win 5).blk t).view.emb (ix2 (0 : Fin 1) n)) = V m c main_v62 (ix2 (0 : Fin 1) n)
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * n.val = n.val; omega

/-- What point `t` writes back to the hidden-state array is block `t` of `hidK`. -/
theorem flushed6_eq (c : Dev nD) (t : Fin cfg0.N) :
    (dats m 0 c).flushed 6 t = ((cfg0.win 6).blk t).view.read (Elt Ideal) (hidK m c) := by
  rw [flushed6_A]
  funext j
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) j = hidK m c (((cfg0.win 6).blk t).view.emb j)
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) j).trans ?_
  have hN : cfg0.N = 32 := N_0
  have ht : t.val < 32 := hN ▸ t.isLt
  have hj0 : (j 0).val < 4096 := (j 0).isLt
  have hj1 : (j 1).val < 96 := (j 1).isLt
  have hR : t.val * 4096 + (j 0).val < 131072 := by omega
  obtain ⟨e0, e1, -⟩ := idx_facts t
  have he : ((cfg0.win 6).blk t).view.emb j = ix2 (⟨t.val * 4096 + (j 0).val, hR⟩ : Fin 131072) (⟨(j 1).val, hj1⟩ : Fin 96) := by
    refine funext fun a => Fin.ext ?_
    match a with
    | ⟨0, _⟩ => show win0_6.index t (0 : Fin 2) * 4096 + 1 * (j 0).val = t.val * 4096 + (j 0).val; omega
    | ⟨1, _⟩ => show win0_6.index t (1 : Fin 2) * 96 + 1 * (j 1).val = (j 1).val; omega
  refine Eq.trans ?_ (congrArg (hidK m c) he.symm)
  exact hidRow_eq (iblk m c 0 t) (iblk m c 1 t) (iblk m c 2 t) (iblk m c 3 t) (iblk m c 4 t) (iblk m c 5 t) (aX m c) (aH m c) (aC m c) (aWk m c) (aWr m c) (aB m c)
    ⟨(j 0).val, hj0⟩ ⟨(j 1).val, hj1⟩ ⟨t.val * 4096 + (j 0).val, hR⟩
    (fun k => blk_x m c t ⟨(j 0).val, hj0⟩ k hR) (fun k => blk_h m c t ⟨(j 0).val, hj0⟩ k hR)
    (blk_c m c t ⟨(j 0).val, hj0⟩ ⟨(j 1).val, hj1⟩ hR) (blk_wk m c t) (blk_wr m c t) (blk_b m c t)

/-- What point `t` writes back to the cell-state array is block `t` of `cellK`. -/
theorem flushed7_eq (c : Dev nD) (t : Fin cfg0.N) :
    (dats m 0 c).flushed 7 t = ((cfg0.win 7).blk t).view.read (Elt Ideal) (cellK m c) := by
  rw [flushed7_A]
  funext j
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) j = cellK m c (((cfg0.win 7).blk t).view.emb j)
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) j).trans ?_
  have hN : cfg0.N = 32 := N_0
  have ht : t.val < 32 := hN ▸ t.isLt
  have hj0 : (j 0).val < 4096 := (j 0).isLt
  have hj1 : (j 1).val < 96 := (j 1).isLt
  have hR : t.val * 4096 + (j 0).val < 131072 := by omega
  obtain ⟨-, -, e0, e1, -⟩ := idx_facts t
  have he : ((cfg0.win 7).blk t).view.emb j = ix2 (⟨t.val * 4096 + (j 0).val, hR⟩ : Fin 131072) (⟨(j 1).val, hj1⟩ : Fin 96) := by
    refine funext fun a => Fin.ext ?_
    match a with
    | ⟨0, _⟩ => show win0_7.index t (0 : Fin 2) * 4096 + 1 * (j 0).val = t.val * 4096 + (j 0).val; omega
    | ⟨1, _⟩ => show win0_7.index t (1 : Fin 2) * 96 + 1 * (j 1).val = (j 1).val; omega
  refine Eq.trans ?_ (congrArg (cellK m c) he.symm)
  exact cellRow_eq (iblk m c 0 t) (iblk m c 1 t) (iblk m c 2 t) (iblk m c 3 t) (iblk m c 4 t) (iblk m c 5 t) (aX m c) (aH m c) (aC m c) (aWk m c) (aWr m c) (aB m c)
    ⟨(j 0).val, hj0⟩ ⟨(j 1).val, hj1⟩ ⟨t.val * 4096 + (j 0).val, hR⟩
    (fun k => blk_x m c t ⟨(j 0).val, hj0⟩ k hR) (fun k => blk_h m c t ⟨(j 0).val, hj0⟩ k hR)
    (blk_c m c t ⟨(j 0).val, hj0⟩ ⟨(j 1).val, hj1⟩ hR) (blk_wk m c t) (blk_wr m c t) (blk_b m c t)

/-! ## The blocks tile the arrays -/

/-- An index of the array is in point `t`'s block of output window 6 iff each coordinate is in the block's range. -/
theorem mem_blk6 (t : Fin cfg0.N) (i : S131072x96.Idx) :
    i ∈ ((cfg0.win 6).blk t).view.set ↔ ∀ a : Fin 2, win0_6.index t a * S4096x96.size a ≤ (i a).val ∧ (i a).val < win0_6.index t a * S4096x96.size a + S4096x96.size a := by
  show i ∈ ((View.whole main_v65_0).slice (win0_6.rect t)).set ↔ _
  rw [View.set_slice_whole, Rect.mem_set_unit]
  exact Iff.rfl

/-- The 32 blocks of 4096 rows tile the 131072 rows: row `R` is in the block of point `R / 4096`, which writes back. -/
theorem cover6 (i : S131072x96.Idx) :
    ∃ t : Fin cfg0.N, (cfg0.win 6).flush t = true ∧ i ∈ ((cfg0.win 6).blk t).view.set := by
  have hN : cfg0.N = 32 := N_0
  have hi0 : (i 0).val < 131072 := (i 0).isLt
  have hi1 : (i 1).val < 96 := (i 1).isLt
  obtain ⟨t, ht⟩ : ∃ t : Fin cfg0.N, t.val = (i 0).val / 4096 := ⟨⟨(i 0).val / 4096, by rw [hN]; omega⟩, rfl⟩
  obtain ⟨e0, e1, e2, e3, -⟩ := idx_facts t
  refine ⟨t, flush0_6 t, ?_⟩
  rw [mem_blk6]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 96 ≤ (i 1).val ∧ (i 1).val < win0_6.index t (1 : Fin 2) * 96 + 96; omega

/-- An index of the array is in point `t`'s block of output window 7 iff each coordinate is in the block's range. -/
theorem mem_blk7 (t : Fin cfg0.N) (i : S131072x96.Idx) :
    i ∈ ((cfg0.win 7).blk t).view.set ↔ ∀ a : Fin 2, win0_7.index t a * S4096x96.size a ≤ (i a).val ∧ (i a).val < win0_7.index t a * S4096x96.size a + S4096x96.size a := by
  show i ∈ ((View.whole main_v65_1).slice (win0_7.rect t)).set ↔ _
  rw [View.set_slice_whole, Rect.mem_set_unit]
  exact Iff.rfl

/-- The 32 blocks of 4096 rows tile the 131072 rows: row `R` is in the block of point `R / 4096`, which writes back. -/
theorem cover7 (i : S131072x96.Idx) :
    ∃ t : Fin cfg0.N, (cfg0.win 7).flush t = true ∧ i ∈ ((cfg0.win 7).blk t).view.set := by
  have hN : cfg0.N = 32 := N_0
  have hi0 : (i 0).val < 131072 := (i 0).isLt
  have hi1 : (i 1).val < 96 := (i 1).isLt
  obtain ⟨t, ht⟩ : ∃ t : Fin cfg0.N, t.val = (i 0).val / 4096 := ⟨⟨(i 0).val / 4096, by rw [hN]; omega⟩, rfl⟩
  obtain ⟨e0, e1, e2, e3, -⟩ := idx_facts t
  refine ⟨t, flush0_7 t, ?_⟩
  rw [mem_blk7]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 96 ≤ (i 1).val ∧ (i 1).val < win0_7.index t (1 : Fin 2) * 96 + 96; omega

/-! ## The two result arrays -/

/-- The hidden-state array after the run is `hidK`: every block is `hidK`'s, and the blocks cover the array. -/
theorem final_hid (c : Dev nD) : (dats m 0 c).arrAt 6 cfg0.N = hidK m c :=
  (dats m 0 c).arrAt_eq_of_cover 6 (hidK m c) (fun t _ => flushed6_eq m c t) cover6

/-- The cell-state array after the run is `cellK`. -/
theorem final_cell (c : Dev nD) : (dats m 0 c).arrAt 7 cfg0.N = cellK m c :=
  (dats m 0 c).arrAt_eq_of_cover 7 (cellK m c) (fun t _ => flushed7_eq m c t) cover7

/-- The hidden-state result array (output window 6) after the run, element by element. -/
theorem final_hid_apply (c : Dev nD) (r : Fin 131072) (o : Fin 96) :
    (dats m 0 c).arrAt 6 cfg0.N (ix2 r o)
      = hidAt (zK m c r o 0) (zK m c r o 1) (zK m c r o 2) (zK m c r o 3) (aC m c (ix2 r o)) :=
  congrFun (final_hid m c) (ix2 r o)

/-- The cell-state result array (output window 7) after the run, element by element. -/
theorem final_cell_apply (c : Dev nD) (r : Fin 131072) (o : Fin 96) :
    (dats m 0 c).arrAt 7 cfg0.N (ix2 r o)
      = cellAt (zK m c r o 0) (zK m c r o 1) (zK m c r o 2) (aC m c (ix2 r o)) :=
  congrFun (final_cell m c) (ix2 r o)

end Cert.Lstm.KBlocks

end
-- ==== Proof.RefRead.lean ====
/-
  The reference's two results, read at one element.

  The reference scatters the sparse values into dense 322 × 384 and 96 × 384 weights, forms
  (inputs · K + h0 · RK) + bias row by row, cuts the four gates out as the column ranges [0, 96), [96, 192), [192, 288),
  [288, 384), and applies the LSTM cell; its logistic is spelt 1 / (1 + exp (−z)), which over the extended reals is the
  logistic function. At row `r`, unit `o`, gate `g`'s pre-activation is therefore the row against column `g · 96 + o` of
  the dense weights (the two scatters' results, kept as they are) and of the bias.
-/
import proofs.«408214_j57698590655171_3_alg».proof.Proof.Gen.ReferenceIdeal.Read
import proofs.«408214_j57698590655171_3_alg».proof.Proof.Spec
import Idealize.ShloMosaic.Lib.ValueIdx
import Idealize.ShloMosaic.Lib.IdealHost

noncomputable section

namespace Cert.Lstm.RefRead

open Cert.ReferenceIdeal Cert.ReferenceIdeal.Gen Cert.ReferenceIdeal.Read Idealize.ShloMosaic Idealize.ShloMosaic.ValueIdx Cert.Lstm

variable (x0 : (⟨S131072x322, .f32⟩ : BufTy).Contents (Elt Ideal)) (x1 x2 : (⟨S131072x96, .f32⟩ : BufTy).Contents (Elt Ideal))
  (x3 : (⟨S41216, .f32⟩ : BufTy).Contents (Elt Ideal)) (x4 : (⟨S12288, .f32⟩ : BufTy).Contents (Elt Ideal))
  (x5 : (⟨S384, .f32⟩ : BufTy).Contents (Elt Ideal)) (x6 : (⟨S41216x2, .i32⟩ : BufTy).Contents (Elt Ideal))
  (x7 : (⟨S12288x2, .i32⟩ : BufTy).Contents (Elt Ideal))

/-- Gate `g`'s pre-activation at row `r`, unit `o`: the rows against column `g · 96 + o` of the scattered dense weights. -/
def zR (r : Fin 131072) (o : Fin 96) (g : Fin 4) : EReal :=
  Lstm.pre (fun k => x0 (ix2 r k)) (fun k => x1 (ix2 r k))
    (fun k => val_main_v18 (F := Ideal) x3 x6 (ix2 k (rcol g o))) (fun k => val_main_v37 (F := Ideal) x4 x7 (ix2 k (rcol g o)))
    (x5 (ix1 (rcol g o)))

/-! ## Where each operation reads its operands, at the element `(r, c)` of the 384-wide pre-activations -/

/-- The input product's term `k` at `(r, c)` reads the inputs at `(r, k)` … -/
private theorem lidx38_at (r : Fin 131072) (c : Fin 384) (k : Fin 322) : lidx_main_v38 (ix2 r c) k = ix2 r k :=
  funext fun a => by match a with | ⟨0, _⟩ => rfl | ⟨1, _⟩ => rfl
/-- … and the dense input weights at `(k, c)`. -/
private theorem ridx38_at (r : Fin 131072) (c : Fin 384) (k : Fin 322) : ridx_main_v38 (ix2 r c) k = ix2 k c :=
  funext fun a => by match a with | ⟨0, _⟩ => rfl | ⟨1, _⟩ => rfl
/-- The recurrent product's term `k` at `(r, c)` reads the hidden state at `(r, k)` … -/
private theorem lidx39_at (r : Fin 131072) (c : Fin 384) (k : Fin 96) : lidx_main_v39 (ix2 r c) k = ix2 r k :=
  funext fun a => by match a with | ⟨0, _⟩ => rfl | ⟨1, _⟩ => rfl
/-- … and the dense recurrent weights at `(k, c)`. -/
private theorem ridx39_at (r : Fin 131072) (c : Fin 384) (k : Fin 96) : ridx_main_v39 (ix2 r c) k = ix2 k c :=
  funext fun a => by match a with | ⟨0, _⟩ => rfl | ⟨1, _⟩ => rfl
/-- The bias, broadcast along the rows, is read at column `c`. -/
private theorem bias_at (r : Fin 131072) (c : Fin 384) : idx_main_v41 (idx_main_v42 (ix2 r c)) = ix1 c :=
  funext fun a => by match a with | ⟨0, _⟩ => rfl

/-- The four gate slices at `(r, o)` read column `g · 96 + o`: the slice starting at 0 … -/
private theorem idx44_at (r : Fin 131072) (o : Fin 96) : idx_main_v44 (ix2 r o) = ix2 r (rcol 0 o) :=
  funext fun a => Fin.ext (by
    match a with
    | ⟨0, _⟩ => rfl
    | ⟨1, _⟩ => show o.val = (0 : Fin 4).val * 96 + o.val; simp)
/-- … at 96 … -/
private theorem idx45_at (r : Fin 131072) (o : Fin 96) : idx_main_v45 (ix2 r o) = ix2 r (rcol 1 o) :=
  funext fun a => Fin.ext (by
    match a with
    | ⟨0, _⟩ => rfl
    | ⟨1, _⟩ => show 96 + o.val = (1 : Fin 4).val * 96 + o.val; simp)
/-- … at 192 … -/
private theorem idx46_at (r : Fin 131072) (o : Fin 96) : idx_main_v46 (ix2 r o) = ix2 r (rcol 2 o) :=
  funext fun a => Fin.ext (by
    match a with
    | ⟨0, _⟩ => rfl
    | ⟨1, _⟩ => show 192 + o.val = (2 : Fin 4).val * 96 + o.val; simp)
/-- … and at 288. -/
private theorem idx47_at (r : Fin 131072) (o : Fin 96) : idx_main_v47 (ix2 r o) = ix2 r (rcol 3 o) :=
  funext fun a => Fin.ext (by
    match a with
    | ⟨0, _⟩ => rfl
    | ⟨1, _⟩ => show 288 + o.val = (3 : Fin 4).val * 96 + o.val; simp)

/-! ## The pre-activations -/

/-- Element `(r, c)` of (inputs · K + h0 · RK) + bias: row `r` against column `c` of the two dense weights, plus the bias
    at `c`. -/
private theorem pre_at (r : Fin 131072) (c : Fin 384) :
    val_main_v43 (F := Ideal) x0 x1 x3 x4 x5 x6 x7 (ix2 r c)
      = Lstm.pre (fun k => x0 (ix2 r k)) (fun k => x1 (ix2 r k))
          (fun k => val_main_v18 (F := Ideal) x3 x6 (ix2 k c)) (fun k => val_main_v37 (F := Ideal) x4 x7 (ix2 k c))
          (x5 (ix1 c)) := by
  rw [val_main_v43_apply, val_main_v40_apply, val_main_v38_apply, val_main_v39_apply, val_main_v42_apply,
    val_main_v41_apply]
  simp only [lidx38_at, ridx38_at, lidx39_at, ridx39_at, bias_at, Ideal.addf_def]
  rfl

/-- At column `g · 96 + o` that is gate `g`'s pre-activation for unit `o`. -/
private theorem gate_at (r : Fin 131072) (o : Fin 96) (g : Fin 4) :
    val_main_v43 (F := Ideal) x0 x1 x3 x4 x5 x6 x7 (ix2 r (rcol g o)) = zR x0 x1 x3 x4 x5 x6 x7 r o g :=
  pre_at x0 x1 x3 x4 x5 x6 x7 r (rcol g o)

/-! ## The cell -/

/-- The reference's new cell state at `(r, o)`. -/
theorem ref_cell_apply (r : Fin 131072) (o : Fin 96) :
    val_main_v69 (F := Ideal) x0 x1 x2 x3 x4 x5 x6 x7 (ix2 r o)
      = cellAt (zR x0 x1 x3 x4 x5 x6 x7 r o 0) (zR x0 x1 x3 x4 x5 x6 x7 r o 1) (zR x0 x1 x3 x4 x5 x6 x7 r o 2) (x2 (ix2 r o)) := by
  -- σ(z_f) · c0 + σ(z_i) · tanh z_g, each σ spelt 1 / (1 + exp (−z)) over a gate slice of the pre-activations
  rw [val_main_v69_apply, val_main_v67_apply, val_main_v68_apply, val_main_v59_apply, val_main_v53_apply,
    val_main_v60_apply, val_main_v58_apply, val_main_v57_apply, val_main_v52_apply, val_main_v51_apply,
    val_main_v56_apply, val_main_v55_apply, val_main_v50_apply, val_main_v49_apply, val_main_v54_apply,
    val_main_v48_apply, val_main_cst_11_apply, val_main_cst_10_apply, val_main_cst_9_apply, val_main_cst_8_apply,
    val_main_v44_apply, val_main_v45_apply, val_main_v46_apply]
  simp only [idx44_at, idx45_at, idx46_at, gate_at, Ideal.addf_def, Ideal.mulf_def, Ideal.hostDivf_def,
    Ideal.hostUnary_exp_def, Ideal.hostUnary_tanh_def, Ideal.hostNegf_def, Ideal.negf_def, Ideal.ofBits_def,
    Ideal.ofBits_one_f32]
  rfl

/-- The reference's new hidden state at `(r, o)`. -/
theorem ref_hid_apply (r : Fin 131072) (o : Fin 96) :
    val_main_v71 (F := Ideal) x0 x1 x2 x3 x4 x5 x6 x7 (ix2 r o)
      = hidAt (zR x0 x1 x3 x4 x5 x6 x7 r o 0) (zR x0 x1 x3 x4 x5 x6 x7 r o 1) (zR x0 x1 x3 x4 x5 x6 x7 r o 2)
          (zR x0 x1 x3 x4 x5 x6 x7 r o 3) (x2 (ix2 r o)) := by
  -- σ(z_o) · tanh (the new cell state)
  rw [val_main_v71_apply, val_main_v70_apply, ref_cell_apply, val_main_v66_apply, val_main_v65_apply,
    val_main_v64_apply, val_main_v63_apply, val_main_v62_apply, val_main_v61_apply, val_main_cst_13_apply,
    val_main_cst_12_apply, val_main_v47_apply]
  simp only [idx47_at, gate_at, Ideal.addf_def, Ideal.mulf_def, Ideal.hostDivf_def, Ideal.hostUnary_exp_def,
    Ideal.hostUnary_tanh_def, Ideal.hostNegf_def, Ideal.negf_def, Ideal.ofBits_def, Ideal.ofBits_one_f32]
  rfl

end Cert.Lstm.RefRead

end
-- ==== Proof.PadCol.lean ====
/-
  Integer arithmetic of the gate-padded column map, on 32-bit two's-complement words.

  The kernel's wrapper sends a packed column `c` of the [0, 384) gate layout (gate `c / 96`, offset `c % 96`) to the
  column `(c // 96) * 128 + c % 96` of the 512-wide layout in which every gate owns a 128-lane tile; `//` and `%` are
  the floor division and the non-negative remainder, computed from the truncating `sdiv` / `srem` by a sign
  correction. An index is then normalised as jnp does: a negative word has the axis' extent added. The scatter
  that follows reads the word as a signed integer and drops it when it is outside the axis.

  What is proved: for a gate `g < 4` and an offset `o < 96`, the normalised padded word reads `g * 128 + o` exactly
  when the normalised packed word reads `g * 96 + o` — for EVERY 32-bit word `c`, in or out of range, wrap-around of
  the multiplication by 128 included (|c // 96| is below 2^25, so `(c // 96) * 128` wraps to a value within
  [-607, 512) only when it is that value).
-/
import Idealize.ShloMosaic.PureOps

namespace Cert.Lstm

open Idealize.ShloMosaic

/-- The sign of a two's-complement word: `-1`, `0` or `1`. -/
def sgn (c : BitVec 32) : BitVec 32 := if c = 0 then 0 else if c.msb then -1 else 1

/-- The divisor the remainder uses: `96`, guarded against zero as jnp's `remainder` guards it. -/
def div96 : BitVec 32 := Scalar.select (IntOp.cmpi .eq 96#32 0#32) 1#32 96#32

/-- Floor division by 96: the truncated quotient, less one when the signs differ and the remainder is not zero. -/
def fdiv96 (c : BitVec 32) : BitVec 32 :=
  Scalar.select
    (IntOp.andi (IntOp.cmpi .ne (sgn c) (sgn 96#32)) (IntOp.cmpi .ne (IntOp.remsi .host c 96#32) 0#32))
    (IntOp.subi (IntOp.divsi .host c 96#32) 1#32)
    (IntOp.divsi .host c 96#32)

/-- The non-negative remainder modulo 96: the truncated remainder, plus 96 when it is negative. -/
def frem96 (c : BitVec 32) : BitVec 32 :=
  Scalar.select
    (IntOp.andi (IntOp.cmpi .ne (IntOp.cmpi .slt (IntOp.remsi .host c div96) 0#32) (IntOp.cmpi .slt div96 0#32))
      (IntOp.cmpi .ne (IntOp.remsi .host c div96) 0#32))
    (IntOp.addi (IntOp.remsi .host c div96) div96)
    (IntOp.remsi .host c div96)

/-- The padded column of a packed column. -/
def padcol (c : BitVec 32) : BitVec 32 := IntOp.addi (IntOp.muli (fdiv96 c) 128#32) (frem96 c)

/-- jnp's index normalisation on an axis of extent `n`: a negative word has `n` added. -/
def wrapAt (n c : BitVec 32) : BitVec 32 := Scalar.select (IntOp.cmpi .slt c 0#32) (IntOp.addi c n) c

/-! ### The 32-bit wrap of an integer -/

/-- The balanced residue modulo 2^32 differs from the integer by a multiple of 2^32 and lies in the signed range. -/
private theorem bmod32_spec (x : Int) :
    ∃ k : Int, x.bmod (2 ^ 32) = x + k * 4294967296 ∧ -2147483648 ≤ x.bmod (2 ^ 32) ∧ x.bmod (2 ^ 32) < 2147483648 := by
  rw [Int.bmod_def]
  simp only [Nat.reducePow, Nat.cast_ofNat]
  split
  · exact ⟨-(x / 4294967296), by omega, by omega, by omega⟩
  · exact ⟨-(x / 4294967296) - 1, by omega, by omega, by omega⟩

/-- An integer already in the signed 32-bit range is its own balanced residue. -/
private theorem bmod32_eq (x : Int) (h1 : -2147483648 ≤ x) (h2 : x < 2147483648) : x.bmod (2 ^ 32) = x := by
  obtain ⟨k, hk, h3, h4⟩ := bmod32_spec x
  omega

/-- A 32-bit word reads as an integer in [-2^31, 2^31). -/
private theorem toInt_bounds (c : BitVec 32) : -2147483648 ≤ c.toInt ∧ c.toInt < 2147483648 := by
  have h1 := BitVec.le_toInt c
  have h2 := @BitVec.toInt_lt 32 c
  simp at h1 h2
  omega

/-! ### The constant subterms -/

private theorem div96_eq : div96 = 96#32 := by decide
private theorem sgn96 : sgn 96#32 = 1#32 := by decide

/-- The divisor 96 is neither 0 nor -1, so the division is never at its corner. -/
private theorem not_corner96 (c : BitVec 32) : ¬ IntOp.SDivCorner c 96#32 := by
  intro h
  rcases h with h | ⟨_, h⟩ <;> exact absurd h (by decide)

private theorem divsi96 (c : BitVec 32) : IntOp.divsi .host c 96#32 = c.sdiv 96#32 := by
  unfold IntOp.divsi
  rw [if_neg (not_corner96 c)]

private theorem remsi96 (c : BitVec 32) : IntOp.remsi .host c 96#32 = c.srem 96#32 := by
  unfold IntOp.remsi
  rw [if_neg (not_corner96 c)]

/-! ### Truncating division and remainder by 96, on integers -/

/-- `a = 96 * (a tdiv 96) + (a tmod 96)`, the remainder carrying the sign of `a` and being below 96 in size. -/
private theorem tdiv_tmod_spec (a : Int) :
    a = 96 * a.tdiv 96 + a.tmod 96 ∧ (0 ≤ a → 0 ≤ a.tmod 96 ∧ a.tmod 96 < 96)
      ∧ (a ≤ 0 → -96 < a.tmod 96 ∧ a.tmod 96 ≤ 0) := by
  have h1 := Int.tmod_add_tdiv_mul a 96
  have h2 := Int.tmod_lt_of_pos a (b := 96) (by decide)
  have h3 := Int.lt_tmod_of_pos a (b := 96) (by decide)
  refine ⟨by omega, fun h => ⟨Int.tmod_nonneg 96 h, h2⟩, fun h => ⟨h3, ?_⟩⟩
  have := Int.tmod_nonneg (a := -a) 96 (by omega)
  rw [Int.neg_tmod] at this
  omega

/-- The truncated quotient by 96 has size below 2^25, so the word quotient reads it without wrap. -/
private theorem sdiv96_toInt (c : BitVec 32) : (c.sdiv 96#32).toInt = c.toInt.tdiv 96 := by
  rw [BitVec.toInt_sdiv]
  have h96 : (96#32 : BitVec 32).toInt = 96 := by decide
  rw [h96]
  have hb := toInt_bounds c
  have hs := tdiv_tmod_spec c.toInt
  apply bmod32_eq <;> omega

private theorem srem96_toInt (c : BitVec 32) : (c.srem 96#32).toInt = c.toInt.tmod 96 := by
  rw [BitVec.toInt_srem]
  have h96 : (96#32 : BitVec 32).toInt = 96 := by decide
  rw [h96]

/-! ### Comparisons and one-bit conditions -/

private theorem cmpi_ne {w : Nat} (x y : BitVec w) : IntOp.cmpi .ne x y = BitVec.ofBool (x != y) := rfl
private theorem cmpi_slt {w : Nat} (x y : BitVec w) : IntOp.cmpi .slt x y = BitVec.ofBool (x.slt y) := rfl

private theorem andi_ofBool_eq_one (a b : Bool) :
    IntOp.andi (BitVec.ofBool a) (BitVec.ofBool b) = (1 : BitVec 1) ↔ (a = true ∧ b = true) := by
  cases a <;> cases b <;> decide

private theorem ofBool_eq_one (a : Bool) : BitVec.ofBool a = (1 : BitVec 1) ↔ a = true := by
  cases a <;> decide

private theorem ofBool_bne_false (a : Bool) : (BitVec.ofBool a != BitVec.ofBool false) = a := by
  cases a <;> decide

private theorem bne_zero_iff_toInt (x : BitVec 32) : (x != 0#32) = true ↔ x.toInt ≠ 0 := by
  rw [bne_iff_ne, Ne, Ne, ← BitVec.toInt_inj, BitVec.toInt_zero]

private theorem slt_zero_iff_toInt (x : BitVec 32) : x.slt 0#32 = true ↔ x.toInt < 0 := by
  rw [BitVec.slt_iff_toInt_lt, BitVec.toInt_zero]

/-- The sign of `c` differs from the sign of 96 (which is 1) exactly when `c` is not positive. -/
private theorem sgn_bne_one_iff (c : BitVec 32) : (sgn c != 1#32) = true ↔ c.toInt ≤ 0 := by
  rw [bne_iff_ne]
  unfold sgn
  by_cases h0 : c = 0
  · subst h0
    rw [if_pos rfl]
    exact ⟨fun _ => by decide, fun _ => by decide⟩
  · rw [if_neg h0]
    have hne : c.toInt ≠ 0 := by
      rw [Ne, ← BitVec.toInt_zero (w := 32), BitVec.toInt_inj]; exact h0
    have hm := @BitVec.msb_eq_toInt 32 c
    cases hmsb : c.msb
    · rw [hmsb] at hm
      have hge : ¬ c.toInt < 0 := by simpa using hm.symm
      rw [if_neg (by decide)]
      exact ⟨fun h => absurd rfl h, fun h => by omega⟩
    · rw [hmsb] at hm
      have hlt : c.toInt < 0 := by simpa using hm.symm
      rw [if_pos rfl]
      exact ⟨fun _ => by omega, fun _ => by decide⟩

/-! ### Floor division and non-negative remainder -/

/-- The corrected quotient reads the floor quotient: one is taken off the truncated quotient exactly when `c ≤ 0` and
    96 does not divide `c`, which is when truncation rounded up. -/
theorem fdiv96_toInt (c : BitVec 32) : (fdiv96 c).toInt = c.toInt / 96 := by
  have hb := toInt_bounds c
  have hs := tdiv_tmod_spec c.toInt
  have h1 : (1#32 : BitVec 32).toInt = 1 := by decide
  unfold fdiv96 Scalar.select
  rw [sgn96, divsi96, remsi96, cmpi_ne, cmpi_ne]
  split
  · rename_i h
    obtain ⟨ha, hr⟩ := (andi_ofBool_eq_one _ _).1 h
    rw [sgn_bne_one_iff] at ha
    rw [bne_zero_iff_toInt, srem96_toInt] at hr
    unfold IntOp.subi
    rw [BitVec.toInt_sub, sdiv96_toInt, h1, bmod32_eq _ (by omega) (by omega)]
    omega
  · rename_i h
    rw [andi_ofBool_eq_one, sgn_bne_one_iff, bne_zero_iff_toInt, srem96_toInt] at h
    rw [sdiv96_toInt]
    omega

/-- The corrected remainder reads the non-negative remainder: 96 is added to the truncated remainder exactly when it is
    negative. -/
theorem frem96_toInt (c : BitVec 32) : (frem96 c).toInt = c.toInt % 96 := by
  have hb := toInt_bounds c
  have hs := tdiv_tmod_spec c.toInt
  have h96 : (96#32 : BitVec 32).toInt = 96 := by decide
  have hf : (96#32 : BitVec 32).slt 0#32 = false := by decide
  unfold frem96 Scalar.select
  rw [div96_eq, remsi96, cmpi_ne, cmpi_ne, cmpi_slt, cmpi_slt, hf, ofBool_bne_false]
  split
  · rename_i h
    obtain ⟨ha, hr⟩ := (andi_ofBool_eq_one _ _).1 h
    rw [slt_zero_iff_toInt, srem96_toInt] at ha
    unfold IntOp.addi
    rw [BitVec.toInt_add, srem96_toInt, h96, bmod32_eq _ (by omega) (by omega)]
    omega
  · rename_i h
    rw [andi_ofBool_eq_one, slt_zero_iff_toInt, bne_zero_iff_toInt, srem96_toInt] at h
    rw [srem96_toInt]
    omega

/-! ### Index normalisation -/

/-- The normalised word reads the word itself when that is non-negative, and the 32-bit wrap of the word plus the
    extent when it is negative. -/
private theorem wrapAt_toInt (n c : BitVec 32) :
    (wrapAt n c).toInt = if c.toInt < 0 then (c.toInt + n.toInt).bmod (2 ^ 32) else c.toInt := by
  unfold wrapAt Scalar.select
  rw [cmpi_slt]
  by_cases h : c.toInt < 0
  · rw [if_pos ((ofBool_eq_one _).2 ((slt_zero_iff_toInt c).2 h)), if_pos h]
    unfold IntOp.addi
    rw [BitVec.toInt_add]
  · rw [if_neg (fun h' => h ((slt_zero_iff_toInt c).1 ((ofBool_eq_one _).1 h'))), if_neg h]

/-- The normalised padded word reads `g * 128 + o` exactly when the normalised packed word reads `g * 96 + o`.

    With `q = c / 96` and `r = c % 96` (so `c = 96 q + r`, `0 ≤ r < 96`, `|q| < 2^25`), the padded word is the 32-bit wrap
    `p = q * 128 + r + k * 2^32`. A normalised reading in `[0, 512)` puts `p` in `[-512, 512)`, and since
    `|q * 128 + r| < 2^32 - 512` this forces `k = 0`; then `q * 128 + r = g' * 128 + o` with `r, o < 96` gives `q = g'` and
    `r = o`, where `g' = g` for a non-negative word and `g' = g - 4` for a negative one, on both sides alike. -/
theorem padcol_hit_iff (c : BitVec 32) (g : Fin 4) (o : Fin 96) :
    (wrapAt 512#32 (padcol c)).toInt = ((g.val * 128 + o.val : Nat) : Int)
      ↔ (wrapAt 384#32 c).toInt = ((g.val * 96 + o.val : Nat) : Int) := by
  have hb := toInt_bounds c
  have hg := g.isLt
  have ho := o.isLt
  have h512 : (512#32 : BitVec 32).toInt = 512 := by decide
  have h384 : (384#32 : BitVec 32).toInt = 384 := by decide
  have h128 : (128#32 : BitVec 32).toInt = 128 := by decide
  have hp : (padcol c).toInt = (c.toInt / 96 * 128 + c.toInt % 96).bmod (2 ^ 32) := by
    unfold padcol IntOp.addi IntOp.muli
    rw [BitVec.toInt_add, BitVec.toInt_mul, fdiv96_toInt, frem96_toInt, h128, Int.bmod_add_bmod]
  obtain ⟨k, hk, hp1, hp2⟩ := bmod32_spec (c.toInt / 96 * 128 + c.toInt % 96)
  rw [wrapAt_toInt, wrapAt_toInt, hp, h512, h384]
  generalize (c.toInt / 96 * 128 + c.toInt % 96).bmod (2 ^ 32) = p at hk hp1 hp2 ⊢
  split <;> split
  · rw [bmod32_eq _ (by omega) (by omega), bmod32_eq _ (by omega) (by omega)]
    omega
  · rw [bmod32_eq _ (by omega) (by omega)]
    omega
  · rw [bmod32_eq _ (by omega) (by omega)]
    omega
  · omega

/-- A small non-negative word is its own normalisation and reads its value. -/
theorem wrapAt_ofNat_toInt (n : BitVec 32) (k : Nat) (hk : k < 2 ^ 31) :
    (wrapAt n (BitVec.ofNat 32 k)).toInt = (k : Int) := by
  have hk' : (BitVec.ofNat 32 k).toInt = (k : Int) := by
    rw [BitVec.toInt_ofNat', bmod32_eq _ (by omega) (by omega)]
  rw [wrapAt_toInt, hk', if_neg (by omega)]

end Cert.Lstm
-- ==== Proof.KHost.lean ====
/-
  The kernel's three resident operands as the host code before the launch builds them.

  The dense 322 × 512 input weights are the zero matrix with the sparse values scattered at (row, padded column),
  where an index pair (row, col) of the argument is first normalised (a negative row has 322 added) and its column
  padded — gate `col // 96`, offset `col % 96`, column `gate · 128 + offset` — and normalised on the 512 axis; the 96 × 512
  recurrent weights likewise with rows normalised on 96; the bias row is the zero row of 512 with the 384 bias values
  scattered at the padded columns of 0, 1, …, 383. The conversions to bf16 are the identity over the extended reals.
  Each theorem names the scatter's index array only through what it holds element by element.
-/
import proofs.«408214_j57698590655171_3_alg».proof.Proof.Gen.KernelIdeal.Frame
import proofs.«408214_j57698590655171_3_alg».proof.Proof.PadCol
import Idealize.ShloMosaic.Lib.StableHlo.Run
import Idealize.ShloMosaic.Lib.ValueIdx
import Idealize.ShloMosaic.Lib.Pipeline.Value
import Idealize.ShloMosaic.PureOps.Ideal

set_option maxRecDepth 16384

noncomputable section

namespace Cert.Lstm.KHost

open Cert.KernelIdeal Cert.KernelIdeal.Gen Idealize.ShloMosaic Idealize.ShloMosaic.TcCoe Idealize.SL.Sem
open Idealize.ShloMosaic.StableHlo Idealize.ShloMosaic.ValueIdx Cert.Lstm

variable (m : (ℓ : Loc nD τ sig) → Buf (Elt Ideal) ℓ)

set_option maxHeartbeats 4000000 in
/-- The bias row the region finds: the zero row with the bias values set at the padded columns of 0 … 383. -/
theorem V_bias (c : Dev nD) : ∃ idx : IVec S384x1 32,
    (∀ n : Fin 384, idx (ix2 n (0 : Fin 1)) = wrapAt 512#32 (padcol (BitVec.ofNat 32 n.val))) ∧
    (V m c main_v62 : S1x512.Idx → EReal)
      = shapeCast S1x512 (Host.scatter scatter_S512_S384x1_S384_n_0_0_1 (fun _ b => b)
          (broadcastInDim S512 ![] bcast_S_S512 (constant (F := Ideal) S_ .f32 0#32)) idx
          (m ((c : Thread nD τ).loc main_arg5))) shapeCasts_S512_S1x512 := by
  refine ⟨?idx, ?hidx, ?hV⟩
  case hV =>
    -- the host operations before the launch, read back at this buffer; the index array is whatever term they leave
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    after_results_simp
    rfl
  case hidx =>
    -- element n of the index column: the padded, normalised column of the word n
    intro n
    simp only [TRef.toBuf, TRef.ofBuf, cast_eq, id]
    simp only [broadcastInDim, select, cmpi, addi, muli, andi, subi, signi, Host.divsi, Host.remsi, constantI, iotaInDim]
    simp only [dif_neg (show ¬ ((![384] : Fin 1 → ℕ) 0 = 1) by decide)]
    rfl

set_option maxHeartbeats 4000000 in
/-- The dense input weights the region finds: the zero matrix with the sparse values set at (normalised row, normalised
    padded column) of the argument's index pairs, in the pairs' order. -/
theorem V_wk (c : Dev nD) : ∃ idx : IVec S41216x2 32,
    (∀ n : Fin 41216, idx (ix2 n (0 : Fin 2)) = wrapAt 322#32 (m ((c : Thread nD τ).loc main_arg6) (ix2 n (0 : Fin 2)))) ∧
    (∀ n : Fin 41216, idx (ix2 n (1 : Fin 2)) = wrapAt 512#32 (padcol (m ((c : Thread nD τ).loc main_arg6) (ix2 n (1 : Fin 2))))) ∧
    (V m c main_v63 : S322x512.Idx → EReal)
      = truncf (F := Ideal) .bf16 (Host.scatter scatter_S322x512_S41216x2_S41216_n_01_01_1 (fun _ b => b)
          (broadcastInDim S322x512 ![] bcast_S_S322x512 (constant (F := Ideal) S_ .f32 0#32)) idx
          (m ((c : Thread nD τ).loc main_arg3))) bitsLt_bf16_f32 := by
  refine ⟨?idx, ?hrow, ?hcol, ?hV⟩
  case hV =>
    -- the host operations before the launch, read back at this buffer; the index array is whatever term they leave
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    after_results_simp
    rfl
  case hrow =>
    -- column 0 of the joined index array is the first piece at row n: the reshaped column 0 of the argument, normalised
    intro n
    rw [concatenate_pair_apply_left (1 : Fin S41216x2.rank) _ _ concatenates_S41216x1_S41216x1_S41216x2_d1 (ix2 n (0 : Fin 2)) rfl (ix2 n (0 : Fin 1))
      (fun b => match b with | ⟨0, _⟩ => rfl | ⟨1, _⟩ => rfl)]
    after_results_simp
    rw [broadcastInDim_apply _ bcast_S41216_S41216x1_0 _ (ix2 n (0 : Fin 1)) (ix1 n) (fun a => match a with
      | ⟨0, _⟩ => by show n.val = if (41216 : Nat) = 1 then 0 else n.val; rw [if_neg (by decide)])]
    simp only [broadcastInDim, select, cmpi, addi, constantI]
    have hsc : ∀ (X : S41216x1.Idx → BitVec 32), shapeCast main_v16.ty.shape X shapeCasts_S41216x1_S41216 (ix1 n) = X (ix2 n (0 : Fin 1)) :=
      fun X => shapeCast_apply X shapeCasts_S41216x1_S41216 (ix1 n) (ix2 n (0 : Fin 1))
        (by rewrite [Shape.rowMajor_val_two, Shape.rowMajor_val_one]; show n.val * 1 + 0 = n.val; omega)
    simp only [hsc]
    rw [extractStridedSlice_apply ![0, 0] _ slices_S41216x2_S41216x1_0_0 (ix2 n (0 : Fin 1)) (ix2 n (0 : Fin 2)) (fun a => match a with
      | ⟨0, _⟩ => by show n.val = 0 + n.val; omega
      | ⟨1, _⟩ => by show 0 = 0 + 0; rfl)]
    rfl
  case hcol =>
    -- column 1 is the second piece at row n: the reshaped column 1 of the argument, padded gate by gate, normalised
    intro n
    rw [concatenate_pair_apply_right (1 : Fin S41216x2.rank) _ _ concatenates_S41216x1_S41216x1_S41216x2_d1 (ix2 n (1 : Fin 2)) rfl rfl (ix2 n (0 : Fin 1))
      (fun b hb => match b, hb with | ⟨0, _⟩, _ => rfl | ⟨1, _⟩, hb => absurd rfl hb) rfl]
    after_results_simp
    rw [broadcastInDim_apply _ bcast_S41216_S41216x1_0 _ (ix2 n (0 : Fin 1)) (ix1 n) (fun a => match a with
      | ⟨0, _⟩ => by show n.val = if (41216 : Nat) = 1 then 0 else n.val; rw [if_neg (by decide)])]
    simp only [TRef.toBuf, TRef.ofBuf, cast_eq, id]
    simp only [broadcastInDim, select, cmpi, addi, muli, andi, subi, signi, Host.divsi, Host.remsi, constantI]
    have hsc : ∀ (X : S41216x1.Idx → BitVec 32), shapeCast main_v1.ty.shape X shapeCasts_S41216x1_S41216 (ix1 n) = X (ix2 n (0 : Fin 1)) :=
      fun X => shapeCast_apply X shapeCasts_S41216x1_S41216 (ix1 n) (ix2 n (0 : Fin 1))
        (by rewrite [Shape.rowMajor_val_two, Shape.rowMajor_val_one]; show n.val * 1 + 0 = n.val; omega)
    simp only [hsc]
    rw [extractStridedSlice_apply ![0, 1] _ slices_S41216x2_S41216x1_0_1 (ix2 n (0 : Fin 1)) (ix2 n (1 : Fin 2)) (fun a => match a with
      | ⟨0, _⟩ => by show n.val = 0 + n.val; omega
      | ⟨1, _⟩ => by show 1 = 1 + 0; rfl)]
    rfl

set_option maxHeartbeats 4000000 in
/-- The dense recurrent weights the region finds, likewise, with rows normalised on 96. -/
theorem V_wr (c : Dev nD) : ∃ idx : IVec S12288x2 32,
    (∀ n : Fin 12288, idx (ix2 n (0 : Fin 2)) = wrapAt 96#32 (m ((c : Thread nD τ).loc main_arg7) (ix2 n (0 : Fin 2)))) ∧
    (∀ n : Fin 12288, idx (ix2 n (1 : Fin 2)) = wrapAt 512#32 (padcol (m ((c : Thread nD τ).loc main_arg7) (ix2 n (1 : Fin 2))))) ∧
    (V m c main_v64 : S96x512.Idx → EReal)
      = truncf (F := Ideal) .bf16 (Host.scatter scatter_S96x512_S12288x2_S12288_n_01_01_1 (fun _ b => b)
          (broadcastInDim S96x512 ![] bcast_S_S96x512 (constant (F := Ideal) S_ .f32 0#32)) idx
          (m ((c : Thread nD τ).loc main_arg4))) bitsLt_bf16_f32 := by
  refine ⟨?idx, ?hrow, ?hcol, ?hV⟩
  case hV =>
    -- the host operations before the launch, read back at this buffer; the index array is whatever term they leave
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    after_results_simp
    rfl
  case hrow =>
    -- column 0 of the joined index array is the first piece at row n: the reshaped column 0 of the argument, normalised
    intro n
    rw [concatenate_pair_apply_left (1 : Fin S12288x2.rank) _ _ concatenates_S12288x1_S12288x1_S12288x2_d1 (ix2 n (0 : Fin 2)) rfl (ix2 n (0 : Fin 1))
      (fun b => match b with | ⟨0, _⟩ => rfl | ⟨1, _⟩ => rfl)]
    after_results_simp
    rw [broadcastInDim_apply _ bcast_S12288_S12288x1_0 _ (ix2 n (0 : Fin 1)) (ix1 n) (fun a => match a with
      | ⟨0, _⟩ => by show n.val = if (12288 : Nat) = 1 then 0 else n.val; rw [if_neg (by decide)])]
    simp only [broadcastInDim, select, cmpi, addi, constantI]
    have hsc : ∀ (X : S12288x1.Idx → BitVec 32), shapeCast main_v33.ty.shape X shapeCasts_S12288x1_S12288 (ix1 n) = X (ix2 n (0 : Fin 1)) :=
      fun X => shapeCast_apply X shapeCasts_S12288x1_S12288 (ix1 n) (ix2 n (0 : Fin 1))
        (by rewrite [Shape.rowMajor_val_two, Shape.rowMajor_val_one]; show n.val * 1 + 0 = n.val; omega)
    simp only [hsc]
    rw [extractStridedSlice_apply ![0, 0] _ slices_S12288x2_S12288x1_0_0 (ix2 n (0 : Fin 1)) (ix2 n (0 : Fin 2)) (fun a => match a with
      | ⟨0, _⟩ => by show n.val = 0 + n.val; omega
      | ⟨1, _⟩ => by show 0 = 0 + 0; rfl)]
    rfl
  case hcol =>
    -- column 1 is the second piece at row n: the reshaped column 1 of the argument, padded gate by gate, normalised
    intro n
    rw [concatenate_pair_apply_right (1 : Fin S12288x2.rank) _ _ concatenates_S12288x1_S12288x1_S12288x2_d1 (ix2 n (1 : Fin 2)) rfl rfl (ix2 n (0 : Fin 1))
      (fun b hb => match b, hb with | ⟨0, _⟩, _ => rfl | ⟨1, _⟩, hb => absurd rfl hb) rfl]
    after_results_simp
    rw [broadcastInDim_apply _ bcast_S12288_S12288x1_0 _ (ix2 n (0 : Fin 1)) (ix1 n) (fun a => match a with
      | ⟨0, _⟩ => by show n.val = if (12288 : Nat) = 1 then 0 else n.val; rw [if_neg (by decide)])]
    simp only [TRef.toBuf, TRef.ofBuf, cast_eq, id]
    simp only [broadcastInDim, select, cmpi, addi, muli, andi, subi, signi, Host.divsi, Host.remsi, constantI]
    have hsc : ∀ (X : S12288x1.Idx → BitVec 32), shapeCast main_v8.ty.shape X shapeCasts_S12288x1_S12288 (ix1 n) = X (ix2 n (0 : Fin 1)) :=
      fun X => shapeCast_apply X shapeCasts_S12288x1_S12288 (ix1 n) (ix2 n (0 : Fin 1))
        (by rewrite [Shape.rowMajor_val_two, Shape.rowMajor_val_one]; show n.val * 1 + 0 = n.val; omega)
    simp only [hsc]
    rw [extractStridedSlice_apply ![0, 1] _ slices_S12288x2_S12288x1_0_1 (ix2 n (0 : Fin 1)) (ix2 n (1 : Fin 2)) (fun a => match a with
      | ⟨0, _⟩ => by show n.val = 0 + n.val; omega
      | ⟨1, _⟩ => by show 1 = 1 + 0; rfl)]
    rfl

end Cert.Lstm.KHost

end
-- ==== Proof.RefIdx.lean ====
/-
  The reference's two scatter INDEX ARRAYS, read at an element.

  The reference normalises each column of an [n, 2] array of (row, column) index words — a negative word has the
  axis' extent added —, and joins the two normalised columns again along axis 1. So element (n, 0) of the
  joined array is the normalised word (n, 0) of the argument, by the row extent, and element (n, 1) the normalised
  word (n, 1), by the column extent: 322 and 384 for the first scatter, 96 and 384 for the second.
-/
import proofs.«408214_j57698590655171_3_alg».proof.Proof.Gen.ReferenceIdeal.Read
import proofs.«408214_j57698590655171_3_alg».proof.Proof.PadCol
import Idealize.ShloMosaic.Lib.ValueIdx
import Idealize.ShloMosaic.Lib.Pipeline.Value

namespace Cert.Lstm.RefIdx

open Cert.ReferenceIdeal Cert.ReferenceIdeal.Gen Cert.ReferenceIdeal.Read Idealize.ShloMosaic Idealize.ShloMosaic.ValueIdx

/-- Row word of the first scatter's index array: the argument's word (n, 0), normalised by 322. -/
theorem v17_row (x6 : (⟨S41216x2, .i32⟩ : BufTy).Contents (Elt Ideal)) (n : Fin 41216) :
    val_main_v17 (F := Ideal) x6 (ix2 n (0 : Fin 2)) = Cert.Lstm.wrapAt 322#32 (x6 (ix2 n (0 : Fin 2))) := by
  -- the composed index maps of the slice, the reshape and the broadcast send (n, 0) of the piece to (n, 0) of the argument
  have e : idx_main_v1 (idx_main_v2 (idx_main_v15 (ix2 n (0 : Fin 1)))) = ix2 n (0 : Fin 2) := by
    funext a
    match a with
    | ⟨0, _⟩ => apply Fin.ext; show n.val / 1 = n.val; omega
    | ⟨1, _⟩ => rfl
  unfold val_main_v17
  -- column 0 of the concatenation along axis 1 is the first piece at (n, 0)
  rw [concatenate_pair_apply_left (1 : Fin S41216x2.rank) (val_main_v15 (F := Ideal) x6) (val_main_v16 (F := Ideal) x6)
      concatenates_S41216x1_S41216x1_S41216x2_d1 (ix2 n (0 : Fin 2)) rfl (ix2 n (0 : Fin 1))
      (fun b => match b with | ⟨0, _⟩ => rfl | ⟨1, _⟩ => rfl)]
  -- the piece is the broadcast of select (w < 0) (w + 322) w, with w the reshaped column 0 of the argument
  rw [val_main_v15_apply, val_main_v9_apply, val_main_v6_apply, val_main_v8_apply, val_main_v2_apply, val_main_v1_apply, val_main_v5_apply, val_main_v7_apply, val_main_c_apply, val_main_c_0_apply, e]
  rfl

/-- Column word of the first scatter's index array: the argument's word (n, 1), normalised by 384. -/
theorem v17_col (x6 : (⟨S41216x2, .i32⟩ : BufTy).Contents (Elt Ideal)) (n : Fin 41216) :
    val_main_v17 (F := Ideal) x6 (ix2 n (1 : Fin 2)) = Cert.Lstm.wrapAt 384#32 (x6 (ix2 n (1 : Fin 2))) := by
  -- the composed index maps of the slice, the reshape and the broadcast send (n, 0) of the piece to (n, 1) of the argument
  have e : idx_main_v3 (idx_main_v4 (idx_main_v16 (ix2 n (0 : Fin 1)))) = ix2 n (1 : Fin 2) := by
    funext a
    match a with
    | ⟨0, _⟩ => apply Fin.ext; show n.val / 1 = n.val; omega
    | ⟨1, _⟩ => rfl
  unfold val_main_v17
  -- column 1 of the concatenation along axis 1 is the second piece at (n, 0)
  rw [concatenate_pair_apply_right (1 : Fin S41216x2.rank) (val_main_v15 (F := Ideal) x6) (val_main_v16 (F := Ideal) x6)
      concatenates_S41216x1_S41216x1_S41216x2_d1 (ix2 n (1 : Fin 2)) rfl rfl (ix2 n (0 : Fin 1))
      (fun b hb => match b, hb with | ⟨0, _⟩, _ => rfl | ⟨1, _⟩, hb => absurd rfl hb) rfl]
  -- the piece is the broadcast of select (w < 0) (w + 384) w, with w the reshaped column 1 of the argument
  rw [val_main_v16_apply, val_main_v14_apply, val_main_v11_apply, val_main_v13_apply, val_main_v4_apply, val_main_v3_apply, val_main_v10_apply, val_main_v12_apply, val_main_c_1_apply, val_main_c_2_apply, e]
  rfl

/-- Row word of the second scatter's index array: the argument's word (n, 0), normalised by 96. -/
theorem v36_row (x7 : (⟨S12288x2, .i32⟩ : BufTy).Contents (Elt Ideal)) (n : Fin 12288) :
    val_main_v36 (F := Ideal) x7 (ix2 n (0 : Fin 2)) = Cert.Lstm.wrapAt 96#32 (x7 (ix2 n (0 : Fin 2))) := by
  -- the composed index maps of the slice, the reshape and the broadcast send (n, 0) of the piece to (n, 0) of the argument
  have e : idx_main_v20 (idx_main_v21 (idx_main_v34 (ix2 n (0 : Fin 1)))) = ix2 n (0 : Fin 2) := by
    funext a
    match a with
    | ⟨0, _⟩ => apply Fin.ext; show n.val / 1 = n.val; omega
    | ⟨1, _⟩ => rfl
  unfold val_main_v36
  -- column 0 of the concatenation along axis 1 is the first piece at (n, 0)
  rw [concatenate_pair_apply_left (1 : Fin S12288x2.rank) (val_main_v34 (F := Ideal) x7) (val_main_v35 (F := Ideal) x7)
      concatenates_S12288x1_S12288x1_S12288x2_d1 (ix2 n (0 : Fin 2)) rfl (ix2 n (0 : Fin 1))
      (fun b => match b with | ⟨0, _⟩ => rfl | ⟨1, _⟩ => rfl)]
  -- the piece is the broadcast of select (w < 0) (w + 96) w, with w the reshaped column 0 of the argument
  rw [val_main_v34_apply, val_main_v28_apply, val_main_v25_apply, val_main_v27_apply, val_main_v21_apply, val_main_v20_apply, val_main_v24_apply, val_main_v26_apply, val_main_c_4_apply, val_main_c_5_apply, e]
  rfl

/-- Column word of the second scatter's index array: the argument's word (n, 1), normalised by 384. -/
theorem v36_col (x7 : (⟨S12288x2, .i32⟩ : BufTy).Contents (Elt Ideal)) (n : Fin 12288) :
    val_main_v36 (F := Ideal) x7 (ix2 n (1 : Fin 2)) = Cert.Lstm.wrapAt 384#32 (x7 (ix2 n (1 : Fin 2))) := by
  -- the composed index maps of the slice, the reshape and the broadcast send (n, 0) of the piece to (n, 1) of the argument
  have e : idx_main_v22 (idx_main_v23 (idx_main_v35 (ix2 n (0 : Fin 1)))) = ix2 n (1 : Fin 2) := by
    funext a
    match a with
    | ⟨0, _⟩ => apply Fin.ext; show n.val / 1 = n.val; omega
    | ⟨1, _⟩ => rfl
  unfold val_main_v36
  -- column 1 of the concatenation along axis 1 is the second piece at (n, 0)
  rw [concatenate_pair_apply_right (1 : Fin S12288x2.rank) (val_main_v34 (F := Ideal) x7) (val_main_v35 (F := Ideal) x7)
      concatenates_S12288x1_S12288x1_S12288x2_d1 (ix2 n (1 : Fin 2)) rfl rfl (ix2 n (0 : Fin 1))
      (fun b hb => match b, hb with | ⟨0, _⟩, _ => rfl | ⟨1, _⟩, hb => absurd rfl hb) rfl]
  -- the piece is the broadcast of select (w < 0) (w + 384) w, with w the reshaped column 1 of the argument
  rw [val_main_v35_apply, val_main_v33_apply, val_main_v30_apply, val_main_v32_apply, val_main_v23_apply, val_main_v22_apply, val_main_v29_apply, val_main_v31_apply, val_main_c_6_apply, val_main_c_7_apply, e]
  rfl

end Cert.Lstm.RefIdx
-- ==== Proof.LibScatterAddPairs.lean ====
/-
  GENERAL LEMMA. A `stablehlo.scatter` with an `add` body whose index vectors are (row, column) PAIRS, read at one element.

  The operand is a rank-2 array [R, N]; the scatter indices are a rank-3 array [P, L, 2] whose last axis holds the
  pair; the updates are a rank-2 array [P, L]; both operand axes are scattered (no window axis). Update (p, l) lands
  on the operand element whose row is the SIGNED value of index word (p, l, 0) and whose column is the signed value of
  index word (p, l, 1), and is dropped when either lies outside the operand. Over the extended reals the result at
  element (r, b) is the operand's element plus the sum of the updates that land there (`hostScatterAdd_pairs_apply`).
-/
import Idealize.ShloMosaic.PureOps.Ideal
import Idealize.ShloMosaic.Lib.ValueIdx

noncomputable section

namespace Idealize.ShloMosaic.ScatterPairs

open Idealize.ShloMosaic Idealize.ShloMosaic.ValueIdx

/-- An update lands on element `i` exactly when, on every operand axis, start plus window coordinate is `i`'s
    coordinate (as integers): in range is then automatic, and out of range matches no element. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hin
      intro a
      have e := congrFun (Option.some.inj h) a
      have e' : (d.start j idx a + (d.window j a : Int)).toNat = (i a).val := congrArg Fin.val e
      have := (hin a).1
      omega
    · exact absurd h (by simp)
  · intro h
    have hin : ∀ a, 0 ≤ d.start j idx a + (d.window j a : Int) ∧ d.start j idx a + (d.window j a : Int) < s.size a := by
      intro a
      have := (i a).isLt
      rw [h a]
      omega
    rw [dif_pos hin]
    congr 1
    funext a
    apply Fin.ext
    show (d.start j idx a + (d.window j a : Int)).toNat = (i a).val
    rw [h a]
    omega

variable {R N P L : Nat}

/-- For the pair dimension numbers, update `(p, l)` lands on `(r, b)` exactly when its two index words read, signed,
    `r` and `b`. -/
theorem resultIdx?_pairs (d : ScatterDims ⟨2, ![R, N]⟩ ⟨3, ![P, L, 2]⟩ ⟨2, ![P, L]⟩)
    (h1 : d.updateWindowDims = []) (h2 : d.insertedWindowDims = [0, 1]) (h3 : d.scatterDimsToOperandDims = [0, 1])
    (h4 : d.indexVectorDim = 2) {w : Nat} (j : (⟨2, ![P, L]⟩ : Shape).Idx) (idx : IVec ⟨3, ![P, L, 2]⟩ w)
    (i : (⟨2, ![R, N]⟩ : Shape).Idx) :
    d.resultIdx? j idx = some i ↔
      (idx (ix3 (j 0) (j 1) (0 : Fin 2))).toInt = ((i 0).val : Int) ∧ (idx (ix3 (j 0) (j 1) (1 : Fin 2))).toInt = ((i 1).val : Int) := by
  obtain ⟨uw, iw, sd, iv, wf⟩ := d
  simp only at h1 h2 h3 h4
  subst h1 h2 h3 h4
  rw [resultIdx?_eq_some_iff]
  have hw : ∀ a : Fin 2, ScatterDims.window (s := ⟨2, ![R, N]⟩) ⟨[], [0, 1], [0, 1], 2, wf⟩ j a = 0 := by
    intro a
    unfold ScatterDims.window
    rw [dif_neg]
    show a ∉ (List.finRange 2).filter (· ∉ ([0, 1] : List (Fin 2)))
    fin_cases a <;> decide
  have hmem : ∀ a : Fin 2, a ∈ ([0, 1] : List (Fin 2)) := by intro a; fin_cases a <;> decide
  have hs : ∀ a : Fin 2, ScatterDims.start (s := ⟨2, ![R, N]⟩) ⟨[], [0, 1], [0, 1], 2, wf⟩ j idx a
      = (idx (ix3 (j 0) (j 1) a)).toInt := by
    intro a
    unfold ScatterDims.start
    rw [dif_pos (hmem a)]
    congr 2
    funext b
    unfold ScatterDims.siIdx
    match b with
    | ⟨0, _⟩ =>
      rw [dif_neg (show ¬ (0 : Nat) = 2 by decide)]
      unfold ScatterDims.siCoord
      apply Fin.ext
      rfl
    | ⟨1, _⟩ =>
      rw [dif_neg (show ¬ (1 : Nat) = 2 by decide)]
      unfold ScatterDims.siCoord
      apply Fin.ext
      rfl
    | ⟨2, _⟩ =>
      rw [dif_pos rfl]
      apply Fin.ext
      show List.idxOf a ([0, 1] : List (Fin 2)) = a.val
      fin_cases a <;> rfl
  constructor
  · intro h
    have h0 := h 0
    have h1 := h 1
    rw [hs, hw] at h0 h1
    exact ⟨by simpa using h0, by simpa using h1⟩
  · rintro ⟨e0, e1⟩ a
    rw [hs, hw]
    match a with
    | ⟨0, _⟩ => simpa using e0
    | ⟨1, _⟩ => simpa using e1

open scoped BigOperators

/-- The scatter-add at element `i`, over the extended reals: the operand's element plus, over ALL updates, the
    update where its pair reads `i` and nothing where it does not. -/
theorem hostScatterAdd_pairs_apply (d : ScatterDims ⟨2, ![R, N]⟩ ⟨3, ![P, L, 2]⟩ ⟨2, ![P, L]⟩)
    (h1 : d.updateWindowDims = []) (h2 : d.insertedWindowDims = [0, 1]) (h3 : d.scatterDimsToOperandDims = [0, 1])
    (h4 : d.indexVectorDim = 2) {w : Nat} (x : (⟨2, ![R, N]⟩ : Shape).Idx → EReal) (idx : IVec ⟨3, ![P, L, 2]⟩ w)
    (upd : (⟨2, ![P, L]⟩ : Shape).Idx → EReal) (i : (⟨2, ![R, N]⟩ : Shape).Idx) :
    Ideal.hostScatterAdd d x idx upd i
      = x i + ∑ p : Fin P, ∑ l : Fin L,
          if (idx (ix3 p l (0 : Fin 2))).toInt = ((i 0).val : Int) ∧ (idx (ix3 p l (1 : Fin 2))).toInt = ((i 1).val : Int)
          then upd (ix2 p l) else 0 := by
  unfold Ideal.hostScatterAdd
  rw [Finset.sum_filter, sum_idx2]
  congr 1
  refine Finset.sum_congr rfl fun p _ => Finset.sum_congr rfl fun l _ => ?_
  have e := resultIdx?_pairs d h1 h2 h3 h4 (ix2 p l) idx i
  by_cases hc : (idx (ix3 p l (0 : Fin 2))).toInt = ((i 0).val : Int) ∧ (idx (ix3 p l (1 : Fin 2))).toInt = ((i 1).val : Int)
  · rw [if_pos (e.mpr hc), if_pos hc]
  · rw [if_neg (fun h => hc (e.mp h)), if_neg hc]

/-- When update `(p, l)`'s row word reads its own row `p` (the rows are an iota), only row `r`'s updates can land on
    `(r, b)`: the result is the operand's element plus the sum over that row's `L` slots of the update whose column word
    reads `b`. -/
theorem hostScatterAdd_ownRow_apply (d : ScatterDims ⟨2, ![R, N]⟩ ⟨3, ![R, L, 2]⟩ ⟨2, ![R, L]⟩)
    (h1 : d.updateWindowDims = []) (h2 : d.insertedWindowDims = [0, 1]) (h3 : d.scatterDimsToOperandDims = [0, 1])
    (h4 : d.indexVectorDim = 2) {w : Nat} (x : (⟨2, ![R, N]⟩ : Shape).Idx → EReal) (idx : IVec ⟨3, ![R, L, 2]⟩ w)
    (upd : (⟨2, ![R, L]⟩ : Shape).Idx → EReal) (hrow : ∀ (p : Fin R) (l : Fin L), (idx (ix3 p l (0 : Fin 2))).toInt = (p.val : Int))
    (r : Fin R) (b : Fin N) :
    Ideal.hostScatterAdd d x idx upd (ix2 r b)
      = x (ix2 r b) + ∑ l : Fin L, if (idx (ix3 r l (1 : Fin 2))).toInt = (b.val : Int) then upd (ix2 r l) else 0 := by
  rw [hostScatterAdd_pairs_apply d h1 h2 h3 h4]
  show x (ix2 r b) + (∑ p : Fin R, ∑ l : Fin L,
      if (idx (ix3 p l (0 : Fin 2))).toInt = (r.val : Int) ∧ (idx (ix3 p l (1 : Fin 2))).toInt = (b.val : Int)
      then upd (ix2 p l) else 0) = _
  congr 1
  rw [Finset.sum_eq_single r]
  · refine Finset.sum_congr rfl fun l _ => ?_
    simp only [hrow, true_and]
  · intro p _ hp
    refine Finset.sum_eq_zero fun l _ => ?_
    rw [if_neg]
    rintro ⟨e, -⟩
    rw [hrow] at e
    exact hp (Fin.ext (by exact_mod_cast e))
  · intro h
    exact absurd (Finset.mem_univ _) h

end Idealize.ShloMosaic.ScatterPairs

end
-- ==== Proof.LibScatterRelated.lean ====
/-
  GENERAL LEMMAS about `stablehlo.scatter` with the body that returns the update (`x.at[idx].set(v)`).

  The host's scatter is a left fold over the update indices, in row-major order, of point updates: update `j` lands
  on the operand position `d.resultIdx? j idx` (nowhere when that is `none`: an out-of-range index is dropped) and
  replaces the element there. With repeated positions the LAST update in that order wins, so the result at a
  position depends on the whole sequence of landing positions, not only on the set of them.

  `scatter_set_related`: TWO such scatters of the SAME updates, into operands of different shapes through different
  index arrays, agree on every pair of related positions `R p p'` provided the operands agree there and every update
  lands on `p` exactly when it lands on `p'`. No injectivity, no range hypothesis: repeated and dropped indices are
  allowed, because the two folds step together.

  `resultIdx?_pairs1` / `resultIdx?_col1`: where an update lands, for the dimension numbers jnp's
  `x.at[rows, cols].set(v)` on a matrix and `x.at[cols].set(v)` on a vector lower to (index vectors along axis 1 of an
  [n, 2] or [n, 1] index array, no window axis): update `j` lands on the position whose coordinates are the SIGNED
  values of its index words, and nowhere when one of them is outside the operand.
-/
import Idealize.ShloMosaic.PureOps.ShapeOps
import Idealize.ShloMosaic.Lib.ValueIdx
import proofs.«408214_j57698590655171_3_alg».proof.Proof.LibScatterAddPairs

namespace Cert.Lib

open Idealize.ShloMosaic Idealize.ShloMosaic.ValueIdx

/-- Two set-scatters of the same updates agree on related positions when the operands do and every update lands
    on one exactly when it lands on the other. -/
theorem scatter_set_related {α : Type} {s s' si si' u : Shape} {w w' : Nat}
    (d : ScatterDims s si u) (d' : ScatterDims s' si' u) (x : s.Idx → α) (x' : s'.Idx → α)
    (idx : IVec si w) (idx' : IVec si' w') (upd : u.Idx → α) (R : s.Idx → s'.Idx → Prop)
    (hx : ∀ p p', R p p' → x p = x' p')
    (hidx : ∀ j p p', R p p' → (d.resultIdx? j idx = some p ↔ d'.resultIdx? j idx' = some p')) :
    ∀ p p', R p p' →
      Host.scatter d (fun _ b => b) x idx upd p = Host.scatter d' (fun _ b => b) x' idx' upd p' := by
  -- both results are left folds of point updates over the same list of update numbers: induct on that list, for all
  -- pairs of accumulators that agree on related positions
  unfold Host.scatter
  generalize List.finRange u.numel = l
  induction l generalizing x x' with
  | nil => intro p p' hR; exact hx p p' hR
  | cons n l ih =>
    intro p p' hR
    rw [List.foldl_cons, List.foldl_cons]
    refine ih _ _ ?_ p p' hR
    -- one step keeps the agreement: the update lands on `q` exactly when it lands on `q'`
    intro q q' hq
    have h := hidx (u.rowMajor.symm n) q q' hq
    cases e : d.resultIdx? (u.rowMajor.symm n) idx with
    | none =>
      cases e' : d'.resultIdx? (u.rowMajor.symm n) idx' with
      | none => exact hx q q' hq
      | some i' =>
        rw [e, e'] at h
        have hne : q' ≠ i' := fun hh => by
          have := h.mpr (by rw [hh])
          exact absurd this (by simp)
        show x q = if q' = i' then _ else x' q'
        rw [if_neg hne]
        exact hx q q' hq
    | some i =>
      cases e' : d'.resultIdx? (u.rowMajor.symm n) idx' with
      | none =>
        rw [e, e'] at h
        have hne : q ≠ i := fun hh => by
          have := h.mp (by rw [hh])
          exact absurd this (by simp)
        show (if q = i then _ else x q) = x' q'
        rw [if_neg hne]
        exact hx q q' hq
      | some i' =>
        rw [e, e'] at h
        show (if q = i then _ else x q) = (if q' = i' then _ else x' q')
        by_cases hq1 : q = i
        · have hq2 : q' = i' := (Option.some.inj (h.mp (by rw [hq1]))).symm
          rw [if_pos hq1, if_pos hq2]
        · have hq2 : q' ≠ i' := fun hh => hq1 (Option.some.inj (h.mpr (by rw [hh]))).symm
          rw [if_neg hq1, if_neg hq2]
          exact hx q q' hq

/-- `x.at[rows, cols].set(v)` on an [R, N] matrix: update `j` lands on `(r, b)` exactly when its two index words read,
    signed, `r` and `b`. -/
theorem resultIdx?_pairs1 {R N n : Nat} (d : ScatterDims ⟨2, ![R, N]⟩ ⟨2, ![n, 2]⟩ ⟨1, ![n]⟩)
    (h1 : d.updateWindowDims = []) (h2 : d.insertedWindowDims = [0, 1]) (h3 : d.scatterDimsToOperandDims = [0, 1])
    (h4 : d.indexVectorDim = 1) {w : Nat} (j : (⟨1, ![n]⟩ : Shape).Idx) (idx : IVec ⟨2, ![n, 2]⟩ w)
    (i : (⟨2, ![R, N]⟩ : Shape).Idx) :
    d.resultIdx? j idx = some i ↔
      (idx (ix2 (j 0) (0 : Fin 2))).toInt = ((i 0).val : Int) ∧ (idx (ix2 (j 0) (1 : Fin 2))).toInt = ((i 1).val : Int) := by
  obtain ⟨uw, iw, sd, iv, wf⟩ := d
  simp only at h1 h2 h3 h4
  subst h1 h2 h3 h4
  rw [ScatterPairs.resultIdx?_eq_some_iff]
  -- no window axis: the window coordinate is 0 on both operand axes
  have hw : ∀ a : Fin 2, ScatterDims.window (s := ⟨2, ![R, N]⟩) ⟨[], [0, 1], [0, 1], 1, wf⟩ j a = 0 := by
    intro a
    unfold ScatterDims.window
    rw [dif_neg]
    show a ∉ (List.finRange 2).filter (· ∉ ([0, 1] : List (Fin 2)))
    fin_cases a <;> decide
  have hmem : ∀ a : Fin 2, a ∈ ([0, 1] : List (Fin 2)) := by intro a; fin_cases a <;> decide
  -- the start on operand axis `a` is the signed index word at (update number, `a`)
  have hs : ∀ a : Fin 2, ScatterDims.start (s := ⟨2, ![R, N]⟩) ⟨[], [0, 1], [0, 1], 1, wf⟩ j idx a
      = (idx (ix2 (j 0) a)).toInt := by
    intro a
    unfold ScatterDims.start
    rw [dif_pos (hmem a)]
    congr 2
    funext b
    unfold ScatterDims.siIdx
    match b with
    | ⟨0, _⟩ =>
      rw [dif_neg (show ¬ (0 : Nat) = 1 by decide)]
      unfold ScatterDims.siCoord
      apply Fin.ext
      rfl
    | ⟨1, _⟩ =>
      rw [dif_pos rfl]
      apply Fin.ext
      show List.idxOf a ([0, 1] : List (Fin 2)) = a.val
      fin_cases a <;> rfl
  constructor
  · intro h
    have h0 := h 0
    have h1 := h 1
    rw [hs, hw] at h0 h1
    exact ⟨by simpa using h0, by simpa using h1⟩
  · rintro ⟨e0, e1⟩ a
    rw [hs, hw]
    match a with
    | ⟨0, _⟩ => simpa using e0
    | ⟨1, _⟩ => simpa using e1

/-- `x.at[cols].set(v)` on a length-N vector: update `j` lands on `b` exactly when its index word reads, signed, `b`. -/
theorem resultIdx?_col1 {N n : Nat} (d : ScatterDims ⟨1, ![N]⟩ ⟨2, ![n, 1]⟩ ⟨1, ![n]⟩)
    (h1 : d.updateWindowDims = []) (h2 : d.insertedWindowDims = [0]) (h3 : d.scatterDimsToOperandDims = [0])
    (h4 : d.indexVectorDim = 1) {w : Nat} (j : (⟨1, ![n]⟩ : Shape).Idx) (idx : IVec ⟨2, ![n, 1]⟩ w)
    (i : (⟨1, ![N]⟩ : Shape).Idx) :
    d.resultIdx? j idx = some i ↔ (idx (ix2 (j 0) (0 : Fin 1))).toInt = ((i 0).val : Int) := by
  obtain ⟨uw, iw, sd, iv, wf⟩ := d
  simp only at h1 h2 h3 h4
  subst h1 h2 h3 h4
  rw [ScatterPairs.resultIdx?_eq_some_iff]
  -- no window axis: the window coordinate is 0 on the operand's axis
  have hw : ∀ a : Fin 1, ScatterDims.window (s := ⟨1, ![N]⟩) ⟨[], [0], [0], 1, wf⟩ j a = 0 := by
    intro a
    unfold ScatterDims.window
    rw [dif_neg]
    show a ∉ (List.finRange 1).filter (· ∉ ([0] : List (Fin 1)))
    fin_cases a <;> decide
  have hmem : ∀ a : Fin 1, a ∈ ([0] : List (Fin 1)) := by intro a; fin_cases a <;> decide
  -- the start on the operand's axis is the signed index word at (update number, 0)
  have hs : ∀ a : Fin 1, ScatterDims.start (s := ⟨1, ![N]⟩) ⟨[], [0], [0], 1, wf⟩ j idx a
      = (idx (ix2 (j 0) a)).toInt := by
    intro a
    unfold ScatterDims.start
    rw [dif_pos (hmem a)]
    congr 2
    funext b
    unfold ScatterDims.siIdx
    match b with
    | ⟨0, _⟩ =>
      rw [dif_neg (show ¬ (0 : Nat) = 1 by decide)]
      unfold ScatterDims.siCoord
      apply Fin.ext
      rfl
    | ⟨1, _⟩ =>
      rw [dif_pos rfl]
      apply Fin.ext
      show List.idxOf a ([0] : List (Fin 1)) = a.val
      fin_cases a <;> rfl
  constructor
  · intro h
    have h0 := h 0
    rw [hs, hw] at h0
    simpa using h0
  · intro e0 a
    rw [hs, hw]
    match a with
    | ⟨0, _⟩ => simpa using e0

end Cert.Lib
-- ==== Proof.BridgeW.lean ====
/-
  The kernel's dense weights against the reference's, column by column.

  Both programs scatter the SAME sparse values, in the same order, into a zero matrix: the reference at
  (row, col) of a 384-wide matrix, the kernel at (row, padded col) of a 512-wide one, each index first normalised
  (a negative word has the axis' extent added) and an update dropped when a normalised word is outside its axis.
  For a gate `g < 4` and a unit `o < 96` an update lands on kernel column `g · 128 + o` exactly when it lands on
  reference column `g · 96 + o` (and on the same row), so the two results agree there whatever the indices are —
  repeated, negative or out of range: the two folds step together and the last update on a position wins in both.
-/
import proofs.«408214_j57698590655171_3_alg».proof.Proof.KHost
import proofs.«408214_j57698590655171_3_alg».proof.Proof.RefIdx
import proofs.«408214_j57698590655171_3_alg».proof.Proof.LibScatterRelated
import proofs.«408214_j57698590655171_3_alg».proof.Proof.PadCol
import proofs.«408214_j57698590655171_3_alg».proof.Proof.Spec
import proofs.«408214_j57698590655171_3_alg».proof.Proof.Gen.ReferenceIdeal.Read
import Idealize.ShloMosaic.Lib.ValueIdx

set_option maxRecDepth 16384

noncomputable section

namespace Cert.Lstm.Bridge

open Idealize.ShloMosaic Idealize.ShloMosaic.TcCoe Idealize.SL.Sem Idealize.ShloMosaic.ValueIdx Cert.Lstm

variable (m : (ℓ : Loc Cert.KernelIdeal.nD Cert.KernelIdeal.τ Cert.KernelIdeal.sig) → Buf (Elt Ideal) ℓ)

/-- Column `g · 128 + o` of the kernel's dense input weights is column `g · 96 + o` of the reference's. -/
theorem wk_eq (c : Dev Cert.KernelIdeal.nD) (k : Fin 322) (g : Fin 4) (o : Fin 96) :
    (Cert.KernelIdeal.Gen.V m c Cert.KernelIdeal.main_v63 : Cert.KernelIdeal.S322x512.Idx → EReal) (ix2 k (gcol g o))
      = Cert.ReferenceIdeal.Read.val_main_v18 (F := Ideal)
          (m ((c : Thread Cert.KernelIdeal.nD Cert.KernelIdeal.τ).loc Cert.KernelIdeal.main_arg3))
          (m ((c : Thread Cert.KernelIdeal.nD Cert.KernelIdeal.τ).loc Cert.KernelIdeal.main_arg6)) (ix2 k (rcol g o)) := by
  obtain ⟨idx, hrow, hcol, hV⟩ := Cert.Lstm.KHost.V_wk m c
  rw [hV]
  -- over the extended reals the conversion to bf16 is the identity; the reference's result is its scatter
  rw [truncf_apply]
  unfold Cert.ReferenceIdeal.Read.val_main_v18
  -- the two scatters step together on the pairs (row, padded column of a unit) ~ (row, packed column of the unit)
  refine Cert.Lib.scatter_set_related _ _ _ _ _ _ _
    (fun p p' => ∃ (k : Fin 322) (g : Fin 4) (o : Fin 96), p = ix2 k (gcol g o) ∧ p' = ix2 k (rcol g o)) ?hx ?hidx _ _ ⟨k, g, o, rfl, rfl⟩
  case hx =>
    -- both operands are the zero word everywhere
    rintro p p' -
    rw [Cert.ReferenceIdeal.Read.val_main_v0_apply, Cert.ReferenceIdeal.Read.val_main_cst_apply,
      broadcastInDim_apply _ Cert.KernelIdeal.Gen.bcast_S_S322x512 _ p (fun a => a.elim0) (fun a => a.elim0)]
    rfl
  case hidx =>
    -- an update lands on (k, g · 128 + o) of the padded matrix exactly when it lands on (k, g · 96 + o) of the packed one:
    -- the row words are the same normalised word, the column words are related by the padding
    rintro j p p' ⟨k, g, o, rfl, rfl⟩
    rw [Cert.Lib.resultIdx?_pairs1 Cert.KernelIdeal.scatter_S322x512_S41216x2_S41216_n_01_01_1 rfl rfl rfl rfl,
      Cert.Lib.resultIdx?_pairs1 Cert.ReferenceIdeal.scatter_S322x384_S41216x2_S41216_n_01_01_1 rfl rfl rfl rfl]
    -- rows: both index arrays hold the same normalised word
    have e0 : idx (ix2 (j 0 : Fin 41216) (0 : Fin 2))
        = Cert.ReferenceIdeal.Read.val_main_v17 (F := Ideal) (m ((c : Thread Cert.KernelIdeal.nD Cert.KernelIdeal.τ).loc Cert.KernelIdeal.main_arg6)) (ix2 (j 0 : Fin 41216) (0 : Fin 2)) :=
      (hrow (j 0)).trans (Cert.Lstm.RefIdx.v17_row _ (j 0)).symm
    -- columns: the padded word reads g · 128 + o exactly when the packed word reads g · 96 + o
    have hp := padcol_hit_iff (m ((c : Thread Cert.KernelIdeal.nD Cert.KernelIdeal.τ).loc Cert.KernelIdeal.main_arg6) (ix2 (j 0 : Fin 41216) (1 : Fin 2))) g o
    have ec := Cert.Lstm.RefIdx.v17_col (m ((c : Thread Cert.KernelIdeal.nD Cert.KernelIdeal.τ).loc Cert.KernelIdeal.main_arg6)) (j 0)
    have hc := hcol (j 0)
    exact and_congr (Iff.of_eq (congrArg (fun w : BitVec 32 => w.toInt = ((k.val : Nat) : Int)) e0))
      ((Iff.of_eq (congrArg (fun w : BitVec 32 => w.toInt = ((g.val * 128 + o.val : Nat) : Int)) hc)).trans
        (hp.trans (Iff.of_eq (congrArg (fun w : BitVec 32 => w.toInt = ((g.val * 96 + o.val : Nat) : Int)) ec.symm))))

/-- Column `g · 128 + o` of the kernel's dense recurrent weights is column `g · 96 + o` of the reference's. -/
theorem wr_eq (c : Dev Cert.KernelIdeal.nD) (k : Fin 96) (g : Fin 4) (o : Fin 96) :
    (Cert.KernelIdeal.Gen.V m c Cert.KernelIdeal.main_v64 : Cert.KernelIdeal.S96x512.Idx → EReal) (ix2 k (gcol g o))
      = Cert.ReferenceIdeal.Read.val_main_v37 (F := Ideal)
          (m ((c : Thread Cert.KernelIdeal.nD Cert.KernelIdeal.τ).loc Cert.KernelIdeal.main_arg4))
          (m ((c : Thread Cert.KernelIdeal.nD Cert.KernelIdeal.τ).loc Cert.KernelIdeal.main_arg7)) (ix2 k (rcol g o)) := by
  obtain ⟨idx, hrow, hcol, hV⟩ := Cert.Lstm.KHost.V_wr m c
  rw [hV]
  -- over the extended reals the conversion to bf16 is the identity; the reference's result is its scatter
  rw [truncf_apply]
  unfold Cert.ReferenceIdeal.Read.val_main_v37
  -- the two scatters step together on the pairs (row, padded column of a unit) ~ (row, packed column of the unit)
  refine Cert.Lib.scatter_set_related _ _ _ _ _ _ _
    (fun p p' => ∃ (k : Fin 96) (g : Fin 4) (o : Fin 96), p = ix2 k (gcol g o) ∧ p' = ix2 k (rcol g o)) ?hx ?hidx _ _ ⟨k, g, o, rfl, rfl⟩
  case hx =>
    -- both operands are the zero word everywhere
    rintro p p' -
    rw [Cert.ReferenceIdeal.Read.val_main_v19_apply, Cert.ReferenceIdeal.Read.val_main_cst_3_apply,
      broadcastInDim_apply _ Cert.KernelIdeal.Gen.bcast_S_S96x512 _ p (fun a => a.elim0) (fun a => a.elim0)]
    rfl
  case hidx =>
    -- an update lands on (k, g · 128 + o) of the padded matrix exactly when it lands on (k, g · 96 + o) of the packed one:
    -- the row words are the same normalised word, the column words are related by the padding
    rintro j p p' ⟨k, g, o, rfl, rfl⟩
    rw [Cert.Lib.resultIdx?_pairs1 Cert.KernelIdeal.scatter_S96x512_S12288x2_S12288_n_01_01_1 rfl rfl rfl rfl,
      Cert.Lib.resultIdx?_pairs1 Cert.ReferenceIdeal.scatter_S96x384_S12288x2_S12288_n_01_01_1 rfl rfl rfl rfl]
    -- rows: both index arrays hold the same normalised word
    have e0 : idx (ix2 (j 0 : Fin 12288) (0 : Fin 2))
        = Cert.ReferenceIdeal.Read.val_main_v36 (F := Ideal) (m ((c : Thread Cert.KernelIdeal.nD Cert.KernelIdeal.τ).loc Cert.KernelIdeal.main_arg7)) (ix2 (j 0 : Fin 12288) (0 : Fin 2)) :=
      (hrow (j 0)).trans (Cert.Lstm.RefIdx.v36_row _ (j 0)).symm
    -- columns: the padded word reads g · 128 + o exactly when the packed word reads g · 96 + o
    have hp := padcol_hit_iff (m ((c : Thread Cert.KernelIdeal.nD Cert.KernelIdeal.τ).loc Cert.KernelIdeal.main_arg7) (ix2 (j 0 : Fin 12288) (1 : Fin 2))) g o
    have ec := Cert.Lstm.RefIdx.v36_col (m ((c : Thread Cert.KernelIdeal.nD Cert.KernelIdeal.τ).loc Cert.KernelIdeal.main_arg7)) (j 0)
    have hc := hcol (j 0)
    exact and_congr (Iff.of_eq (congrArg (fun w : BitVec 32 => w.toInt = ((k.val : Nat) : Int)) e0))
      ((Iff.of_eq (congrArg (fun w : BitVec 32 => w.toInt = ((g.val * 128 + o.val : Nat) : Int)) hc)).trans
        (hp.trans (Iff.of_eq (congrArg (fun w : BitVec 32 => w.toInt = ((g.val * 96 + o.val : Nat) : Int)) ec.symm))))

end Cert.Lstm.Bridge

end
-- ==== Proof.LibScatterAtPosition.lean ====
/-
  A scatter read at ONE position of its operand.

  The host's scatter is a left fold, over the update indices in order, of point updates: update `j` lands on the
  operand position `d.resultIdx? j idx` (nowhere, when that is `none`) and replaces the element there by the body
  `f` applied to it and the update's element. Read at one position `i` the fold needs only what happens AT `i`:
    * `scatter_apply_of_miss`: if no update lands on `i`, the result there is the operand's element;
    * `scatter_apply_of_hit`:  if exactly one update `j` lands on `i`, the result there is `f (x i) (upd j)`.
  Neither mentions the extents, the dimension numbers or the contents of the index array beyond where the updates
  land, so neither makes Lean evaluate a fold or an index array of literal size. They rest on two lemmas about any
  left fold of steps that each touch at most one position (`foldl_step_miss`, `foldl_step_hit`).
  Typical use: `x.at[rows, cols].set(v)` at pairwise distinct in-bounds positions (a diagonal, a permutation) —
  show where update `j` lands, that distinct updates land on distinct positions, and split on whether `i` is hit.
-/
import Idealize.ShloMosaic.PureOps.ShapeOps

namespace Cert.Lib

open Idealize.ShloMosaic

/-! ## A scatter whose updates land on pairwise distinct positions, read at a position

The host's scatter is a left fold of point updates over the update indices. Read at one position of the operand it
needs only what happens AT that position: if no update lands there the operand's element survives, and if exactly one
does the result is the body applied to the operand's element and that update. Neither statement mentions the extents,
the dimension numbers or the index array beyond where the updates land. -/

section ScatterAtAPosition
/-- A left fold of steps that each leave position `i` alone leaves it alone. -/
theorem foldl_step_miss {ι κ α : Type} (pos : κ → Option ι) (step : (ι → α) → κ → ι → α)
    (hmiss : ∀ r n i, pos n ≠ some i → step r n i = r i) :
    ∀ (l : List κ) (x : ι → α) (i : ι), (∀ n ∈ l, pos n ≠ some i) → l.foldl step x i = x i
  | [], _, _, _ => rfl
  | a :: l, x, i, h => by
    rw [List.foldl_cons, foldl_step_miss pos step hmiss l (step x a) i (fun n hn => h n (List.mem_cons_of_mem _ hn)),
      hmiss x a i (h a List.mem_cons_self)]

/-- A left fold of point updates, over a list without repetition in which exactly `n` lands on position `i`,
    holds at `i` that one update applied to the starting value. -/
theorem foldl_step_hit {ι κ α : Type} (f : α → α → α) (pos : κ → Option ι) (v : κ → α) (step : (ι → α) → κ → ι → α)
    (hhit : ∀ r n i, pos n = some i → step r n i = f (r i) (v n))
    (hmiss : ∀ r n i, pos n ≠ some i → step r n i = r i) :
    ∀ (l : List κ) (x : ι → α) (i : ι) (n : κ), l.Nodup → n ∈ l → pos n = some i →
      (∀ n' ∈ l, pos n' = some i → n' = n) → l.foldl step x i = f (x i) (v n)
  | [], _, _, _, _, hn, _, _ => absurd hn List.not_mem_nil
  | a :: l, x, i, n, hnd, hn, hp, hu => by
    rw [List.foldl_cons]
    have hnd' := List.nodup_cons.1 hnd
    by_cases han : a = n
    · subst han
      rw [foldl_step_miss pos step hmiss l (step x a) i (fun n' hn' e => hnd'.1 (hu n' (List.mem_cons_of_mem _ hn') e ▸ hn')),
        hhit x a i hp]
    · have hn' : n ∈ l := (List.mem_cons.1 hn).resolve_left (fun e => han e.symm)
      rw [foldl_step_hit f pos v step hhit hmiss l (step x a) i n hnd'.2 hn' hp (fun n' h' => hu n' (List.mem_cons_of_mem _ h')),
        hmiss x a i (fun e => han (hu a List.mem_cons_self e))]

variable {α : Type} {s si u : Shape} {w : Nat}

/-- A scatter read at a position no update lands on is the operand there. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  unfold Host.scatter
  refine foldl_step_miss (fun n => d.resultIdx? (u.rowMajor.symm n) idx) _ ?_ _ x i (fun n _ => h _)
  intro r n i' hne
  generalize d.resultIdx? (u.rowMajor.symm n) idx = o at hne
  cases o with
  | none => rfl
  | some i0 => exact if_neg (fun e => hne (congrArg some e.symm))

/-- A scatter read at a position exactly one update lands on is the body applied to the operand there and that update. -/
theorem scatter_apply_of_hit (d : ScatterDims s si u) (f : α → α → α) (x : s.Idx → α) (idx : IVec si w) (upd : u.Idx → α)
    (i : s.Idx) (j : u.Idx) (hj : d.resultIdx? j idx = some i) (hu : ∀ j', d.resultIdx? j' idx = some i → j' = j) :
    Host.scatter d f x idx upd i = f (x i) (upd j) := by
  unfold Host.scatter
  refine (foldl_step_hit f (fun n => d.resultIdx? (u.rowMajor.symm n) idx) (fun n => upd (u.rowMajor.symm n))
    _ ?_ ?_ (List.finRange u.numel) x i (u.rowMajor j) (List.nodup_finRange _) (List.mem_finRange _)
      ?_ (fun n' _ e => ?_)).trans ?_
  · intro r n i' e
    simp only [e]
    exact if_pos trivial
  · intro r n i' hne
    generalize d.resultIdx? (u.rowMajor.symm n) idx = o at hne
    cases o with
    | none => rfl
    | some i0 => exact if_neg (fun e => hne (congrArg some e.symm))
  · simp only [Equiv.symm_apply_apply]; exact hj
  · have := hu _ e
    rw [← this, Equiv.apply_symm_apply]
  · simp only [Equiv.symm_apply_apply]

end ScatterAtAPosition

end Cert.Lib
-- ==== Proof.BridgeB.lean ====
/-
  The kernel's padded bias row against the bias.

  The wrapper sets the 384 bias values into a zero row of 512 at the padded columns of 0, 1, …, 383: value `j` goes to
  column `(j // 96) · 128 + j % 96`. These columns are pairwise distinct, and column `g · 128 + o` (gate `g < 4`, unit
  `o < 96`) is the padded column of exactly `j = g · 96 + o`: so the row holds `bias (g · 96 + o)` there.
-/
import proofs.«408214_j57698590655171_3_alg».proof.Proof.KHost
import proofs.«408214_j57698590655171_3_alg».proof.Proof.LibScatterRelated
import proofs.«408214_j57698590655171_3_alg».proof.Proof.LibScatterAtPosition
import proofs.«408214_j57698590655171_3_alg».proof.Proof.PadCol
import proofs.«408214_j57698590655171_3_alg».proof.Proof.Spec
import Idealize.ShloMosaic.Lib.ValueIdx
import Idealize.ShloMosaic.Lib.Pipeline.Value
import Idealize.ShloMosaic.Lib.ValueLayout

set_option maxRecDepth 16384

noncomputable section

namespace Cert.Lstm.Bridge

open Idealize.ShloMosaic Idealize.ShloMosaic.TcCoe Idealize.SL.Sem Idealize.ShloMosaic.ValueIdx Cert.Lstm

variable (m : (ℓ : Loc Cert.KernelIdeal.nD Cert.KernelIdeal.τ Cert.KernelIdeal.sig) → Buf (Elt Ideal) ℓ)

/-- Column `g · 128 + o` of the kernel's bias row is entry `g · 96 + o` of the bias. -/
theorem bias_eq (c : Dev Cert.KernelIdeal.nD) (g : Fin 4) (o : Fin 96) :
    (Cert.KernelIdeal.Gen.V m c Cert.KernelIdeal.main_v62 : Cert.KernelIdeal.S1x512.Idx → EReal) (ix2 (0 : Fin 1) (gcol g o))
      = m ((c : Thread Cert.KernelIdeal.nD Cert.KernelIdeal.τ).loc Cert.KernelIdeal.main_arg5) (ix1 (rcol g o)) := by
  obtain ⟨idx, hidx, hV⟩ := Cert.Lstm.KHost.V_bias m c
  rw [hV, shapeCast_a_1a_apply]
  -- update `j'` lands on column `g · 128 + o` exactly when `j' = g · 96 + o`
  have hkey : ∀ j' : Cert.KernelIdeal.S384.Idx,
      Cert.KernelIdeal.scatter_S512_S384x1_S384_n_0_0_1.resultIdx? j' idx = some (ix1 (gcol g o))
        ↔ (j' 0).val = g.val * 96 + o.val := by
    intro j'
    have hlt : (j' 0).val < 2 ^ 31 := by have h384 : (j' 0).val < 384 := (j' 0).isLt; omega
    rw [Cert.Lib.resultIdx?_col1 _ rfl rfl rfl rfl, hidx (j' 0)]
    show (wrapAt 512#32 (padcol (BitVec.ofNat 32 (j' 0).val))).toInt = ((g.val * 128 + o.val : Nat) : Int) ↔ _
    rw [padcol_hit_iff, wrapAt_ofNat_toInt _ _ hlt]
    exact Int.ofNat_inj
  exact Cert.Lib.scatter_apply_of_hit _ _ _ idx _ (ix1 (gcol g o)) (ix1 (rcol g o)) ((hkey _).2 rfl)
    (fun j' hj' => by
      rw [eq_ix1 j']
      exact congrArg ix1 (Fin.ext ((hkey j').1 hj')))

end Cert.Lstm.Bridge

end
-- ==== Proof.Final.lean ====
/-
  The kernel's two result arrays are the reference's two results.

  Element `(r, o)` of either program's hidden state (cell state) is the LSTM cell's function of row `r` of the inputs, the
  hidden state and the cell state, and of the four gates' weight columns and biases for unit `o`. The kernel reads gate
  `g`'s column at `g · 128 + o` of its padded dense weights and bias row, the reference at `g · 96 + o` of its packed ones,
  and those columns hold the same numbers; the row-blocked arguments reach the kernel's region unchanged. So the two
  pre-activations agree gate by gate, and with them the results.
-/
import proofs.«408214_j57698590655171_3_alg».proof.Proof.KBlocks
import proofs.«408214_j57698590655171_3_alg».proof.Proof.RefRead
import proofs.«408214_j57698590655171_3_alg».proof.Proof.BridgeW
import proofs.«408214_j57698590655171_3_alg».proof.Proof.BridgeB

set_option maxRecDepth 16384

noncomputable section

namespace Cert.Lstm.Final

open Idealize.ShloMosaic Idealize.ShloMosaic.TcCoe Idealize.SL.Sem Idealize.ShloMosaic.ValueIdx Cert.Lstm
open Cert.KernelIdeal Cert.KernelIdeal.Gen

variable (m : (ℓ : Loc nD τ sig) → Buf (Elt Ideal) ℓ)

/-- Gate `g`'s pre-activation at `(r, o)` is the same number in the two programs. -/
theorem zK_eq (c : Dev nD) (r : Fin 131072) (o : Fin 96) (g : Fin 4) :
    KBlocks.zK m c r o g
      = RefRead.zR (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) (m ((c : Thread nD τ).loc main_arg7)) r o g := by
  unfold KBlocks.zK RefRead.zR
  have hx : (fun k : Fin 322 => KBlocks.aX m c (ix2 r k)) = fun k => m ((c : Thread nD τ).loc main_arg0) (ix2 r k) :=
    funext fun k => congrFun (V_main_arg0 m c) (ix2 r k)
  have hh : (fun k : Fin 96 => KBlocks.aH m c (ix2 r k)) = fun k => m ((c : Thread nD τ).loc main_arg1) (ix2 r k) :=
    funext fun k => congrFun (V_main_arg1 m c) (ix2 r k)
  have hwk : (fun k : Fin 322 => KBlocks.aWk m c (ix2 k (gcol g o)))
      = fun k => Cert.ReferenceIdeal.Read.val_main_v18 (F := Ideal) (m ((c : Thread nD τ).loc main_arg3))
          (m ((c : Thread nD τ).loc main_arg6)) (ix2 k (rcol g o)) :=
    funext fun k => Bridge.wk_eq m c k g o
  have hwr : (fun k : Fin 96 => KBlocks.aWr m c (ix2 k (gcol g o)))
      = fun k => Cert.ReferenceIdeal.Read.val_main_v37 (F := Ideal) (m ((c : Thread nD τ).loc main_arg4))
          (m ((c : Thread nD τ).loc main_arg7)) (ix2 k (rcol g o)) :=
    funext fun k => Bridge.wr_eq m c k g o
  have hb : KBlocks.aB m c (ix2 (0 : Fin 1) (gcol g o)) = m ((c : Thread nD τ).loc main_arg5) (ix1 (rcol g o)) :=
    Bridge.bias_eq m c g o
  rw [hx, hh, hwk, hwr, hb]

/-- The kernel's hidden-state array is the reference's hidden-state result of the same arguments. -/
theorem hid_eq (c : Dev nD) :
    KBlocks.hidK m c
      = Cert.ReferenceIdeal.Read.val_main_v71 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  funext i
  obtain ⟨r, o, rfl⟩ : ∃ (r : Fin 131072) (o : Fin 96), i = ix2 r o := ⟨i 0, i 1, eq_ix2 i⟩
  rw [RefRead.ref_hid_apply]
  show hidAt (KBlocks.zK m c r o 0) (KBlocks.zK m c r o 1) (KBlocks.zK m c r o 2) (KBlocks.zK m c r o 3) (KBlocks.aC m c (ix2 r o)) = _
  rw [zK_eq, zK_eq, zK_eq, zK_eq, show KBlocks.aC m c (ix2 r o) = m ((c : Thread nD τ).loc main_arg2) (ix2 r o) from
    congrFun (V_main_arg2 m c) (ix2 r o)]

/-- The kernel's cell-state array is the reference's cell-state result of the same arguments. -/
theorem cell_eq (c : Dev nD) :
    KBlocks.cellK m c
      = Cert.ReferenceIdeal.Read.val_main_v69 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  funext i
  obtain ⟨r, o, rfl⟩ : ∃ (r : Fin 131072) (o : Fin 96), i = ix2 r o := ⟨i 0, i 1, eq_ix2 i⟩
  rw [RefRead.ref_cell_apply]
  show cellAt (KBlocks.zK m c r o 0) (KBlocks.zK m c r o 1) (KBlocks.zK m c r o 2) (KBlocks.aC m c (ix2 r o)) = _
  rw [zK_eq, zK_eq, zK_eq, show KBlocks.aC m c (ix2 r o) = m ((c : Thread nD τ).loc main_arg2) (ix2 r o) from
    congrFun (V_main_arg2 m c) (ix2 r o)]

end Cert.Lstm.Final

end
-- ==== Proof.lean ====
/-
  A block-sparse LSTM cell as a Pallas kernel against its jnp reference, over the extended reals.

  The reference scatters the sparse weight values into dense 322 × 384 and 96 × 384 matrices and computes, row by row,
  z = (x · K + h · RK) + bias, splits z into the four gates (96 columns each), and returns
  h' = σ(z_o) · tanh(c'), c' = σ(z_f) · c + σ(z_i) · tanh(z_g). The kernel scatters the same values into 512-wide
  matrices in which gate g owns the 128-lane tile [128 g, 128 g + 128) (its 96 units first, 32 dead lanes after), pads
  the bias the same way, and computes the same cell over 32 grid points of 4096 rows, each in two 2048-row chunks,
  reading gate g's unit o at column 128 g + o.

  The two agree because (i) column 128 g + o of the kernel's dense weights and bias row holds what column 96 g + o of
  the reference's holds — for every index array, repeated, negative or out-of-range words included: the two scatters
  step through the same updates in the same order and an update lands on the one column exactly when it lands on
  the other —, (ii) over the extended reals a matrix product into a zero accumulator is the plain sum, a change of
  float format is the identity and the kernel's logistic is the reference's 1 / (1 + exp (−z)), and (iii) the output
  blocks tile the result arrays, every element written once from its own row. No law needs finite inputs: only the
  order-insensitive meaning of the sums, which both sides take over the same index set in the same grouping.

  The frames of the two kernel programs and the reference's run are the generated ones; the idealization rewrote
  nothing, so there is nothing to preserve.
-/
import proofs.«408214_j57698590655171_3_alg».proof.Defs
import proofs.«408214_j57698590655171_3_alg».proof.Proof.Gen.Kernel
import proofs.«408214_j57698590655171_3_alg».proof.Proof.Gen.Kernel.Skeleton
import proofs.«408214_j57698590655171_3_alg».proof.Proof.Gen.Kernel.Launch
import proofs.«408214_j57698590655171_3_alg».proof.Proof.Gen.Kernel.Points
import proofs.«408214_j57698590655171_3_alg».proof.Proof.Gen.Kernel.Frame
import proofs.«408214_j57698590655171_3_alg».proof.Proof.Gen.KernelIdeal
import proofs.«408214_j57698590655171_3_alg».proof.Proof.Gen.KernelIdeal.Skeleton
import proofs.«408214_j57698590655171_3_alg».proof.Proof.Gen.KernelIdeal.Launch
import proofs.«408214_j57698590655171_3_alg».proof.Proof.Gen.KernelIdeal.Points
import proofs.«408214_j57698590655171_3_alg».proof.Proof.Gen.KernelIdeal.Frame
import proofs.«408214_j57698590655171_3_alg».proof.Proof.Gen.ReferenceIdeal
import proofs.«408214_j57698590655171_3_alg».proof.Proof.Gen.Pre_finite_inputs
import proofs.«408214_j57698590655171_3_alg».proof.Proof.Gen.KernelIdeal.Value
import proofs.«408214_j57698590655171_3_alg».proof.Proof.Gen.ReferenceIdeal.Run
import proofs.«408214_j57698590655171_3_alg».proof.Proof.Gen.ReferenceIdeal.Read
import proofs.«408214_j57698590655171_3_alg».proof.Proof.Final
import Idealize.ShloMosaic.Adequacy
import Idealize.ShloMosaic.Init

set_option maxRecDepth 16384

noncomputable section

namespace Cert.Proof

open Idealize.ShloMosaic Idealize.SL.Sem Cert.Lstm

/-- The word-level kernel runs and leaves its arguments unchanged. -/
theorem frame_k [Cert.Kernel.Facts] [Cert.Pre_finite_inputs.Facts] : Cert.frame_Kernel :=
  fun m ρ _ => Cert.Kernel.Gen.frame m ρ

/-- So does the idealized kernel. -/
theorem frame_ki [Cert.KernelIdeal.Facts] [Cert.Pre_finite_inputs.Facts] : Cert.frame_KernelIdeal :=
  fun m ρ _ => Cert.KernelIdeal.Gen.frame m ρ

/-- The reference is a straight line of host operations: its run, with the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories that agree on the arguments both programs end with the same two arrays: the kernel's blocks tile
    the LSTM cell's function of the arguments, which is what the reference computes. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => KBlocks.hidK m c, fun c => KBlocks.cellK m c, ?_, ?_⟩
  · exact (θ_run Cert.KernelIdeal.defs _ _).mono
      (fun r h c => ⟨(h c).1.trans (KBlocks.final_hid m c), (h c).2.1.trans (KBlocks.final_cell m c), (h c).2.2⟩)
      (Cert.KernelIdeal.Value.run_blocks m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v71_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      exact (Final.hid_eq m c).symm
    · rw [Cert.ReferenceIdeal.Read.val_main_v69_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      exact (Final.cell_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
